-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S1x512 : Shape := ⟨2, ![1, 512]⟩
abbrev S256x512 : Shape := ⟨2, ![256, 512]⟩
abbrev S4x1x512 : Shape := ⟨3, ![4, 1, 512]⟩
abbrev S3 : Shape := ⟨1, ![3]⟩
abbrev S_ : Shape := ⟨0, ![]⟩
abbrev S512 : Shape := ⟨1, ![512]⟩
abbrev S1x1x512 : Shape := ⟨3, ![1, 1, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S4x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v13 : BitVec 32 := Scalar.addi v2 c1_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c1_i32_12 : BitVec 32 := 1#32
  let v24 : BitVec 32 := Scalar.muli v23 c1_i32_12
  let v25 : BitVec 32 := Scalar.addi c0_i32_13 v24
  v25.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_21 : BitVec 32 := 1#32
  let v37 : BitVec 32 := Scalar.muli v36 c1_i32_21
  let v38 : BitVec 32 := Scalar.addi c0_i32_22 v37
  v38.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_23 : BitVec 32 := 3#32
  let v39 : BitVec 32 := Scalar.addi v2 c3_i32_23
  let c4_i32_24 : BitVec 32 := 4#32
  let c0_i32_25 : BitVec 32 := 0#32
  let v40 : BitVec 1 := Scalar.cmpi .eq c4_i32_24 c0_i32_25
  let c1_i32_26 : BitVec 32 := 1#32
  let v41 : BitVec 32 := Scalar.select v40 c1_i32_26 c4_i32_24
  let v42 : BitVec 32 := Scalar.remsi v39 v41
  let c0_i32_28 : BitVec 32 := 0#32
  let v44 : BitVec 1 := Scalar.cmpi .slt v42 c0_i32_28
  let c0_i32_29 : BitVec 32 := 0#32
  let v45 : BitVec 1 := Scalar.cmpi .slt v41 c0_i32_29
  let v46 : BitVec 1 := Scalar.xori v44 v45
  let c0_i32_27 : BitVec 32 := 0#32
  let v43 : BitVec 1 := Scalar.cmpi .ne v42 c0_i32_27
  let v47 : BitVec 1 := Scalar.andi v46 v43
  let v48 : BitVec 32 := Scalar.addi v42 v41
  let v49 : BitVec 32 := Scalar.select v47 v48 v42
  let c1_i32_31 : BitVec 32 := 1#32
  let v50 : BitVec 32 := Scalar.muli v49 c1_i32_31
  let v51 : BitVec 32 := Scalar.addi c0_i32_32 v50
  v51.toNat
def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.addi v2 c2_i32
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c1_i32_15 : BitVec 32 := 1#32
  let v24 : BitVec 32 := Scalar.muli v23 c1_i32_15
  let v25 : BitVec 32 := Scalar.addi c0_i32_16 v24
  v25.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v34 : BitVec 32 := Scalar.addi v2 c1_i32_21
  let c4_i32_22 : BitVec 32 := 4#32
  let c0_i32_23 : BitVec 32 := 0#32
  let v35 : BitVec 1 := Scalar.cmpi .eq c4_i32_22 c0_i32_23
  let c1_i32_24 : BitVec 32 := 1#32
  let v36 : BitVec 32 := Scalar.select v35 c1_i32_24 c4_i32_22
  let v37 : BitVec 32 := Scalar.remsi v34 v36
  let c0_i32_26 : BitVec 32 := 0#32
  let v39 : BitVec 1 := Scalar.cmpi .slt v37 c0_i32_26
  let c0_i32_27 : BitVec 32 := 0#32
  let v40 : BitVec 1 := Scalar.cmpi .slt v36 c0_i32_27
  let v41 : BitVec 1 := Scalar.xori v39 v40
  let c0_i32_25 : BitVec 32 := 0#32
  let v38 : BitVec 1 := Scalar.cmpi .ne v37 c0_i32_25
  let v42 : BitVec 1 := Scalar.andi v41 v38
  let v43 : BitVec 32 := Scalar.addi v37 v36
  let v44 : BitVec 32 := Scalar.select v42 v43 v37
  let c1_i32_32 : BitVec 32 := 1#32
  let v45 : BitVec 32 := Scalar.muli v44 c1_i32_32
  let v46 : BitVec 32 := Scalar.addi c0_i32_33 v45
  v46.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v55 : BitVec 32 := Scalar.addi v2 c3_i32_38
  let c4_i32_39 : BitVec 32 := 4#32
  let c0_i32_40 : BitVec 32 := 0#32
  let v56 : BitVec 1 := Scalar.cmpi .eq c4_i32_39 c0_i32_40
  let c1_i32_41 : BitVec 32 := 1#32
  let v57 : BitVec 32 := Scalar.select v56 c1_i32_41 c4_i32_39
  let v58 : BitVec 32 := Scalar.remsi v55 v57
  let c0_i32_43 : BitVec 32 := 0#32
  let v60 : BitVec 1 := Scalar.cmpi .slt v58 c0_i32_43
  let c0_i32_44 : BitVec 32 := 0#32
  let v61 : BitVec 1 := Scalar.cmpi .slt v57 c0_i32_44
  let v62 : BitVec 1 := Scalar.xori v60 v61
  let c0_i32_42 : BitVec 32 := 0#32
  let v59 : BitVec 1 := Scalar.cmpi .ne v58 c0_i32_42
  let v63 : BitVec 1 := Scalar.andi v62 v59
  let v64 : BitVec 32 := Scalar.addi v58 v57
  let v65 : BitVec 32 := Scalar.select v63 v64 v58
  let c1_i32_49 : BitVec 32 := 1#32
  let v66 : BitVec 32 := Scalar.muli v65 c1_i32_49
  let v67 : BitVec 32 := Scalar.addi c0_i32_50 v66
  v67.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  hamt_1 : (1#32 : BitVec 32).msb = false
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S512 : S256x512.Reduces [0] S512
  shapeCasts_S512_S1x512 : S512.ShapeCasts S1x512
  inb_S4x1x512_S1x1x512_0_0_0 : ∀ a, (![0, 0, 0] : Fin 3 → Nat) a + S1x1x512.size a ≤ S4x1x512.size a
  h_S1x1x512 : 0 < S1x1x512.numel
  shapeCasts_S1x1x512_S1x512 : S1x1x512.ShapeCasts S1x512
  shapeCasts_S1x512_S1x1x512 : S1x512.ShapeCasts S1x1x512
  hamt_3 : (3#32 : BitVec 32).msb = false
  inb_S3_S1_1 : ∀ a, (![1] : Fin 1 → Nat) a + S1.size a ≤ S3.size a
  squeezes_S1_S_ : S1.Squeezes S_
  inb_S4x1x512_S1x1x512_2_0_0 : ∀ a, (![2, 0, 0] : Fin 3 → Nat) a + S1x1x512.size a ≤ S4x1x512.size a
  squeezes_S1x1x512_S1x512 : S1x1x512.Squeezes S1x512
  inb_S3_S1_0 : ∀ a, (![0] : Fin 1 → Nat) a + S1.size a ≤ S3.size a
  inb_S3_S1_2 : ∀ a, (![2] : Fin 1 → Nat) a + S1.size a ≤ S3.size a
  inb_S4x1x512_S1x1x512_3_0_0 : ∀ a, (![3, 0, 0] : Fin 3 → Nat) a + S1x1x512.size a ≤ S4x1x512.size a
  inb_S4x1x512_S1x1x512_1_0_0 : ∀ a, (![1, 0, 0] : Fin 3 → Nat) a + S1x1x512.size a ≤ S4x1x512.size a
  inb_S4x1x512_S4x1x512_0_0_0 : ∀ a, (![0, 0, 0] : Fin 3 → Nat) a + S4x1x512.size a ≤ S4x1x512.size a
  h_S4x1x512 : 0 < S4x1x512.numel
  reduces_S4x1x512_S1x512 : S4x1x512.Reduces [0] S1x512
  inb_S1x512_S1x512_0_0 : ∀ a, (![0, 0] : Fin 2 → Nat) a + S1x512.size a ≤ S1x512.size a
  h_S1x512 : 0 < S1x512.numel
  hcc0_scratch1 : 3 + S3.numel ≤ 9
  hcc0_scratch2 : 6 + S3.numel ≤ 9
  hrank0 : 0 < grid0.rank
  k0_dev1_lt : ∀ (i : grid0.Coords) (d0 : Dev nD), ∀ (k0_h1 : k0_cond1 i = 1#1), (k0_dev1 d0) < nD
  k0_dev2_lt : ∀ (i : grid0.Coords) (d0 : Dev nD), ∀ (k0_h1 : k0_cond1 i = 1#1), (k0_dev2 d0) < nD
  k0_dev3_lt : ∀ (i : grid0.Coords) (d0 : Dev nD), ∀ (k0_h1 : k0_cond1 i = 1#1), (k0_dev3 d0) < nD
  k0_dev4_lt : ∀ (i : grid0.Coords) (d0 : Dev nD), ∀ (k0_h3 : k0_cond3 i = 1#1), (k0_dev4 d0) < nD
  k0_dev5_lt : ∀ (i : grid0.Coords) (d0 : Dev nD), ∀ (k0_h3 : k0_cond3 i = 1#1), (k0_dev5 d0) < nD
  k0_dev6_lt : ∀ (i : grid0.Coords) (d0 : Dev nD), ∀ (k0_h3 : k0_cond3 i = 1#1), (k0_dev6 d0) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)

variable [Facts₀]

abbrev cc0_scratch1 : DmaSems sig S3 := SemArray.consecutive 3 S3 hcc0_scratch1
abbrev cc0_scratch2 : DmaSems sig S3 := SemArray.consecutive 6 S3 hcc0_scratch2

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S512, .f32⟩
  | .hbm, ⟨3, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S4096x512_S512_d0 : S4096x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.KIProto.lean ====
/- Four devices each reduce their own 1024 rows to one row of column maxima, in four steps of 256 rows, and then
   exchange these rows all to all: device c writes its row into slot (4 - d) of device c + d, for d = 1, 2, 3, after
   every device has told the three others, on the barrier semaphore, that it is inside the kernel. This module names
   the peers, the four slots of the exchange buffer, the seven semaphore cells of a device, and the resource algebra. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import Idealize.ShloMosaic.Lib.ValueIdx
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds (one duty a round) beside the exchange's (duties 0..3) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers: the device d places further round the mesh -/

def pk (c : Dev nD) (d : Fin 4) : Dev nD := ⟨(c.val + d.val) % 4, Nat.mod_lt _ (by decide)⟩

theorem pk_zero (c : Dev nD) : pk c 0 = c := by revert c; decide
/-- Going d places on and then 4 - d places on comes back. -/
theorem pk_pk_neg (c : Dev nD) (d : Fin 4) : pk (pk c d) (-d) = c := by revert c d; decide
theorem pk_neg_pk (c : Dev nD) (d : Fin 4) : pk (pk c (-d)) d = c := by revert c d; decide
theorem pk_inj (d : Fin 4) : Function.Injective (fun c : Dev nD => pk c d) := by revert d; decide

/-- The mesh turned by d places, as a permutation of the devices. -/
def turn (d : Fin 4) : Dev nD ≃ Dev nD := ⟨fun c => pk c d, fun c => pk c (-d), fun c => pk_pk_neg c d, fun c => pk_neg_pk c d⟩

/-- The kernel's device chains, in closed form: the three signals go 1, 2, 3 places on; the three copies 2, 1, 3. -/
theorem dev1_val (c : Dev nD) : k0_dev1 c = (pk c 1).val := by revert c; decide
theorem dev2_val (c : Dev nD) : k0_dev2 c = (pk c 2).val := by revert c; decide
theorem dev3_val (c : Dev nD) : k0_dev3 c = (pk c 3).val := by revert c; decide
theorem dev4_val (c : Dev nD) : k0_dev4 c = (pk c 2).val := by revert c; decide
theorem dev5_val (c : Dev nD) : k0_dev5 c = (pk c 1).val := by revert c; decide
theorem dev6_val (c : Dev nD) : k0_dev6 c = (pk c 3).val := by revert c; decide

theorem dev1_eq (c : Dev nD) (h : k0_dev1 c < nD) : (⟨k0_dev1 c, h⟩ : Dev nD) = pk c 1 := Fin.ext (dev1_val c)
theorem dev2_eq (c : Dev nD) (h : k0_dev2 c < nD) : (⟨k0_dev2 c, h⟩ : Dev nD) = pk c 2 := Fin.ext (dev2_val c)
theorem dev3_eq (c : Dev nD) (h : k0_dev3 c < nD) : (⟨k0_dev3 c, h⟩ : Dev nD) = pk c 3 := Fin.ext (dev3_val c)
theorem dev4_eq (c : Dev nD) (h : k0_dev4 c < nD) : (⟨k0_dev4 c, h⟩ : Dev nD) = pk c 2 := Fin.ext (dev4_val c)
theorem dev5_eq (c : Dev nD) (h : k0_dev5 c < nD) : (⟨k0_dev5 c, h⟩ : Dev nD) = pk c 1 := Fin.ext (dev5_val c)
theorem dev6_eq (c : Dev nD) (h : k0_dev6 c < nD) : (⟨k0_dev6 c, h⟩ : Dev nD) = pk c 3 := Fin.ext (dev6_val c)

/-! ## The exchange buffer and its four slots -/

abbrev commM : Memref sig .tc .vmem S4x1x512 .f32 := Memref.whole cc0_scratch0

/-- Slot s of the exchange buffer, one row of 512: slot 0 is the device's own running maximum, slot s > 0 is where
    the device s places on writes its row. -/
abbrev slot : Fin 4 → Memref sig .tc .vmem S1x512 .f32
  | 0 => (commM.slice (Rect.unit (s := S4x1x512) ![0, 0, 0] S1x1x512.size Facts₀.inb_S4x1x512_S1x1x512_0_0_0) (fun _ => rfl)).squeeze S1x512 Facts₀.squeezes_S1x1x512_S1x512
  | 1 => (commM.slice (Rect.unit (s := S4x1x512) ![1, 0, 0] S1x1x512.size Facts₀.inb_S4x1x512_S1x1x512_1_0_0) (fun _ => rfl)).squeeze S1x512 Facts₀.squeezes_S1x1x512_S1x512
  | 2 => (commM.slice (Rect.unit (s := S4x1x512) ![2, 0, 0] S1x1x512.size Facts₀.inb_S4x1x512_S1x1x512_2_0_0) (fun _ => rfl)).squeeze S1x512 Facts₀.squeezes_S1x1x512_S1x512
  | 3 => (commM.slice (Rect.unit (s := S4x1x512) ![3, 0, 0] S1x1x512.size Facts₀.inb_S4x1x512_S1x1x512_3_0_0) (fun _ => rfl)).squeeze S1x512 Facts₀.squeezes_S1x1x512_S1x512

/-! ## The semaphores and the cells -/

/-- The runtime's barrier semaphore of collective id 0 (not scoped to the launch). -/
abbrev barS : Sem sig := (SemArray.scalar (sig.barrier 0 rfl) : Sems sig S_).sem

/-- The three send semaphores and the three receive semaphores (scoped scratch), as the body slices them. -/
abbrev sendS : Fin 3 → DmaSem sig
  | 0 => ((cc0_scratch1.slice (Rect.unit (s := S3) ![0] S1.size Facts₀.inb_S3_S1_0)).squeeze S_ Facts₀.squeezes_S1_S_).sem
  | 1 => ((cc0_scratch1.slice (Rect.unit (s := S3) ![1] S1.size Facts₀.inb_S3_S1_1)).squeeze S_ Facts₀.squeezes_S1_S_).sem
  | 2 => ((cc0_scratch1.slice (Rect.unit (s := S3) ![2] S1.size Facts₀.inb_S3_S1_2)).squeeze S_ Facts₀.squeezes_S1_S_).sem
abbrev recvS : Fin 3 → DmaSem sig
  | 0 => ((cc0_scratch2.slice (Rect.unit (s := S3) ![0] S1.size Facts₀.inb_S3_S1_0)).squeeze S_ Facts₀.squeezes_S1_S_).sem
  | 1 => ((cc0_scratch2.slice (Rect.unit (s := S3) ![1] S1.size Facts₀.inb_S3_S1_1)).squeeze S_ Facts₀.squeezes_S1_S_).sem
  | 2 => ((cc0_scratch2.slice (Rect.unit (s := S3) ![2] S1.size Facts₀.inb_S3_S1_2)).squeeze S_ Facts₀.squeezes_S1_S_).sem

theorem sendS_val (j : Fin 3) : (sendS j).val = 3 + j.val := by revert j; decide
theorem recvS_val (j : Fin 3) : (recvS j).val = 6 + j.val := by revert j; decide

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The credit of one row's copy. -/
abbrev N : ℕ := (slot 0).view.dmaCredit
theorem N_pos : 0 < N := View.dmaCredit_pos _ (by decide)

/-! ## Contents -/

variable (m : (ℓ : Loc nD τ sig) → Buf (Elt F) ℓ) (ρ : Dev nD → PrngReg)

/-- Device c's rows 256 t .. 256 t + 255, as the kernel finds them at step t. -/
abbrev xblk (c : Dev nD) (t : Fin cfg0.N) : Vec F S256x512 .f32 := iblk m c 0 t

/-- The running column maxima of device c after steps 0, 1, 2, 3 (a row of 512, shaped 1 x 1 x 512). -/
def acc0 (c : Dev nD) : Vec F S1x1x512 .f32 := k0_pay1 (xblk m c t0_0)
def acc1 (c : Dev nD) : Vec F S1x1x512 .f32 := k0_pay2 (acc0 m c) (xblk m c t0_1)
def acc2 (c : Dev nD) : Vec F S1x1x512 .f32 := k0_pay2 (acc1 m c) (xblk m c t0_2)
def acc3 (c : Dev nD) : Vec F S1x1x512 .f32 := k0_pay2 (acc2 m c) (xblk m c t0_3)

abbrev CommBuf (c : Dev nD) : Type := Buf (Elt F) ((c : Thread nD τ).loc cc0_scratch0)

/-- A row laid into every slot of the exchange buffer: the contents a slot is described by, whichever slot it is. -/
def spread (c : Dev nD) (a : Vec F S1x1x512 .f32) : CommBuf (F := F) c :=
  fun i => a (ValueIdx.ix3 (0 : Fin 1) (i 1) (i 2))

/-- The exchange buffer of device c once the three rows have landed: slot s holds the row of the device s places on. -/
def gathered (c : Dev nD) : CommBuf (F := F) c :=
  fun i => acc3 m (pk c ⟨(i 0).val, (i 0).isLt⟩) (ValueIdx.ix3 (0 : Fin 1) (i 1) (i 2))

/-- What device c's result row is: the maximum over the four slots. -/
def outAt (c : Dev nD) : Vec F S1x512 .f32 := k0_pay3 (gathered m c)

/-- Slot s of device c's exchange buffer, held at share q with contents f. -/
def slotPts (c : Dev nD) (s : Fin 4) (q : PosShare TreeShare) (f : CommBuf (F := F) c) : sProp 𝕄 :=
  match s with
  | 0 => (slot 0).view.loc (c : Thread nD τ) ↦[(slot 0).view.set]{q} f
  | 1 => (slot 1).view.loc (c : Thread nD τ) ↦[(slot 1).view.set]{q} f
  | 2 => (slot 2).view.loc (c : Thread nD τ) ↦[(slot 2).view.set]{q} f
  | 3 => (slot 3).view.loc (c : Thread nD τ) ↦[(slot 3).view.set]{q} f

/-- The whole exchange buffer. -/
def commPts (c : Dev nD) (q : PosShare TreeShare) (f : CommBuf (F := F) c) : sProp 𝕄 :=
  ((c : Thread nD τ).loc cc0_scratch0) ↦{q} f

end Cert.KI

end
-- ==== Proof.KISched.lean ====
/- The exchange as a schedule of rounds. Every cell has one round. A device's barrier cell collects one unit from each of
   the three other devices; the unit from the device s places on brings that device's slot 4 - s, free to be written. Each of the three send cells and three receive cells of a
   device collects one row's credit: a send cell gives the device back the share of its own row that the copy was
   reading, a receive cell gives it the slot with the sender's row in it. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIProto
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which slot, which semaphore, which share -/

/-- The copy d places on (d = 1, 2, 3) is raised on send semaphore d - 1 and lands on the target's receive
    semaphore 3 - d, in the target's slot 4 - d. -/
def sj : Fin 4 → Fin 3 | 0 => 0 | 1 => 0 | 2 => 1 | 3 => 2
def rj : Fin 4 → Fin 3 | 0 => 0 | 1 => 2 | 2 => 1 | 3 => 0

/-- The share of its own row a device lends to the copy on send semaphore j; what it keeps for itself. -/
def qS : Fin 3 → PosShare TreeShare | 0 => fullShare.left.left | 1 => fullShare.left.right | 2 => fullShare.right.left
def qK : PosShare TreeShare := fullShare.right.right

/-! ## Payloads -/

/-- What the unit from the device s places on brings to c's barrier cell: that device's slot 4 - s, at any contents,
    free for c's row to be written into. -/
def barPay (c : Dev nD) (s : Fin 4) : sProp 𝕄 := iprop(∃ f, slotPts (pk c s) (-s) fullShare f)
/-- The send cell j gives back the lent share of the device's own row. -/
def sendPay (c : Dev nD) (j : Fin 3) : sProp 𝕄 := slotPts c 0 (qS j) (spread c (acc3 m c))
/-- The receive cell j gives slot j + 1 holding the row of the device j + 1 places on. -/
def recvPay (c : Dev nD) (j : Fin 3) : sProp 𝕄 :=
  match j with
  | 0 => slotPts c 1 fullShare (spread c (acc3 m (pk c 1)))
  | 1 => slotPts c 2 fullShare (spread c (acc3 m (pk c 2)))
  | 2 => slotPts c 3 fullShare (spread c (acc3 m (pk c 3)))

abbrev IsBar (g : GSem nD τ sig) : Prop := g.1.2 = .tc ∧ g.2 = .reg barS
abbrev IsXfer (g : GSem nD τ sig) : Prop :=
  g.1.2 = .tc ∧ (g.2 = .dma (sendS 0) ∨ g.2 = .dma (sendS 1) ∨ g.2 = .dma (sendS 2) ∨ g.2 = .dma (recvS 0) ∨ g.2 = .dma (recvS 1) ∨ g.2 = .dma (recvS 2))

/-- One round, round 0. A barrier cell: duties 1, 2, 3 of one unit each. A send or receive cell: duty 0 of a row's credit. -/
def xRd : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then (if d = 1 then barPay g.1.1 1 else if d = 2 then barPay g.1.1 2 else if d = 3 then barPay g.1.1 3 else iprop(emp))
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp)
  amount_pos g _ _ _ := by
    by_cases h : g.2 = .reg barS
    · rw [if_pos h]; exact Nat.one_pos
    · rw [if_neg h]; exact N_pos

omit [FloatOps F] in
instance slotPts_storable (c : Dev nD) (s : Fin 4) (q) (f) : BI.Storable (upEmb : UEmb _ 𝕄) (slotPts (F := F) c s q f) := by
  unfold slotPts; split <;> infer_instance

instance xRd_payload_storable (g : GSem nD τ sig) (r : ℕ) (d : Fin 4) :
    BI.Storable (upEmb : UEmb _ 𝕄) ((xRd (F := F) m).payload g r d) := by
  show BI.Storable upEmb (if g.2 = .reg barS then (if d = 1 then barPay g.1.1 1 else if d = 2 then barPay g.1.1 2 else if d = 3 then barPay g.1.1 3 else iprop(emp))
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp))
  unfold barPay sendPay recvPay
  (repeat' split) <;> infer_instance

/-! ## The tables, cell by cell -/

section Sched
variable (c : Dev nD)

theorem send_ne_bar (j : Fin 3) : (SemLoc.dma (sendS j) : SemLoc sig) ≠ .reg barS := fun h => by cases h
theorem recv_ne_bar (j : Fin 3) : (SemLoc.dma (recvS j) : SemLoc sig) ≠ .reg barS := fun h => by cases h
theorem send_ne_recv (j k : Fin 3) : (SemLoc.dma (sendS j) : SemLoc sig) ≠ .dma (recvS k) := by revert j k; decide
theorem send_inj : ∀ j k : Fin 3, (SemLoc.dma (sendS j) : SemLoc sig) = .dma (sendS k) → j = k := by decide
theorem recv_inj : ∀ j k : Fin 3, (SemLoc.dma (recvS j) : SemLoc sig) = .dma (recvS k) → j = k := by decide
theorem xfer_send_sem : ∀ j : Fin 3, (SemLoc.dma (sendS j) : SemLoc sig) = .dma (sendS 0) ∨ (SemLoc.dma (sendS j) : SemLoc sig) = .dma (sendS 1) ∨ (SemLoc.dma (sendS j) : SemLoc sig) = .dma (sendS 2)
    ∨ (SemLoc.dma (sendS j) : SemLoc sig) = .dma (recvS 0) ∨ (SemLoc.dma (sendS j) : SemLoc sig) = .dma (recvS 1) ∨ (SemLoc.dma (sendS j) : SemLoc sig) = .dma (recvS 2) := by decide
theorem xfer_recv_sem : ∀ j : Fin 3, (SemLoc.dma (recvS j) : SemLoc sig) = .dma (sendS 0) ∨ (SemLoc.dma (recvS j) : SemLoc sig) = .dma (sendS 1) ∨ (SemLoc.dma (recvS j) : SemLoc sig) = .dma (sendS 2)
    ∨ (SemLoc.dma (recvS j) : SemLoc sig) = .dma (recvS 0) ∨ (SemLoc.dma (recvS j) : SemLoc sig) = .dma (recvS 1) ∨ (SemLoc.dma (recvS j) : SemLoc sig) = .dma (recvS 2) := by decide
theorem isXfer_send (j : Fin 3) : IsXfer (sendCell c j) := ⟨rfl, xfer_send_sem j⟩
theorem isXfer_recv (j : Fin 3) : IsXfer (recvCell c j) := ⟨rfl, xfer_recv_sem j⟩
theorem not_bar_send (j : Fin 3) : ¬ IsBar (sendCell c j) := fun h => send_ne_bar j h.2
theorem not_bar_recv (j : Fin 3) : ¬ IsBar (recvCell c j) := fun h => recv_ne_bar j h.2

theorem duties_bar : (xRd (F := F) m).duties (barCell c) 0 = {1, 2, 3} := by dsimp only [xRd]; exact if_pos ⟨rfl, rfl, rfl⟩
theorem duties_send (j : Fin 3) : (xRd (F := F) m).duties (sendCell c j) 0 = {0} := by
  dsimp only [xRd]; rw [if_neg (fun h => not_bar_send c j h.2)]; exact if_pos ⟨rfl, isXfer_send c j⟩
theorem duties_recv (j : Fin 3) : (xRd (F := F) m).duties (recvCell c j) 0 = {0} := by
  dsimp only [xRd]; rw [if_neg (fun h => not_bar_recv c j h.2)]; exact if_pos ⟨rfl, isXfer_recv c j⟩
theorem duties_later (g : GSem nD τ sig) : ∀ r, 1 ≤ r → (xRd (F := F) m).duties g r = ∅ :=
  fun r hr => by dsimp only [xRd]; rw [if_neg fun h => by omega, if_neg fun h => by omega]

theorem amount_bar (d : Fin 4) : (xRd (F := F) m).amount (barCell c) 0 d = 1 := by dsimp only [xRd]; exact if_pos rfl
theorem amount_send (j : Fin 3) (d : Fin 4) : (xRd (F := F) m).amount (sendCell c j) 0 d = N := by dsimp only [xRd]; exact if_neg (send_ne_bar j)
theorem amount_recv (j : Fin 3) (d : Fin 4) : (xRd (F := F) m).amount (recvCell c j) 0 d = N := by dsimp only [xRd]; exact if_neg (recv_ne_bar j)

theorem expect_bar : (xRd (F := F) m).expect (barCell c) 0 = 3 := by
  unfold Schedule.expect Schedule.amountOf
  rw [duties_bar, Finset.sum_congr rfl fun d _ => amount_bar m c d, Finset.sum_const, smul_eq_mul]; decide
theorem expect_send (j : Fin 3) : (xRd (F := F) m).expect (sendCell c j) 0 = N := by
  unfold Schedule.expect Schedule.amountOf; rw [duties_send, Finset.sum_singleton, amount_send]
theorem expect_recv (j : Fin 3) : (xRd (F := F) m).expect (recvCell c j) 0 = N := by
  unfold Schedule.expect Schedule.amountOf; rw [duties_recv, Finset.sum_singleton, amount_recv]

theorem payload_bar1 : (xRd (F := F) m).payload (barCell c) 0 1 = barPay c 1 := by dsimp only [xRd]; rw [if_pos rfl, if_pos rfl]
theorem payload_bar2 : (xRd (F := F) m).payload (barCell c) 0 2 = barPay c 2 := by
  dsimp only [xRd]; rw [if_pos rfl, if_neg (by decide), if_pos rfl]
theorem payload_bar3 : (xRd (F := F) m).payload (barCell c) 0 3 = barPay c 3 := by
  dsimp only [xRd]; rw [if_pos rfl, if_neg (by decide), if_neg (by decide), if_pos rfl]
theorem payload_send (j : Fin 3) (d : Fin 4) : (xRd (F := F) m).payload (sendCell c j) 0 d = sendPay m c j := by
  dsimp only [xRd]; rw [if_neg (send_ne_bar j)]
  revert j; intro j; fin_cases j
  · exact if_pos rfl
  · rw [if_neg (fun h => absurd (send_inj _ _ h) (by decide))]; exact if_pos rfl
  · rw [if_neg (fun h => absurd (send_inj _ _ h) (by decide)), if_neg (fun h => absurd (send_inj _ _ h) (by decide))]; exact if_pos rfl
theorem payload_recv (j : Fin 3) (d : Fin 4) : (xRd (F := F) m).payload (recvCell c j) 0 d = recvPay m c j := by
  dsimp only [xRd]; rw [if_neg (recv_ne_bar j), if_neg (fun h => send_ne_recv 0 j h.symm), if_neg (fun h => send_ne_recv 1 j h.symm), if_neg (fun h => send_ne_recv 2 j h.symm)]
  revert j; intro j; fin_cases j
  · exact if_pos rfl
  · rw [if_neg (fun h => absurd (recv_inj _ _ h) (by decide))]; exact if_pos rfl
  · rw [if_neg (fun h => absurd (recv_inj _ _ h) (by decide)), if_neg (fun h => absurd (recv_inj _ _ h) (by decide))]; exact if_pos rfl

/-- The whole of the barrier cell's round, no duty taken yet: the three peers' slots. -/
theorem rest_bar : bigSep ((xRd (F := F) m).duties (barCell c) 0 \ ∅) (fun d => (xRd (F := F) m).payload (barCell c) 0 d)
    = iprop(barPay c 1 ∗ barPay c 2 ∗ barPay c 3) := by
  rw [Finset.sdiff_empty, duties_bar, bigSep_eq_bigSepL_of_eq [(1 : Fin 4), 2, 3] (by decide) (by decide), bigSepL_cons_cons, bigSepL_cons_cons, bigSepL_singleton,
    payload_bar1, payload_bar2, payload_bar3]
  rfl
theorem rest_send (j : Fin 3) : bigSep ((xRd (F := F) m).duties (sendCell c j) 0 \ ∅) (fun d => (xRd (F := F) m).payload (sendCell c j) 0 d) = sendPay m c j := by
  rw [Finset.sdiff_empty, duties_send, bigSep_singleton, payload_send]
theorem rest_recv (j : Fin 3) : bigSep ((xRd (F := F) m).duties (recvCell c j) 0 \ ∅) (fun d => (xRd (F := F) m).payload (recvCell c j) 0 d) = recvPay m c j := by
  rw [Finset.sdiff_empty, duties_recv, bigSep_singleton, payload_recv]

end Sched

end Cert.KI

end
-- ==== Proof.KILevels.lean ====
/- What a device owes the others when the kernel starts, and the order in which cells may be waited on: a device that
   still owes units may only wait on a cell that sits strictly below every cell it owes. Barrier cells sit at level 1,
   receive cells at level 2, everything else (the pipeline's own staging cells, the send cells) at level 0. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KISched
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What each device owes -/

/-- The row's credit owed to the receive cell of the device d places on; the barrier unit owed to that device. -/
def owedR (c : Dev nD) (d : Fin 4) : CellTallies nD τ sig Unit := tallyAt (recvCell (pk c d) (rj d)) () N
def owedB (c : Dev nD) (d : Fin 4) : CellTallies nD τ sig Unit := tallyAt (barCell (pk c d)) () 1

/-- After the three signals of step 0: the three rows' credits, summed so that the copies 2, 1, 3 places on peel them
    from the right in that order. -/
def O₃ (c : Dev nD) : CellTallies nD τ sig Unit := owedR c 3 + owedR c 1 + owedR c 2
/-- At launch: those, and the three barrier units, the signals 1, 2, 3 places on peeling them from the right. -/
def O₀ (c : Dev nD) : CellTallies nD τ sig Unit := O₃ c + owedB c 3 + owedB c 2 + owedB c 1

/-! ## Levels -/

def L (g : GSem nD τ sig) : Finset Unit := if g.1.2 = .tc then {()} else ∅
abbrev IsRecvSem (sm : SemLoc sig) : Prop := sm = .dma (recvS 0) ∨ sm = .dma (recvS 1) ∨ sm = .dma (recvS 2)
def lv (g : GSem nD τ sig) (_ : Unit) : ℕ := if g.2 = .reg barS then 1 else if IsRecvSem g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem isRecvSem_recv : ∀ j : Fin 3, IsRecvSem (SemLoc.dma (recvS j) : SemLoc sig) := by decide
theorem lv_recv (c : Dev nD) (j : Fin 3) : lv (recvCell c j) () = 2 := by
  unfold lv; rw [if_neg (recv_ne_bar j)]; exact if_pos (isRecvSem_recv j)

/-- A cell device c owes a row's credit is one of three: the receive cell its copy d places on lands on. -/
theorem O₃_pos {c : Dev nD} {g : GSem nD τ sig} {u : Unit} (h : 0 < O₃ c g u) :
    ∃ d : Fin 4, g = recvCell (pk c d) (rj d) := by
  unfold O₃ at h
  rcases Pipeline.add_pos_cases h with h | h
  · rcases Pipeline.add_pos_cases h with h | h
    · exact ⟨3, (Pipeline.tallyAt_pos h).1⟩
    · exact ⟨1, (Pipeline.tallyAt_pos h).1⟩
  · exact ⟨2, (Pipeline.tallyAt_pos h).1⟩

/-- A cell device c owes something at launch is one of six: a peer's barrier cell or a peer's receive cell. -/
theorem O₀_pos {c : Dev nD} {g : GSem nD τ sig} {u : Unit} (h : 0 < O₀ c g u) :
    (∃ d : Fin 4, g = barCell (pk c d)) ∨ (∃ d : Fin 4, g = recvCell (pk c d) (rj d)) := by
  unfold O₀ at h
  rcases Pipeline.add_pos_cases h with h | h
  · rcases Pipeline.add_pos_cases h with h | h
    · rcases Pipeline.add_pos_cases h with h | h
      · exact Or.inr (O₃_pos h)
      · exact Or.inl ⟨3, (Pipeline.tallyAt_pos h).1⟩
    · exact Or.inl ⟨2, (Pipeline.tallyAt_pos h).1⟩
  · exact Or.inl ⟨1, (Pipeline.tallyAt_pos h).1⟩

omit [FloatOps F] in
/-- Waiting on a staging semaphore of the pipeline (level 0) is allowed whatever the device still owes. -/
theorem mayWait_stage (c : Dev nD) (q : DmaSem sig) (hq : ¬ IsRecvSem (SemLoc.dma q)) (O : CellTallies nD τ sig Unit)
    (hO : O = O₀ c ∨ O = O₃ c ∨ O = 0) :
    (levAts L lv : sProp 𝕄) ⊢ MayWait (c : Thread nD τ) (.dma q) () O := by
  have hW : ∀ p ∈ ({(SemLoc.dma q, ())} : Waits sig Unit), p.2 ∈ L ((c : Thread nD τ), p.1) := fun p hp => by
    rw [Finset.mem_singleton.mp hp, L_tc]; exact Finset.mem_singleton_self _
  have hWb : ∀ p ∈ ({(SemLoc.dma q, ())} : Waits sig Unit), lv ((c : Thread nD τ), p.1) p.2 ≤ 0 := fun p hp => by
    rw [Finset.mem_singleton.mp hp]; dsimp only [lv]; rw [if_neg (fun h => by cases h), if_neg hq]
  have h₃L : ∀ (g : GSem nD τ sig) (u : Unit), 0 < O₃ c g u → u ∈ L g := fun g u hg => by
    obtain ⟨d, rfl⟩ := O₃_pos hg; rw [L_tc]; exact Finset.mem_singleton_self _
  have h₃b : ∀ (g : GSem nD τ sig) (u : Unit), 0 < O₃ c g u → 0 < lv g u := fun g u hg => by
    obtain ⟨d, rfl⟩ := O₃_pos hg; cases u; rw [lv_recv]; decide
  rcases hO with rfl | rfl | rfl
  · refine MayOwe.of_cut (L := L) (lev := lv) 0 hW
      (fun g u hg => by
        rcases O₀_pos hg with ⟨d, rfl⟩ | ⟨d, rfl⟩ <;> (rw [L_tc]; exact Finset.mem_singleton_self _))
      hWb
      (fun g u hg => by
        rcases O₀_pos hg with ⟨d, rfl⟩ | ⟨d, rfl⟩
        · cases u; rw [lv_bar]; decide
        · cases u; rw [lv_recv]; decide)
  · exact MayOwe.of_cut (L := L) (lev := lv) 0 hW h₃L hWb h₃b
  · rw [MayWait_zero]; iintro -; iempintro

omit [FloatOps F] in
/-- At its barrier wait a device owes the three rows' credits only: receive cells, above its barrier cell. -/
theorem mayWait_bar (c : Dev nD) :
    (levAts L lv : sProp 𝕄) ⊢ MayWait (c : Thread nD τ) (.reg barS) () (O₃ c) :=
  MayOwe.of_cut (L := L) (lev := lv) 1
    (fun p hp => by rw [Finset.mem_singleton.mp hp, L_tc]; exact Finset.mem_singleton_self _)
    (fun g u hg => by obtain ⟨d, rfl⟩ := O₃_pos hg; rw [L_tc]; exact Finset.mem_singleton_self _)
    (fun p hp => by rw [Finset.mem_singleton.mp hp]; dsimp only [lv]; rw [if_pos rfl])
    (fun g u hg => by obtain ⟨d, rfl⟩ := O₃_pos hg; cases u; rw [lv_recv]; decide)

end Cert.KI

end
-- ==== Proof.KIData.lean ====
/- What a device holds at each step. Before step 0: the names of the cells' invariants, its seven positions, the tokens of
   the nine duties it pays (three barrier units, three rows landing at its peers, three of its own send cells), the
   credit dealt to it at launch, and its whole exchange buffer at any contents. Between steps: the same without the
   barrier tokens and without slots 1 to 3, which went out with the barrier units; slot 0 holds the running maxima.
   After step 3: the exchange buffer whole again with all four rows in it, and its six own cells closed. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KILevels
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Names of the cells' invariants -/

/-- Cell k of a device: 0 the barrier cell, 1, 2, 3 the send cells, 4, 5, 6 the receive cells. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
def kS : Fin 3 → Fin 7 | 0 => 1 | 1 => 2 | 2 => 3
def kR : Fin 3 → Fin 7 | 0 => 4 | 1 => 5 | 2 => 6

theorem kcell_bar (c : Dev nD) : kcell (c, 0) = barCell c := rfl
theorem kcell_send (c : Dev nD) (j : Fin 3) : kcell (c, kS j) = sendCell c j := by revert j; intro j; fin_cases j <;> rfl
theorem kcell_recv (c : Dev nD) (j : Fin 3) : kcell (c, kR j) = recvCell c j := by revert j; intro j; fin_cases j <;> rfl

/-! ## The ghost state of device c -/

section Ghost
variable (K : Dev nD × Fin 7 → ℕ) (c : Dev nD)

/-- The invariants device c opens: its own seven cells', the three peers' barrier cells' (its signals), and the
    receive cell each of its three copies lands on. -/
def invs : sProp 𝕄 :=
  iprop(cellInv ER (xRd m) (K (c, 0)) (barCell c)
    ∗ cellInv ER (xRd m) (K (c, kS 0)) (sendCell c 0) ∗ cellInv ER (xRd m) (K (c, kS 1)) (sendCell c 1) ∗ cellInv ER (xRd m) (K (c, kS 2)) (sendCell c 2)
    ∗ cellInv ER (xRd m) (K (c, kR 0)) (recvCell c 0) ∗ cellInv ER (xRd m) (K (c, kR 1)) (recvCell c 1) ∗ cellInv ER (xRd m) (K (c, kR 2)) (recvCell c 2)
    ∗ cellInv ER (xRd m) (K (pk c 1, 0)) (barCell (pk c 1)) ∗ cellInv ER (xRd m) (K (pk c 2, 0)) (barCell (pk c 2)) ∗ cellInv ER (xRd m) (K (pk c 3, 0)) (barCell (pk c 3))
    ∗ cellInv ER (xRd m) (K (pk c 1, kR (rj 1))) (recvCell (pk c 1) (rj 1)) ∗ cellInv ER (xRd m) (K (pk c 2, kR (rj 2))) (recvCell (pk c 2) (rj 2))
    ∗ cellInv ER (xRd m) (K (pk c 3, kR (rj 3))) (recvCell (pk c 3) (rj 3)))

instance invs_persistent : BI.Persistent (invs m K c) := by unfold invs; infer_instance

end Ghost

section Lin
variable (c : Dev nD)

/-- Its positions: round 0, nothing taken, of each of its seven cells. -/
def poss : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- Round 0 of every cell it pays into is reached. -/
def reacheds : sProp 𝕄 :=
  iprop(reached ER (barCell (pk c 1)) 0 ∗ reached ER (barCell (pk c 2)) 0 ∗ reached ER (barCell (pk c 3)) 0
    ∗ reached ER (recvCell (pk c 1) (rj 1)) 0 ∗ reached ER (recvCell (pk c 2) (rj 2)) 0 ∗ reached ER (recvCell (pk c 3) (rj 3)) 0
    ∗ reached ER (sendCell c 0) 0 ∗ reached ER (sendCell c 1) 0 ∗ reached ER (sendCell c 2) 0)

instance reacheds_persistent : BI.Persistent (reacheds (F := F) c) := by unfold reacheds; infer_instance

/-- The barrier units it pays: to the device d places on it is the device 4 - d places on. -/
def barToks : sProp 𝕄 :=
  iprop(dutyTok ER (barCell (pk c 1)) 0 (3 : Fin 4) ∗ dutyTok ER (barCell (pk c 2)) 0 (2 : Fin 4) ∗ dutyTok ER (barCell (pk c 3)) 0 (1 : Fin 4))

/-- The rows it pays: landing at the three peers, and leaving on its own three send cells. -/
def xferToks : sProp 𝕄 :=
  iprop(dutyTok ER (recvCell (pk c 1) (rj 1)) 0 (0 : Fin 4) ∗ dutyTok ER (recvCell (pk c 2) (rj 2)) 0 (0 : Fin 4) ∗ dutyTok ER (recvCell (pk c 3) (rj 3)) 0 (0 : Fin 4)
    ∗ dutyTok ER (sendCell c 0) 0 (0 : Fin 4) ∗ dutyTok ER (sendCell c 1) 0 (0 : Fin 4) ∗ dutyTok ER (sendCell c 2) 0 (0 : Fin 4))

/-- The credit dealt at launch: three units on its barrier cell, a row's on each receive cell. -/
def creds : sProp 𝕄 :=
  iprop(cred (tallyAt (barCell c) () 3) ∗ cred (tallyAt (recvCell c 0) () N) ∗ cred (tallyAt (recvCell c 1) () N) ∗ cred (tallyAt (recvCell c 2) () N))

end Lin

/-- What device c's body starts step 0 from, the exchange buffer apart. -/
def start (c : Dev nD) : sProp 𝕄 :=
  iprop((∃ K, invs m K c ∗ poss c ∗ reacheds c ∗ barToks c ∗ xferToks c) ∗ creds c ∗ levAts L lv)
/-- The same once the three barrier units are paid. -/
def mid (c : Dev nD) : sProp 𝕄 :=
  iprop((∃ K, invs m K c ∗ poss c ∗ reacheds c ∗ xferToks c) ∗ creds c ∗ levAts L lv)

/-- Before step 0. -/
def Φ₀ (c : Dev nD) : sProp 𝕄 := iprop(start m c ∗ ∃ f, commPts c fullShare f)
/-- Between steps: slot 0 holds the running maxima a. -/
def Φm (c : Dev nD) (a : Vec F S1x1x512 .f32) : sProp 𝕄 := iprop(mid m c ∗ slotPts c 0 fullShare (spread c a))
/-- After step 3: the four rows in the buffer, the six own cells at zero. -/
def Φe (c : Dev nD) : sProp 𝕄 :=
  iprop(commPts c fullShare (gathered m c)
    ∗ semVal (sendCell c 0) 0 ∗ semVal (sendCell c 1) 0 ∗ semVal (sendCell c 2) 0
    ∗ semVal (recvCell c 0) 0 ∗ semVal (recvCell c 1) 0 ∗ semVal (recvCell c 2) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => outAt m c
  Φ t := match t with
    | ⟨0, _⟩ => Φ₀ m c
    | ⟨1, _⟩ => Φm m c (acc0 m c)
    | ⟨2, _⟩ => Φm m c (acc1 m c)
    | ⟨3, _⟩ => Φm m c (acc2 m c)
    | ⟨_ + 4, _⟩ => Φe m c
  q _ := fullShare
  owed t := match t with
    | ⟨0, _⟩ => O₀ c
    | ⟨1, _⟩ => O₃ c
    | ⟨2, _⟩ => O₃ c
    | ⟨3, _⟩ => O₃ c
    | ⟨_ + 4, _⟩ => 0

/-- The body obligation at one step t of device c. -/
def BodyAt (c : Dev nD) (t : Fin cfg0.N) : Prop :=
  iprop((dats m ρ 0 c).Φ t.castSucc ∗ (dats m ρ 0 c).owesAt () t.castSucc
      ∗ bigSep Finset.univ fun w : Fin cfg0.W => iprop(∃ d, owns c ((cfg0.win w).stage (cfg0.slots t w)) fullShare ((dats m ρ 0 c).before w t d)))
    ⊢ wp frame (wpE (defs₀ (F := F)) 𝒱₀ c none) Set.univ (defs₀ .tc cfg0.body (cfg0.bodyArgs t (cfg0.slots t))) fun _ =>
        iprop((dats m ρ 0 c).Φ t.succ ∗ (dats m ρ 0 c).owesAt () t.succ
          ∗ bigSep Finset.univ fun w : Fin cfg0.W => (dats m ρ 0 c).leavesExact w t)

theorem body_of_steps (c : Dev nD) (h0 : BodyAt m ρ c t0_0) (h1 : BodyAt m ρ c t0_1) (h2 : BodyAt m ρ c t0_2) (h3 : BodyAt m ρ c t0_3) :
    BodyObligation (dats (F := F) m ρ 0 c) (defs₀ (F := F)) 𝒱₀ () Set.univ := fun t => by
  rcases fin_N0 t with rfl | rfl | rfl | rfl
  · exact h0
  · exact h1
  · exact h2
  · exact h3

end Cert.KI

end
-- ==== Proof.KIViews.lean ====
/- Reading and writing the exchange buffer slot by slot: what a load of slot 0 sees, what a store into slot 0 and a copy
   landing in slot s leave there, and that the buffer is its four slots side by side. Index arithmetic only. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIProto
import Idealize.ShloMosaic.Lib.Pipeline.Value
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The rectangle of slot 0 and the rectangle of the whole buffer, as the body's loads and stores spell them. -/
abbrev rect0 : Rect S4x1x512 := Rect.unit (s := S4x1x512) ![0, 0, 0] S1x1x512.size Facts₀.inb_S4x1x512_S1x1x512_0_0_0
abbrev rectAll : Rect S4x1x512 := Rect.unit (s := S4x1x512) ![0, 0, 0] S4x1x512.size Facts₀.inb_S4x1x512_S4x1x512_0_0_0

/-- A row laid into every slot, read at the element under index z of the rectangle of slot k, is the row at z: the
    rectangle's offsets on the last two axes are zero. -/
theorem spread_rect (c : Dev nD) (v : Vec F S1x1x512 .f32) (k : ℕ) (inb : ∀ a, (![k, 0, 0] : Fin 3 → ℕ) a + S1x1x512.size a ≤ S4x1x512.size a)
    (z : S1x1x512.Idx) : spread c v ((Rect.unit (s := S4x1x512) ![k, 0, 0] S1x1x512.size inb).emb z) = v z := by
  show v (ValueIdx.ix3 (0 : Fin 1) (((Rect.unit (s := S4x1x512) ![k, 0, 0] S1x1x512.size inb).emb z) 1) (((Rect.unit (s := S4x1x512) ![k, 0, 0] S1x1x512.size inb).emb z) 2)) = v z
  congr 1
  funext d
  fin_cases d
  · exact Fin.ext (Nat.lt_one_iff.mp (z 0).isLt).symm
  · exact Fin.ext (by show 0 + 1 * (z 1).val = (z 1).val; omega)
  · exact Fin.ext (by show 0 + 1 * (z 2).val = (z 2).val; omega)

/-- Slot 0's elements are those of its rectangle: dropping the unit axis moves no element. -/
theorem slot0_set : (slot 0).view.set = ((commM : Memref sig .tc .vmem S4x1x512 .f32).access rect0).set := View.set_reshape _ _

/-- A load of slot 0 from a buffer that holds the row a in every slot reads a. -/
theorem read_slot0_spread (c : Dev nD) (a : Vec F S1x1x512 .f32) :
    commM.view.readAt (Elt F) rect0.toLoadRect (spread c a) = a := by
  funext x
  exact spread_rect c a 0 _ x

/-- The elements a load or a store of slot 0 touches are slot 0's. -/
theorem setOn_load0 : (commM : Memref sig .tc .vmem S4x1x512 .f32).view.setOn rect0.toLoadRect.set ⊆ (slot 0).view.set := by
  rw [slot0_set, View.set_slice]
  exact Finset.Subset.refl _
theorem setOn_store0 : ((commM : Memref sig .tc .vmem S4x1x512 .f32).access rect0).setOn Finset.univ ⊆ (slot 0).view.set := by
  rw [slot0_set, View.setOn_univ]

/-- After a store of the row v into slot 0, slot 0 is described by v laid into every slot. -/
theorem store_slot0 (c : Dev nD) (q : PosShare TreeShare) (f : CommBuf (F := F) c) (v : Vec F S1x1x512 .f32) :
    ((slot 0).view.loc (c : Thread nD τ) ↦[(slot 0).view.set]{q} ((commM.access rect0).write (Elt F) f v Finset.univ) : sProp 𝕄)
      = slotPts c 0 q (spread c v) := by
  unfold slotPts
  refine pointsTo_congr fun i hi => ?_
  rw [slot0_set] at hi
  obtain ⟨y, rfl⟩ := View.exists_emb_of_mem_set _ hi
  rw [View.write_emb_of_mem _ _ (Finset.mem_univ y)]
  exact (spread_rect c v 0 _ y).symm

/-- The element of the buffer under index y of slot s is the element of slot s's rectangle under y behind a leading 0;
    a row laid into every slot reads there as the row at that index, whichever slot it is. -/
theorem spread_slot0 (c : Dev nD) (v : Vec F S1x1x512 .f32) (y : S1x512.Idx) :
    spread c v ((slot 0).view.emb y) = v (Shape.reshapeEquiv Facts₀.squeezes_S1x1x512_S1x512.numel_eq y) := spread_rect c v 0 _ _
theorem spread_slot1 (c : Dev nD) (v : Vec F S1x1x512 .f32) (y : S1x512.Idx) :
    spread c v ((slot 1).view.emb y) = v (Shape.reshapeEquiv Facts₀.squeezes_S1x1x512_S1x512.numel_eq y) := spread_rect c v 1 _ _
theorem spread_slot2 (c : Dev nD) (v : Vec F S1x1x512 .f32) (y : S1x512.Idx) :
    spread c v ((slot 2).view.emb y) = v (Shape.reshapeEquiv Facts₀.squeezes_S1x1x512_S1x512.numel_eq y) := spread_rect c v 2 _ _
theorem spread_slot3 (c : Dev nD) (v : Vec F S1x1x512 .f32) (y : S1x512.Idx) :
    spread c v ((slot 3).view.emb y) = v (Shape.reshapeEquiv Facts₀.squeezes_S1x1x512_S1x512.numel_eq y) := spread_rect c v 3 _ _

/-- A copy of device c′'s slot 0, which holds the row a, landed in slot s of device c: slot s is described by a. -/
theorem landed_slot1 (c c' : Dev nD) (fd : CommBuf (F := F) c) (a : Vec F S1x1x512 .f32) :
    ((slot 1).view.loc (c : Thread nD τ) ↦[(slot 1).view.set]{fullShare} ((slot 1).view.write (Elt F) fd ((slot 0).view.read (Elt F) (spread c' a)) Finset.univ) : sProp 𝕄)
      = slotPts c 1 fullShare (spread c a) := by
  unfold slotPts
  refine pointsTo_congr fun i hi => ?_
  obtain ⟨y, rfl⟩ := View.exists_emb_of_mem_set _ hi
  rw [View.write_emb_of_mem _ _ (Finset.mem_univ y)]
  exact (spread_slot0 c' a y).trans (spread_slot1 c a y).symm
theorem landed_slot2 (c c' : Dev nD) (fd : CommBuf (F := F) c) (a : Vec F S1x1x512 .f32) :
    ((slot 2).view.loc (c : Thread nD τ) ↦[(slot 2).view.set]{fullShare} ((slot 2).view.write (Elt F) fd ((slot 0).view.read (Elt F) (spread c' a)) Finset.univ) : sProp 𝕄)
      = slotPts c 2 fullShare (spread c a) := by
  unfold slotPts
  refine pointsTo_congr fun i hi => ?_
  obtain ⟨y, rfl⟩ := View.exists_emb_of_mem_set _ hi
  rw [View.write_emb_of_mem _ _ (Finset.mem_univ y)]
  exact (spread_slot0 c' a y).trans (spread_slot2 c a y).symm
theorem landed_slot3 (c c' : Dev nD) (fd : CommBuf (F := F) c) (a : Vec F S1x1x512 .f32) :
    ((slot 3).view.loc (c : Thread nD τ) ↦[(slot 3).view.set]{fullShare} ((slot 3).view.write (Elt F) fd ((slot 0).view.read (Elt F) (spread c' a)) Finset.univ) : sProp 𝕄)
      = slotPts c 3 fullShare (spread c a) := by
  unfold slotPts
  refine pointsTo_congr fun i hi => ?_
  obtain ⟨y, rfl⟩ := View.exists_emb_of_mem_set _ hi
  rw [View.write_emb_of_mem _ _ (Finset.mem_univ y)]
  exact (spread_slot0 c' a y).trans (spread_slot3 c a y).symm

/-- An element lies in the rectangle of row k exactly when its first coordinate is k. -/
theorem mem_rect_row (k : ℕ) (inb : ∀ a, (![k, 0, 0] : Fin 3 → ℕ) a + S1x1x512.size a ≤ S4x1x512.size a) (i : S4x1x512.Idx) :
    i ∈ (Rect.unit (s := S4x1x512) ![k, 0, 0] S1x1x512.size inb).set ↔ (i 0).val = k := by
  rw [Rect.mem_set_unit]
  constructor
  · intro h
    have h0 := h 0
    have : (![k, 0, 0] : Fin 3 → ℕ) 0 = k := rfl
    have : S1x1x512.size 0 = 1 := rfl
    omega
  · intro h a
    fin_cases a
    · show k ≤ (i 0).val ∧ (i 0).val < k + 1
      omega
    · have := (i 1).isLt
      show 0 ≤ (i 1).val ∧ (i 1).val < 0 + 1
      have h1 : S4x1x512.size 1 = 1 := rfl
      omega
    · have := (i 2).isLt
      show 0 ≤ (i 2).val ∧ (i 2).val < 0 + 512
      have h2 : S4x1x512.size 2 = 512 := rfl
      omega

/-- Slot s's elements are those whose first coordinate is s. -/
theorem mem_slot0 (i : S4x1x512.Idx) : i ∈ (slot 0).view.set ↔ (i 0).val = 0 := by
  rw [show (slot 0).view.set = (Rect.unit (s := S4x1x512) ![0, 0, 0] S1x1x512.size Facts₀.inb_S4x1x512_S1x1x512_0_0_0).set from (View.set_reshape _ _).trans (View.set_slice_whole _ _)]
  exact mem_rect_row 0 _ i
theorem mem_slot1 (i : S4x1x512.Idx) : i ∈ (slot 1).view.set ↔ (i 0).val = 1 := by
  rw [show (slot 1).view.set = (Rect.unit (s := S4x1x512) ![1, 0, 0] S1x1x512.size Facts₀.inb_S4x1x512_S1x1x512_1_0_0).set from (View.set_reshape _ _).trans (View.set_slice_whole _ _)]
  exact mem_rect_row 1 _ i
theorem mem_slot2 (i : S4x1x512.Idx) : i ∈ (slot 2).view.set ↔ (i 0).val = 2 := by
  rw [show (slot 2).view.set = (Rect.unit (s := S4x1x512) ![2, 0, 0] S1x1x512.size Facts₀.inb_S4x1x512_S1x1x512_2_0_0).set from (View.set_reshape _ _).trans (View.set_slice_whole _ _)]
  exact mem_rect_row 2 _ i
theorem mem_slot3 (i : S4x1x512.Idx) : i ∈ (slot 3).view.set ↔ (i 0).val = 3 := by
  rw [show (slot 3).view.set = (Rect.unit (s := S4x1x512) ![3, 0, 0] S1x1x512.size Facts₀.inb_S4x1x512_S1x1x512_3_0_0).set from (View.set_reshape _ _).trans (View.set_slice_whole _ _)]
  exact mem_rect_row 3 _ i

omit [FloatOps F] in
/-- The buffer is its four slots side by side, at any one share and contents. -/
theorem comm_split (c : Dev nD) (q : PosShare TreeShare) (f : CommBuf (F := F) c) :
    (commPts c q f : sProp 𝕄) ⊣⊢ iprop(slotPts c 0 q f ∗ slotPts c 1 q f ∗ slotPts c 2 q f ∗ slotPts c 3 q f) := by
  unfold commPts slotPts
  have hu : (Finset.univ : Finset S4x1x512.Idx) = (slot 0).view.set ∪ ((slot 1).view.set ∪ ((slot 2).view.set ∪ (slot 3).view.set)) := by
    ext i
    simp only [Finset.mem_univ, Finset.mem_union, true_iff]
    rw [mem_slot0, mem_slot1, mem_slot2, mem_slot3]
    have := (i 0).isLt
    have h0 : S4x1x512.size 0 = 4 := rfl
    omega
  have d0 : Disjoint (slot 0).view.set ((slot 1).view.set ∪ ((slot 2).view.set ∪ (slot 3).view.set)) := by
    rw [Finset.disjoint_left]; intro i h0 h
    simp only [Finset.mem_union] at h
    rw [mem_slot0] at h0; rw [mem_slot1, mem_slot2, mem_slot3] at h
    omega
  have d1 : Disjoint (slot 1).view.set ((slot 2).view.set ∪ (slot 3).view.set) := by
    rw [Finset.disjoint_left]; intro i h0 h
    simp only [Finset.mem_union] at h
    rw [mem_slot1] at h0; rw [mem_slot2, mem_slot3] at h
    omega
  have d2 : Disjoint (slot 2).view.set (slot 3).view.set := by
    rw [Finset.disjoint_left]; intro i h0 h
    rw [mem_slot2] at h0; rw [mem_slot3] at h
    omega
  have e0 := pointsTo_union (ℓ := ((c : Thread nD τ).loc cc0_scratch0)) (q := q) (f := f) (Val := Elt F) (Ix := Unit) (Name := ℕ) (U := UU) (Lvl := ℕ) d0
  have e1 := pointsTo_union (ℓ := ((c : Thread nD τ).loc cc0_scratch0)) (q := q) (f := f) (Val := Elt F) (Ix := Unit) (Name := ℕ) (U := UU) (Lvl := ℕ) d1
  have e2 := pointsTo_union (ℓ := ((c : Thread nD τ).loc cc0_scratch0)) (q := q) (f := f) (Val := Elt F) (Ix := Unit) (Name := ℕ) (U := UU) (Lvl := ℕ) d2
  have E0 := (BI.equiv_iff (M := 𝕄)).mp ⟨e0.1, e0.2⟩
  have E1 := (BI.equiv_iff (M := 𝕄)).mp ⟨e1.1, e1.2⟩
  have E2 := (BI.equiv_iff (M := 𝕄)).mp ⟨e2.1, e2.2⟩
  refine BIBase.BiEntails.of_eq ?_
  show (((c : Thread nD τ).loc cc0_scratch0) ↦[(Finset.univ : Finset S4x1x512.Idx)]{q} f : sProp 𝕄) = _
  rw [hu, E0, E1, E2]

/-- In slot s the gathered buffer holds the row of the device s places on: the first coordinate there is s. -/
theorem gathered_slot0 (c : Dev nD) (q : PosShare TreeShare) :
    (slotPts c 0 q (spread c (acc3 m (pk c 0))) : sProp 𝕄) = slotPts c 0 q (gathered m c) := by
  unfold slotPts
  refine pointsTo_congr fun i hi => ?_
  have h0 : (⟨(i 0).val, (i 0).isLt⟩ : Fin 4) = 0 := Fin.ext ((mem_slot0 i).mp hi)
  show acc3 m (pk c 0) _ = acc3 m (pk c ⟨(i 0).val, (i 0).isLt⟩) _
  rw [h0]
theorem gathered_slot1 (c : Dev nD) (q : PosShare TreeShare) :
    (slotPts c 1 q (spread c (acc3 m (pk c 1))) : sProp 𝕄) = slotPts c 1 q (gathered m c) := by
  unfold slotPts
  refine pointsTo_congr fun i hi => ?_
  have h0 : (⟨(i 0).val, (i 0).isLt⟩ : Fin 4) = 1 := Fin.ext ((mem_slot1 i).mp hi)
  show acc3 m (pk c 1) _ = acc3 m (pk c ⟨(i 0).val, (i 0).isLt⟩) _
  rw [h0]
theorem gathered_slot2 (c : Dev nD) (q : PosShare TreeShare) :
    (slotPts c 2 q (spread c (acc3 m (pk c 2))) : sProp 𝕄) = slotPts c 2 q (gathered m c) := by
  unfold slotPts
  refine pointsTo_congr fun i hi => ?_
  have h0 : (⟨(i 0).val, (i 0).isLt⟩ : Fin 4) = 2 := Fin.ext ((mem_slot2 i).mp hi)
  show acc3 m (pk c 2) _ = acc3 m (pk c ⟨(i 0).val, (i 0).isLt⟩) _
  rw [h0]
theorem gathered_slot3 (c : Dev nD) (q : PosShare TreeShare) :
    (slotPts c 3 q (spread c (acc3 m (pk c 3))) : sProp 𝕄) = slotPts c 3 q (gathered m c) := by
  unfold slotPts
  refine pointsTo_congr fun i hi => ?_
  have h0 : (⟨(i 0).val, (i 0).isLt⟩ : Fin 4) = 3 := Fin.ext ((mem_slot3 i).mp hi)
  show acc3 m (pk c 3) _ = acc3 m (pk c ⟨(i 0).val, (i 0).isLt⟩) _
  rw [h0]

/-- Slot s holding the row of the device s places on is slot s of the gathered buffer. -/
theorem slot_gathered (c : Dev nD) (s : Fin 4) (q : PosShare TreeShare) :
    (slotPts c s q (spread c (acc3 m (pk c s))) : sProp 𝕄) = slotPts c s q (gathered m c) := by
  match s with
  | 0 => exact gathered_slot0 m c q
  | 1 => exact gathered_slot1 m c q
  | 2 => exact gathered_slot2 m c q
  | 3 => exact gathered_slot3 m c q

omit [FloatOps F] in
/-- A load of the whole buffer reads its contents as they are. -/
theorem read_all (c : Dev nD) (f : CommBuf (F := F) c) : commM.view.readAt (Elt F) rectAll.toLoadRect f = f := by
  exact Memref.readAt_unit_zero (Elt F) cc0_scratch0 (by funext a; fin_cases a <;> rfl) _ f
theorem setOn_loadAll : (commM : Memref sig .tc .vmem S4x1x512 .f32).view.setOn rectAll.toLoadRect.set ⊆ Finset.univ := Finset.subset_univ _

end Cert.KI

end
-- ==== Proof.KIBody0.lean ====
/- Step 0 of a device's body. The device tells the three others, on their barrier semaphores, that it is inside the
   kernel: with the unit to the device d places on goes slot d of its own exchange buffer, free to be written. It then
   reduces its first 256 rows to one row of column maxima and stores that row into slot 0. What it still owes goes from
   the three barrier units and the three rows' credits down to the three rows' credits. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIData
import proofs.«900906_g7700000000000907_dist_max_ax0_shard0_i_m1024_n512_v7x_i4_f32_1_alg».proof.Proof.KIViews
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body0

/-! ## The first grid point: which branches run, which staging buffers are current -/

/-- At the first point only the first of the body's three branches runs. -/
theorem cond1_t0 : k0_cond1 (grid0.coords t0_0) = 1#1 := by decide
theorem cond2_t0 : Scalar.cmpi .ne (Scalar.extui (Scalar.cmpi .sgt (BitVec.ofNat 32 ((grid0.coords t0_0) 0).val) 0#32)) 0#32 = 0#1 := by decide
theorem cond3_t0 : k0_cond3 (grid0.coords t0_0) = 0#1 := by decide
theorem zero_ne_one1 : ((0#1 : BitVec 1) = 1#1) = False := eq_false (by decide)

/-- Both windows are on their first staging buffer; the result's window is idle and not written back. -/
theorem slot0_t0 : cfg0.slots t0_0 (0 : Fin 2) = (0 : Fin 2) := by decide
theorem slot1_t0 : cfg0.slots t0_0 (1 : Fin 2) = (0 : Fin 1) := by decide
theorem idle1_t0 : cfg0.idle 1 (cfg0.grid.coords t0_0) = true := by decide
theorem flush1_t0 : (cfg0.win 1).flush t0_0 = false := by
  have h := (flush0_1 t0_0).not
  simpa [t0_0] using h
theorem stage0_zero : stage0_0 0 = Memref.whole cc0_stg0_0 := rfl
theorem stage1_zero : stage0_1 0 = Memref.whole cc0_stg1_0 := rfl

theorem hz2 : (![0, 0] : Fin 2 → Nat) = fun _ => 0 := funext fun a => by fin_cases a <;> rfl

/-! ## The proof data at the first point -/

theorem Φ_at0 (c : Dev nD) : (dats m ρ 0 c).Φ t0_0.castSucc = Φ₀ m c := rfl
theorem Φ_at1 (c : Dev nD) : (dats m ρ 0 c).Φ t0_0.succ = Φm m c (acc0 m c) := rfl
theorem owed_at0 (c : Dev nD) : (dats m ρ 0 c).owed t0_0.castSucc = O₀ c := rfl
theorem owed_at1 (c : Dev nD) : (dats m ρ 0 c).owed t0_0.succ = O₃ c := rfl
theorem after0 (c : Dev nD) (t : Fin cfg0.N) : (dats m ρ 0 c).after 0 t = xblk m c t := rfl

/-- The input's staging buffer holds the device's block of the step when the body runs: the body leaves it in place. -/
theorem before0 (c : Dev nD) (t : Fin cfg0.N) (d) : (dats m ρ 0 c).before 0 t d = xblk m c t :=
  ((dats m ρ 0 c).before_in_eq_fetched 0 rfl (fun _ => rfl) (fun _ _ _ => rfl) (fun t => by rw [after0]; unfold Dat.blockOf; rfl) t d).trans
    (by unfold Dat.fetched Dat.blockOf; rfl)

theorem leaves0 (c : Dev nD) : (dats m ρ 0 c).leavesExact 0 t0_0 = owns c (Memref.whole cc0_stg0_0) fullShare (xblk m c t0_0) := by
  dsimp only [Dat.leavesExact]
  rw [slot0_t0, after0]

/-! ## What goes out with the three barrier units -/

/-- With the unit to the device d places on goes slot d of this device, at any contents. -/
theorem pay_to1 (c : Dev nD) : (xRd (F := F) m).payload (barCell (pk c 1)) 0 3
    = iprop(∃ f : CommBuf (F := F) c, (slot 1).view.loc (c : Thread nD τ) ↦[(slot 1).view.set]{fullShare} f) := by
  rw [payload_bar3]; unfold barPay
  rw [show pk (pk c 1) 3 = c from pk_pk_neg c 1]
  rfl
theorem pay_to2 (c : Dev nD) : (xRd (F := F) m).payload (barCell (pk c 2)) 0 2
    = iprop(∃ f : CommBuf (F := F) c, (slot 2).view.loc (c : Thread nD τ) ↦[(slot 2).view.set]{fullShare} f) := by
  rw [payload_bar2]; unfold barPay
  rw [show pk (pk c 2) 2 = c from pk_pk_neg c 2]
  rfl
theorem pay_to3 (c : Dev nD) : (xRd (F := F) m).payload (barCell (pk c 3)) 0 1
    = iprop(∃ f : CommBuf (F := F) c, (slot 3).view.loc (c : Thread nD τ) ↦[(slot 3).view.set]{fullShare} f) := by
  rw [payload_bar1]; unfold barPay
  rw [show pk (pk c 3) 1 = c from pk_pk_neg c 3]
  rfl

omit [FloatOps F] in
/-- The buffer cut into its slots: the three that go out, in the order they go, then the device's own. -/
theorem comm_cut (c : Dev nD) (f : CommBuf (F := F) c) :
    (commPts c fullShare f : sProp 𝕄) ⊢ iprop(((slot 1).view.loc (c : Thread nD τ) ↦[(slot 1).view.set]{fullShare} f)
      ∗ ((slot 2).view.loc (c : Thread nD τ) ↦[(slot 2).view.set]{fullShare} f)
      ∗ ((slot 3).view.loc (c : Thread nD τ) ↦[(slot 3).view.set]{fullShare} f)
      ∗ ((slot 0).view.loc (c : Thread nD τ) ↦[(slot 0).view.set]{fullShare} f)) := by
  refine (comm_split c fullShare f).1.trans ?_
  show iprop(((slot 0).view.loc (c : Thread nD τ) ↦[(slot 0).view.set]{fullShare} f)
      ∗ ((slot 1).view.loc (c : Thread nD τ) ↦[(slot 1).view.set]{fullShare} f)
      ∗ ((slot 2).view.loc (c : Thread nD τ) ↦[(slot 2).view.set]{fullShare} f)
      ∗ ((slot 3).view.loc (c : Thread nD τ) ↦[(slot 3).view.set]{fullShare} f)) ⊢ _
  iintro ⟨H0, H1, H2, H3⟩
  isplitl [H1]; · iexact H1
  isplitl [H2]; · iexact H2
  isplitl [H3]; · iexact H3
  iexact H0

end Body0

open Body0

attribute [local sl_rounds] duties_bar amount_bar pay_to1 pay_to2 pay_to3
attribute [local sl_canon] dev1_eq dev2_eq dev3_eq

/-- The body obligation at step 0: from the start state and the whole exchange buffer, the three barrier units are
    paid, each with its slot, and slot 0 ends holding the column maxima of the first block. -/
theorem body0 (c : Dev nD) : BodyAt m ρ c t0_0 := by
  unfold BodyAt
  rw [bigSep_W0, bigSep_W0]
  rw [Dat.leavesExact_idle (dats m ρ 0 c) (1 : Fin 2) t0_0 idle1_t0 flush1_t0, leaves0]
  simp only [before0, Φ_at0, Φ_at1, slot0_t0, slot1_t0, stage0_zero, stage1_zero]
  unfold Dat.owesAt Pipeline.owesWithin
  rw [owed_at0, owed_at1]
  show _ ⊢ wp frame _ Set.univ (cc0_body (grid0.coords t0_0) (Memref.whole cc0_stg0_0) (Memref.isWhole_whole _) (Memref.whole cc0_stg1_0) (Memref.isWhole_whole _) (Memref.whole cc0_scratch0) (Memref.isWhole_whole _) cc0_scratch1 cc0_scratch2) _
  simp only [cc0_body_eq_skeleton]; unfold cc0_body_skel
  simp only [cond1_t0, cond2_t0, cond3_t0, zero_ne_one1, ↓reduceDIte]
  unfold Φ₀ start O₀ owedB owns
  iintro ⟨⟨⟨⟨%K, #Hinv, Hpos, #Hreach, Htok, Hxf⟩, Hcr, #Hlev⟩, ⟨%f0, Hcomm⟩⟩, ⟨%W, %hW, HO⟩, ⟨%d0, %g0, %hg0, Hx⟩, ⟨%d1, %g1, %hg1, Hout⟩⟩
  ihave Hsl := (comm_cut c f0) $$ Hcomm
  unfold invs reacheds barToks
  icases Hsl with ⟨Hs1, Hs2, Hs3, Hs0⟩
  icases Hinv with ⟨#HIb, #HIs0, #HIs1, #HIs2, #HIr0, #HIr1, #HIr2, #HIb1, #HIb2, #HIb3, #HIx1, #HIx2, #HIx3⟩
  icases Hreach with ⟨#Hrb1, #Hrb2, #Hrb3, #Hrx1, #Hrx2, #Hrx3, #Hrs0, #Hrs1, #Hrs2⟩
  icases Htok with ⟨Ht1, Ht2, Ht3⟩
  -- the elements a load and a store of slot 0 touch are slot 0's
  have hL := setOn_load0
  have hS := setOn_store0
  -- the three signals, the two loads, the store
  sl_exec
  sl_step
  -- what was stored is the first block's column maxima
  have hv : body0.sl.v52 c g0 = xblk m c t0_0 := by
    unfold body0.sl.v52
    exact (Memref.readAt_unit_zero (Elt F) cc0_stg0_0 hz2 _ g0).trans hg0
  have e : k0_pay1 (body0.sl.v52 c g0) = acc0 m c := (congrArg k0_pay1 hv).trans rfl
  have hs : ((slot 0).view.loc (c : Thread nD τ) ↦[(slot 0).view.set]{fullShare} body0.sl.Hs0_w1 c f0 g0 : sProp 𝕄)
      = slotPts c 0 fullShare (spread c (acc0 m c)) := by
    unfold body0.sl.Hs0_w1; rw [e]; exact store_slot0 c fullShare f0 (acc0 m c)
  ihave Hs0 := (Entails.of_eq hs) $$ Hs0
  unfold Φm mid
  isplitl [Hpos Hxf Hcr Hs0]
  · isplitr [Hs0]
    · isplitl [Hpos Hxf]
      · iexists K
        isplitr
        · unfold invs
          isplitr; · iexact HIb
          isplitr; · iexact HIs0
          isplitr; · iexact HIs1
          isplitr; · iexact HIs2
          isplitr; · iexact HIr0
          isplitr; · iexact HIr1
          isplitr; · iexact HIr2
          isplitr; · iexact HIb1
          isplitr; · iexact HIb2
          isplitr; · iexact HIb3
          isplitr; · iexact HIx1
          isplitr; · iexact HIx2
          iexact HIx3
        isplitl [Hpos]; · iexact Hpos
        isplitr
        · unfold reacheds
          isplitr; · iexact Hrb1
          isplitr; · iexact Hrb2
          isplitr; · iexact Hrb3
          isplitr; · iexact Hrx1
          isplitr; · iexact Hrx2
          isplitr; · iexact Hrx3
          isplitr; · iexact Hrs0
          isplitr; · iexact Hrs1
          iexact Hrs2
        iexact Hxf
      isplitl [Hcr]; · iexact Hcr
      iexact Hlev
    · iexact Hs0
  isplitl [HO]
  · iexists W
    isplitr; · ipureintro; exact fun _ _ => Or.inl trivial
    iexact HO
  isplitl [Hx]
  · iexists g0
    isplitr; · ipureintro; exact hg0
    iexact Hx
  iexists d1
  iexists g1
  isplitr; · ipureintro; exact hg1
  iexact Hout

end Cert.KI

end
-- ==== Proof.KIBodyMid.lean ====
/- Steps 1 and 2 of a device's four steps. Only the middle branch of the body runs: it reads the running column maxima
   from slot 0 of the exchange buffer, reads the step's block of 256 rows from its staging buffer, and writes back into
   slot 0 the running maxima joined with the block's column maxima. Nothing is sent, signalled or waited for: what the
   device holds for the exchange, what it owes, and the two staging buffers pass through the step untouched. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIData
import proofs.«900906_g7700000000000907_dist_max_ax0_shard0_i_m1024_n512_v7x_i4_f32_1_alg».proof.Proof.KIViews
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace BodyMid

/-- A whole staging buffer held by its own elements; and held at contents equal to X. -/
abbrev stgPts (c : Dev nD) (b : Ref sig .tc) (f : Buf (Elt F) ((Memref.whole b : Memref sig .tc _ _ _).view.loc (c : Thread nD τ))) : sProp 𝕄 :=
  (Memref.whole b : Memref sig .tc _ _ _).view.loc (c : Thread nD τ) ↦[(Memref.whole b : Memref sig .tc _ _ _).view.set]{fullShare} f
abbrev stg (c : Dev nD) (b : Ref sig .tc) (X : b.ty.Contents (Elt F)) : sProp 𝕄 :=
  iprop(∃ f : Buf (Elt F) ((Memref.whole b : Memref sig .tc _ _ _).view.loc (c : Thread nD τ)), ⌜f = X⌝ ∗ stgPts c b f)
/-- Slot 0 of the exchange buffer held whole by its own elements. -/
abbrev slot0Pts (c : Dev nD) (f : CommBuf (F := F) c) : sProp 𝕄 :=
  (slot 0).view.loc (c : Thread nD τ) ↦[(slot 0).view.set]{fullShare} f

/-- The body's middle condition as the kernel computes it at a grid point: the step is not the first. -/
abbrev condMid (i : grid0.Coords) : BitVec 1 :=
  Scalar.cmpi .ne (Scalar.extui (Scalar.cmpi .sgt (BitVec.ofNat 32 (i 0).val) 0#32) : BitVec 32) 0#32

/-- At steps 1 and 2 the first and the last branch are not taken, the middle one is. -/
theorem cond1_t1 : ¬ k0_cond1 (grid0.coords t0_1) = 1#1 := by decide
theorem cond1_t2 : ¬ k0_cond1 (grid0.coords t0_2) = 1#1 := by decide
theorem cond3_t1 : ¬ k0_cond3 (grid0.coords t0_1) = 1#1 := by decide
theorem cond3_t2 : ¬ k0_cond3 (grid0.coords t0_2) = 1#1 := by decide
theorem cond2_t1 : condMid (grid0.coords t0_1) = 1#1 := by decide
theorem cond2_t2 : condMid (grid0.coords t0_2) = 1#1 := by decide

/-- What window 0's staging buffer holds when the body runs at step t: the step's block, fetched there or not. -/
theorem before0 (c : Dev nD) (t : Fin cfg0.N) (d) : (dats m ρ 0 c).before 0 t d = xblk m c t :=
  ((dats m ρ 0 c).before_in_eq_fetched 0 rfl (fun _ => rfl) (fun _ _ _ => rfl) (fun t => rfl) t d).trans rfl

omit [FloatOps F] in
/-- The elements an access of slot 0's rectangle goes through are slot 0's. -/
theorem set_access0 : ((commM : Memref sig .tc .vmem S4x1x512 .f32).access rect0).set ⊆ (slot 0).view.set := by
  rw [View.set_slice]; exact setOn_load0

omit [FloatOps F] in
theorem hz2 : (![0, 0] : Fin 2 → Nat) = fun _ => 0 := funext fun a => by fin_cases a <;> rfl

/-- The rectangle of a whole block of 256 rows. -/
abbrev rectBlk : Rect S256x512 := Rect.unit (s := S256x512) ![0, 0] S256x512.size Facts₀.inb_S256x512_S256x512_0_0

/-- Slot 0 after the step's store, when it held the row a in every slot's description and the block read is v: it is
    described by a joined with v's column maxima. -/
theorem slot0_after (c : Dev nD) (a : Vec F S1x1x512 .f32) (v : Vec F S256x512 .f32) :
    (slot0Pts c ((commM.access rect0).write (Elt F) (spread c a) (k0_pay2 (commM.view.readAt (Elt F) rect0.toLoadRect (spread c a)) v) Finset.univ) : sProp 𝕄)
      = slotPts c 0 fullShare (spread c (k0_pay2 a v)) := by
  rw [read_slot0_spread]; exact store_slot0 c fullShare _ _

/-- The body at a grid point where only the middle branch is taken, on any staging buffers: slot 0 goes from the
    running maxima a to a joined with the column maxima of what the block's staging buffer holds; that buffer is read
    and handed back as it was, the result row's staging buffer is not touched. -/
theorem mid_run (c : Dev nD) (i : grid0.Coords) (h1 : ¬ k0_cond1 i = 1#1) (h2 : condMid i = 1#1) (h3 : ¬ k0_cond3 i = 1#1)
    (arg1 : Memref sig .tc .vmem S256x512 .f32) (harg1 : arg1.IsWhole) (arg2 : Memref sig .tc .vmem S1x512 .f32) (harg2 : arg2.IsWhole)
    (a : Vec F S1x1x512 .f32) (f0 : Buf (Elt F) (arg1.view.loc (c : Thread nD τ))) (Kt : PUnit.{1} → sProp 𝕄) :
    iprop((slot0Pts c (spread c a) ∗ (arg1.view.loc (c : Thread nD τ) ↦[arg1.view.set]{fullShare} f0))
        ∗ ((slotPts c 0 fullShare (spread c (k0_pay2 a (arg1.view.readAt (Elt F) rectBlk.toLoadRect f0)))
            ∗ (arg1.view.loc (c : Thread nD τ) ↦[arg1.view.set]{fullShare} f0)) -∗ Kt ⟨⟩))
      ⊢ wp frame (wpE (defs₀ (F := F)) 𝒱₀ c none) Set.univ
          (cc0_body i arg1 harg1 arg2 harg2 (Memref.whole cc0_scratch0) (Memref.isWhole_whole _) cc0_scratch1 cc0_scratch2) Kt := by
  rw [cc0_body_eq_skeleton]; unfold cc0_body_skel
  iintro ⟨⟨Hs0, Hx⟩, HK⟩
  have hl0 := set_access0
  have hs0 := setOn_store0
  sl_exec
  sl_step
  iapply HK
  isplitl [Hs0]
  · irw [← slot0_after]
    unfold mid_run.sl.Hs0_w1 mid_run.sl.v12
    iexact Hs0
  iexact Hx

end BodyMid

/-- Step 1: from the running maxima after step 0 in slot 0 to those after step 1. -/
theorem body1 (c : Dev nD) : BodyAt m ρ c t0_1 := by
  unfold BodyAt
  rw [bigSep_W0, bigSep_W0]
  show iprop((mid m c ∗ BodyMid.slot0Pts c (spread c (acc0 m c))) ∗ (dats m ρ 0 c).owesAt () (t0_1).castSucc
      ∗ (∃ d, BodyMid.stg c cc0_stg0_1 ((dats m ρ 0 c).before 0 t0_1 d))
      ∗ (∃ d, BodyMid.stg c cc0_stg1_0 ((dats m ρ 0 c).before 1 t0_1 d)))
    ⊢ wp frame (wpE (defs₀ (F := F)) 𝒱₀ c none) Set.univ
        (cc0_body (grid0.coords t0_1) (Memref.whole cc0_stg0_1) (Memref.isWhole_whole _) (Memref.whole cc0_stg1_0) (Memref.isWhole_whole _)
          (Memref.whole cc0_scratch0) (Memref.isWhole_whole _) cc0_scratch1 cc0_scratch2) fun _ =>
        iprop((mid m c ∗ slotPts c 0 fullShare (spread c (acc1 m c))) ∗ (dats m ρ 0 c).owesAt () (t0_1).succ
          ∗ BodyMid.stg c cc0_stg0_1 (xblk m c t0_1)
          ∗ (∃ d, BodyMid.stg c cc0_stg1_0 ((dats m ρ 0 c).before 1 t0_1 d)))
  iintro ⟨⟨Hmid, Hs0⟩, HO, ⟨%d0, %f0, %hf0, Hx⟩, ⟨%d1, %f1, %hf1, Hout⟩⟩
  rw [BodyMid.before0] at hf0
  subst hf0
  iapply (BodyMid.mid_run c (grid0.coords t0_1) BodyMid.cond1_t1 BodyMid.cond2_t1 BodyMid.cond3_t1 (Memref.whole cc0_stg0_1) (Memref.isWhole_whole _)
    (Memref.whole cc0_stg1_0) (Memref.isWhole_whole _) (acc0 m c) (xblk m c t0_1) _)
  isplitl [Hs0 Hx]
  · isplitl [Hs0]; · iexact Hs0
    iexact Hx
  iintro ⟨Hs0, Hx⟩
  have hv : (Memref.whole cc0_stg0_1 : Memref sig .tc .vmem S256x512 .f32).view.readAt (Elt F) BodyMid.rectBlk.toLoadRect (xblk m c t0_1) = xblk m c t0_1 :=
    Memref.readAt_unit_zero (Elt F) cc0_stg0_1 BodyMid.hz2 _ _
  isplitl [Hmid Hs0]
  · isplitl [Hmid]; · iexact Hmid
    irw [show acc1 m c = k0_pay2 (acc0 m c) (xblk m c t0_1) from rfl, ← hv]
    iexact Hs0
  isplitl [HO]; · iexact HO
  isplitl [Hx]
  · iexists _; isplitr; · (ipureintro; rfl)
    iexact Hx
  iexists d1, f1; isplitr; · (ipureintro; exact hf1)
  iexact Hout

/-- Step 2: from the running maxima after step 1 in slot 0 to those after step 2. -/
theorem body2 (c : Dev nD) : BodyAt m ρ c t0_2 := by
  unfold BodyAt
  rw [bigSep_W0, bigSep_W0]
  show iprop((mid m c ∗ BodyMid.slot0Pts c (spread c (acc1 m c))) ∗ (dats m ρ 0 c).owesAt () (t0_2).castSucc
      ∗ (∃ d, BodyMid.stg c cc0_stg0_0 ((dats m ρ 0 c).before 0 t0_2 d))
      ∗ (∃ d, BodyMid.stg c cc0_stg1_0 ((dats m ρ 0 c).before 1 t0_2 d)))
    ⊢ wp frame (wpE (defs₀ (F := F)) 𝒱₀ c none) Set.univ
        (cc0_body (grid0.coords t0_2) (Memref.whole cc0_stg0_0) (Memref.isWhole_whole _) (Memref.whole cc0_stg1_0) (Memref.isWhole_whole _)
          (Memref.whole cc0_scratch0) (Memref.isWhole_whole _) cc0_scratch1 cc0_scratch2) fun _ =>
        iprop((mid m c ∗ slotPts c 0 fullShare (spread c (acc2 m c))) ∗ (dats m ρ 0 c).owesAt () (t0_2).succ
          ∗ BodyMid.stg c cc0_stg0_0 (xblk m c t0_2)
          ∗ (∃ d, BodyMid.stg c cc0_stg1_0 ((dats m ρ 0 c).before 1 t0_2 d)))
  iintro ⟨⟨Hmid, Hs0⟩, HO, ⟨%d0, %f0, %hf0, Hx⟩, ⟨%d1, %f1, %hf1, Hout⟩⟩
  rw [BodyMid.before0] at hf0
  subst hf0
  iapply (BodyMid.mid_run c (grid0.coords t0_2) BodyMid.cond1_t2 BodyMid.cond2_t2 BodyMid.cond3_t2 (Memref.whole cc0_stg0_0) (Memref.isWhole_whole _)
    (Memref.whole cc0_stg1_0) (Memref.isWhole_whole _) (acc1 m c) (xblk m c t0_2) _)
  isplitl [Hs0 Hx]
  · isplitl [Hs0]; · iexact Hs0
    iexact Hx
  iintro ⟨Hs0, Hx⟩
  have hv : (Memref.whole cc0_stg0_0 : Memref sig .tc .vmem S256x512 .f32).view.readAt (Elt F) BodyMid.rectBlk.toLoadRect (xblk m c t0_2) = xblk m c t0_2 :=
    Memref.readAt_unit_zero (Elt F) cc0_stg0_0 BodyMid.hz2 _ _
  isplitl [Hmid Hs0]
  · isplitl [Hmid]; · iexact Hmid
    irw [show acc2 m c = k0_pay2 (acc1 m c) (xblk m c t0_2) from rfl, ← hv]
    iexact Hs0
  isplitl [HO]; · iexact HO
  isplitl [Hx]
  · iexists _; isplitr; · (ipureintro; rfl)
    iexact Hx
  iexists d1, f1; isplitr; · (ipureintro; exact hf1)
  iexact Hout

/-- info: 'Cert.KI.body1' depends on axioms: [propext, Classical.choice, Quot.sound] -/
#guard_msgs in #print axioms body1
/-- info: 'Cert.KI.body2' depends on axioms: [propext, Classical.choice, Quot.sound] -/
#guard_msgs in #print axioms body2

end Cert.KI

end
-- ==== Proof.KIBody3Pre.lean ====
/- The last of the four steps, set-up: the conditions of the body decided at the last grid point, which staging buffers
   the body is handed there, the row a device sends, and a slot held outright as the four shares it is cut into (three
   lent to the three copies that read it, one kept). -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIData
import proofs.«900906_g7700000000000907_dist_max_ax0_shard0_i_m1024_n512_v7x_i4_f32_1_alg».proof.Proof.KIViews
import Idealize.ShloMosaic.Lib.Pipeline.Value
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The last step: the decided conditions, the staging buffers -/

theorem cond1_t3 : ¬ (k0_cond1 (grid0.coords t0_3) = 1#1) := by decide
theorem cond3_t3 : k0_cond3 (grid0.coords t0_3) = 1#1 := by decide
theorem cond2_t3 : Scalar.cmpi .ne (Scalar.extui (Scalar.cmpi .sgt (BitVec.ofNat 32 ((grid0.coords t0_3) 0).val) 0#32)) 0#32 = 1#1 := by decide
theorem stage0_t3 : stage0_0 (cfg0.slots t0_3 0) = Memref.whole cc0_stg0_1 := rfl
theorem stage1_t3 : stage0_1 (cfg0.slots t0_3 1) = Memref.whole cc0_stg1_0 := rfl

abbrev xM : Memref sig .tc .vmem S256x512 .f32 := Memref.whole cc0_stg0_1
abbrev oM : Memref sig .tc .vmem S1x512 .f32 := Memref.whole cc0_stg1_0

/-- The row every device sends: its column maxima after the four steps, laid into every slot. -/
abbrev f3 (c : Dev nD) : CommBuf (F := F) c := spread c (acc3 m c)

/-! ## Shares of a slot -/

omit [FloatOps F] in
theorem slot_halves (c : Dev nD) (s : Fin 4) (q : PosShare TreeShare) (f : CommBuf (F := F) c) :
    (slotPts c s q f : sProp 𝕄) = iprop(slotPts c s q.left f ∗ slotPts c s q.right f) := by
  unfold slotPts
  split <;> exact BI.equiv_iff.mp ⟨(pointsTo_share (PosShare.mem_left_op_right q)).1, (pointsTo_share (PosShare.mem_left_op_right q)).2⟩

omit [FloatOps F] in
/-- A slot held outright is its four shares: the three lent to the copies and the one kept. -/
theorem slot_split4 (c : Dev nD) (s : Fin 4) (f : CommBuf (F := F) c) :
    (slotPts c s fullShare f : sProp 𝕄)
      = iprop((slotPts c s (qS 0) f ∗ slotPts c s (qS 1) f) ∗ (slotPts c s (qS 2) f ∗ slotPts c s qK f)) := by
  rw [slot_halves c s fullShare, slot_halves c s fullShare.left, slot_halves c s fullShare.right]; rfl

end Cert.KI

end
-- ==== Proof.KIBody3Tail.lean ====
/- The end of the last step. The rows of the three peers have landed in slots 1, 2, 3. The device reads the whole exchange
   buffer through the one share of it that it kept (of slot 0, three further shares are still lent to its own three
   copies; a read needs no more than a share), stores the maximum over the four slots into the result row's staging
   buffer, and waits for its three copies to have been read out: each wait hands back the share of slot 0 that copy was
   lent. Its six cells, each past its single round with nothing of a later round taken, are then closed with their
   counters at zero, and the four shares of every slot are put together again: the device holds the exchange buffer
   outright, the four rows in it. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIData
import proofs.«900906_g7700000000000907_dist_max_ax0_shard0_i_m1024_n512_v7x_i4_f32_1_alg».proof.Proof.KIViews
import proofs.«900906_g7700000000000907_dist_max_ax0_shard0_i_m1024_n512_v7x_i4_f32_1_alg».proof.Proof.KIBody3Pre
import Idealize.ShloMosaic.Lib.Pipeline.Value
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tail of the last step -/

attribute [local sl_rounds] duties_send expect_send payload_send amount_send rest_send

/-- From the three receive waits on: the whole-buffer load, the result row's store, the three send waits; the device
    ends with the exchange buffer whole at the gathered contents, its six cells closed, and the result row's staging
    buffer at the maximum over the four slots. -/
theorem tail3 (K : Dev nD × Fin 7 → ℕ) (c : Dev nD) (W : Waits sig Unit) (g1 : Buf (Elt F) ((c : Thread nD τ).loc cc0_stg1_0)) (Kt : PUnit → sProp 𝕄) {h1 h2 h3 h4 h5 h6 h7 h8 h9 h10} :
  iprop(invs m K c
     ∗ (atPos ER (sendCell c 0) 0 ∅ 0 ∗ atPos ER (sendCell c 1) 0 ∅ 0 ∗ atPos ER (sendCell c 2) 0 ∅ 0)
     ∗ (atPos ER (recvCell c 0) 1 ∅ 0 ∗ atPos ER (recvCell c 1) 1 ∅ 0 ∗ atPos ER (recvCell c 2) 1 ∅ 0)
     ∗ (cred (tallyAt (sendCell c 0) () N) ∗ cred (tallyAt (sendCell c 1) () N) ∗ cred (tallyAt (sendCell c 2) () N))
     ∗ slotPts c 0 qK (f3 m c) ∗ recvPay m c 0 ∗ recvPay m c 1 ∗ recvPay m c 2
     ∗ owes (c : Thread nD τ) 0 W
     ∗ (((c : Thread nD τ).loc cc0_stg1_0) ↦{fullShare} g1)
     ∗ (∀ W', (Φe m c ∗ owes (c : Thread nD τ) 0 W' ∗ (((c : Thread nD τ).loc cc0_stg1_0) ↦{fullShare} outAt m c)) -∗ Kt ⟨⟩))
   ⊢ wp frame (wpE (defs₀ (F := F)) 𝒱₀ c none) Set.univ
      (.op (.load commM rectAll.toLoadRect h1) fun v100 =>
       .op (.load oM (Rect.unit (s := S1x512) ![0, 0] S1x512.size Facts₀.inb_S1x512_S1x512_0_0).toLoadRect h2) fun v102 =>
       .op (.store oM (Rect.unit (s := S1x512) ![0, 0] S1x512.size Facts₀.inb_S1x512_S1x512_0_0) (k0_pay3 v100) Finset.univ h3 h4) fun _ =>
       .op (.waitDma2 (sendS 1) (slot 2) (slot 0) h5 h6) fun _ =>
       .op (.waitDma2 (sendS 0) (slot 3) (slot 0) h7 h8) fun _ =>
       .op (.waitDma2 (sendS 2) (slot 1) (slot 0) h9 h10) fun _ => .ret ⟨⟩) Kt := by
  -- slot 0 holds the device's own row, which is slot 0 of the gathered buffer (the device 0 places on is itself)
  have e0 : (slotPts c 0 qK (f3 m c) : sProp 𝕄) = slotPts c 0 qK (gathered m c) := by
    have h := slot_gathered m c 0 qK
    rwa [pk_zero] at h
  -- each landed slot, held outright, is slot s of the gathered buffer, cut into its four shares
  rw [e0, show recvPay m c 0 = slotPts c 1 fullShare (spread c (acc3 m (pk c 1))) from rfl,
    show recvPay m c 1 = slotPts c 2 fullShare (spread c (acc3 m (pk c 2))) from rfl,
    show recvPay m c 2 = slotPts c 3 fullShare (spread c (acc3 m (pk c 3))) from rfl,
    slot_gathered m c 1 fullShare, slot_gathered m c 2 fullShare, slot_gathered m c 3 fullShare,
    slot_split4 c 1 (gathered m c), slot_split4 c 2 (gathered m c), slot_split4 c 3 (gathered m c)]
  unfold invs
  iintro ⟨⟨-, #IS0, #IS1, #IS2, #IR0, #IR1, #IR2, -⟩, ⟨HaS0, HaS1, HaS2⟩, ⟨HaR0, HaR1, HaR2⟩, ⟨Hc0, Hc1, Hc2⟩, HK0, ⟨⟨H1a, H1b⟩, ⟨H1c, H1K⟩⟩, ⟨⟨H2a, H2b⟩, ⟨H2c, H2K⟩⟩, ⟨⟨H3a, H3b⟩, ⟨H3c, H3K⟩⟩, HO, Hout, Hk⟩
  -- the kept share of the four slots side by side is the kept share of the whole buffer
  ihave Hcomm := (comm_split c qK (gathered m c)).2 $$ [HK0 H1K H2K H3K]
  · isplitl [HK0]; · iexact HK0
    isplitl [H1K]; · iexact H1K
    isplitl [H2K]; · iexact H2K
    iexact H3K
  unfold commPts
  ihave Hcomm := (Entails.of_eq (show (((c : Thread nD τ).loc cc0_scratch0) ↦{qK} gathered m c : sProp 𝕄) = ((commM.view.loc (c : Thread nD τ)) ↦{qK} gathered m c) from rfl)) $$ Hcomm
  ihave Hout := (Entails.of_eq (show (((c : Thread nD τ).loc cc0_stg1_0) ↦{fullShare} g1 : sProp 𝕄) = ((oM.view.loc (c : Thread nD τ)) ↦{fullShare} g1) from rfl)) $$ Hout
  -- the two loads, the store, and the three waits, each for the whole of its cell's one round
  sl_exec
  -- what the three send cells gave back: the lent shares of slot 0
  have hp : ∀ j : Fin 3, (bigSep ((xRd (F := F) m).duties (sendCell c j) 0) (fun d => (xRd (F := F) m).payload (sendCell c j) 0 d) : sProp 𝕄)
      = slotPts c 0 (qS j) (gathered m c) := by
    intro j
    rw [duties_send, bigSep_singleton, payload_send]
    have h := slot_gathered m c 0 (qS j)
    rw [pk_zero] at h
    exact h
  ihave P0 := (Entails.of_eq (hp 0)) $$ HaS0_pay1
  ihave P1 := (Entails.of_eq (hp 1)) $$ HaS1_pay1
  ihave P2 := (Entails.of_eq (hp 2)) $$ HaS2_pay1
  -- the kept share of the buffer, slot by slot again
  ihave Hcomm := (Entails.of_eq (show ((commM.view.loc (c : Thread nD τ)) ↦{qK} gathered m c : sProp 𝕄) = commPts c qK (gathered m c) from rfl)) $$ Hcomm
  ihave Hs := (comm_split c qK (gathered m c)).1 $$ Hcomm
  icases Hs with ⟨H0K, H1K, H2K, H3K⟩
  -- every slot's four shares make the slot held outright, and the four slots the buffer
  ihave S0 := (Entails.of_eq (slot_split4 c 0 (gathered m c)).symm) $$ [P0 P1 P2 H0K]
  · isplitl [P0 P1]
    · isplitl [P0]; · iexact P0
      iexact P1
    · isplitl [P2]; · iexact P2
      iexact H0K
  ihave S1 := (Entails.of_eq (slot_split4 c 1 (gathered m c)).symm) $$ [H1a H1b H1c H1K]
  · isplitl [H1a H1b]
    · isplitl [H1a]; · iexact H1a
      iexact H1b
    · isplitl [H1c]; · iexact H1c
      iexact H1K
  ihave S2 := (Entails.of_eq (slot_split4 c 2 (gathered m c)).symm) $$ [H2a H2b H2c H2K]
  · isplitl [H2a H2b]
    · isplitl [H2a]; · iexact H2a
      iexact H2b
    · isplitl [H2c]; · iexact H2c
      iexact H2K
  ihave S3 := (Entails.of_eq (slot_split4 c 3 (gathered m c)).symm) $$ [H3a H3b H3c H3K]
  · isplitl [H3a H3b]
    · isplitl [H3a]; · iexact H3a
      iexact H3b
    · isplitl [H3c]; · iexact H3c
      iexact H3K
  ihave HC := (comm_split c fullShare (gathered m c)).2 $$ [S0 S1 S2 S3]
  · isplitl [S0]; · iexact S0
    isplitl [S1]; · iexact S1
    isplitl [S2]; · iexact S2
    iexact S3
  -- the six own cells: no round from round 1 on has a duty, so each is closed and its counter is zero
  imod (Rounds.cell_close ER (xRd m) (Set.mem_univ (K (c, kS 0))) (fun h => h) (R := 1) (duties_later m (sendCell c 0))) $$ [HaS0] with Hz0
  · isplitr; · iexact IS0
    iexact HaS0
  imod (Rounds.cell_close ER (xRd m) (Set.mem_univ (K (c, kS 1))) (fun h => h) (R := 1) (duties_later m (sendCell c 1))) $$ [HaS1] with Hz1
  · isplitr; · iexact IS1
    iexact HaS1
  imod (Rounds.cell_close ER (xRd m) (Set.mem_univ (K (c, kS 2))) (fun h => h) (R := 1) (duties_later m (sendCell c 2))) $$ [HaS2] with Hz2
  · isplitr; · iexact IS2
    iexact HaS2
  imod (Rounds.cell_close ER (xRd m) (Set.mem_univ (K (c, kR 0))) (fun h => h) (R := 1) (duties_later m (recvCell c 0))) $$ [HaR0] with Hy0
  · isplitr; · iexact IR0
    iexact HaR0
  imod (Rounds.cell_close ER (xRd m) (Set.mem_univ (K (c, kR 1))) (fun h => h) (R := 1) (duties_later m (recvCell c 1))) $$ [HaR1] with Hy1
  · isplitr; · iexact IR1
    iexact HaR1
  imod (Rounds.cell_close ER (xRd m) (Set.mem_univ (K (c, kR 2))) (fun h => h) (R := 1) (duties_later m (recvCell c 2))) $$ [HaR2] with Hy2
  · isplitr; · iexact IR2
    iexact HaR2
  -- the staging buffer of the result row: the load of the whole buffer read its contents as they are, and the store
  -- wrote the whole row, the maximum over the four slots
  have hv : oM.view.writes (Elt F) g1 [⟨Rect.unit (s := S1x512) ![0, 0] S1x512.size Facts₀.inb_S1x512_S1x512_0_0,
      k0_pay3 (commM.view.readAt (Elt F) rectAll.toLoadRect (gathered m c))⟩] = outAt m c := by
    rw [read_all]
    exact Memref.write_access_unit_zero_univ (Elt F) cc0_stg1_0 (off := ![0, 0])
      (show (![0, 0] : Fin 2 → ℕ) = fun _ => 0 from by funext a; fin_cases a <;> rfl) Facts₀.inb_S1x512_S1x512_0_0 g1 (k0_pay3 (gathered m c))
  ihave Hout := (Entails.of_eq (congrArg (fun f => (((c : Thread nD τ).loc cc0_stg1_0) ↦{fullShare} f : sProp 𝕄)) hv)) $$ Hout
  sl_step
  iapply Hk $$ %_
  unfold Φe
  isplitl [HC Hz0 Hz1 Hz2 Hy0 Hy1 Hy2]
  · isplitl [HC]; · iexact HC
    isplitl [Hz0]; · iexact Hz0
    isplitl [Hz1]; · iexact Hz1
    isplitl [Hz2]; · iexact Hz2
    isplitl [Hy0]; · iexact Hy0
    isplitl [Hy1]; · iexact Hy1
    iexact Hy2
  isplitl [HO]; · iexact HO
  iexact Hout

/-- info: 'Cert.KI.tail3' depends on axioms: [propext, Classical.choice, Quot.sound] -/
#guard_msgs in #print axioms tail3

end Cert.KI

end
-- ==== Proof.KIBody3.lean ====
/- The last of the four steps of a device's body. The running column maxima in slot 0 of the exchange buffer take in the last
   256 rows. Then the exchange: the device waits on its barrier cell for the three units of its peers, each of which brings
   the slot of that peer the device's row goes into; it cuts its own row into four shares, lends one to each of the three
   copies (2, 1 and 3 places on, in that order) and keeps one; it waits on its three receive cells for the three rows of the
   others; it reads the four rows at the share it kept, writes their maximum into the result's staging buffer, waits on its
   three send cells for the lent shares, closes its six own cells and holds its exchange buffer whole again. One lemma for
   each printed part, each from what the part needs to what it leaves, composed in program order. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIData
import proofs.«900906_g7700000000000907_dist_max_ax0_shard0_i_m1024_n512_v7x_i4_f32_1_alg».proof.Proof.KIViews
import Idealize.ShloMosaic.Lib.Pipeline.Value
import Idealize.ShloMosaic.Lib.Pipeline.Launch
import Idealize.ShloMosaic.Lib.Pipeline.Kit
import Idealize.ShloMosaic.Lib.Tactic
import proofs.«900906_g7700000000000907_dist_max_ax0_shard0_i_m1024_n512_v7x_i4_f32_1_alg».proof.Proof.KIBody3Pre
import proofs.«900906_g7700000000000907_dist_max_ax0_shard0_i_m1024_n512_v7x_i4_f32_1_alg».proof.Proof.KIBody3Tail

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body3

theorem pk_back1 (c : Dev nD) : pk (pk c 1) 3 = c := by revert c; decide
theorem pk_back2 (c : Dev nD) : pk (pk c 2) 2 = c := by revert c; decide
theorem pk_back3 (c : Dev nD) : pk (pk c 3) 1 = c := by revert c; decide

set_option maxHeartbeats 800000 in
/-- The copy of the own row, read at the share lent on send semaphore 1, into slot 2 of the device 2 places on,
    landing on that device's receive semaphore 1: the addressed-transfer rule at these cells. -/
theorem wp_send_2 (K : Dev nD × Fin 7 → ℕ) (c n : Dev nD) (hn : n = pk c 2)
    {hsc : (slot 2 : Memref sig (Dev.tc n : Thread nD τ).2.kind .vmem S1x512 .f32).view.ref.isScScratch = false}
    {hsrc : (slot 0 : Memref sig .tc .vmem S1x512 .f32).view.WordExact} {hdst : (slot 2 : Memref sig .tc .vmem S1x512 .f32).view.WordExact}
    {hsem : DmaTarget.Typed .vmem (.dma (recvS 1)) (.remote (Dev.tc n : Thread nD τ) (slot 2 : Memref sig .tc .vmem S1x512 .f32) (.dma (sendS 1)) hsc)}
    {α : Type} {Q : α → sProp 𝕄} {k : PUnit → Prog (TpuEff nD τ sig (Elt F) Λ₀ .tc) α}
    (fd : CommBuf (F := F) (pk c 2)) (O₀ O : CellTallies nD τ sig Unit) (hO : O₀ = O + owedR c 2) (W : Waits sig Unit) :
    iprop(cellInv ER (xRd m) (K (c, kS 1)) (sendCell c 1) ∗ cellInv ER (xRd m) (K (pk c 2, kR 1)) (recvCell (pk c 2) 1)
        ∗ slotPts c 0 (qS 1) (f3 m c) ∗ slotPts (pk c 2) 2 fullShare fd
        ∗ owes (c : Thread nD τ) O₀ W
        ∗ dutyTok ER (sendCell c 1) 0 (0 : Fin 4) ∗ reached ER (sendCell c 1) 0
        ∗ dutyTok ER (recvCell (pk c 2) 1) 0 (0 : Fin 4) ∗ reached ER (recvCell (pk c 2) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot 0) (.remote (Dev.tc n : Thread nD τ) (slot 2) (.dma (sendS 1)) hsc) (.dma (recvS 1)) hsrc hdst hsem) k) Q) := by
  subst hn
  simp only [slotPts]
  exact Rounds.wp_send_pointsTo 𝒱₀ ER (xRd m) (c : Thread nD τ) none (c' := (pk c 2 : Thread nD τ)) (src := slot 0) (dst := slot 2)
    (sS := .dma (sendS 1)) (sem := .dma (recvS 1)) (κ₁ := K (c, kS 1)) (κ₂ := K (pk c 2, kR 1))
    (r₁ := 0) (r₂ := 0) (d₁ := 0) (d₂ := 0) (fd := fd) (q := qS 1) (fs := f3 m c)
    (by rw [duties_send]; exact Finset.mem_singleton_self _) (by rw [duties_recv]; exact Finset.mem_singleton_self _)
    () () N rfl (amount_send m c 1 0) (amount_recv m (pk c 2) 1 0) O hO (W := W)
    (by rw [payload_send]; unfold sendPay; simp only [slotPts]; exact BI.Entails.refl _)
    (by rw [payload_recv]; unfold recvPay; simp only []; rw [landed_slot2, pk_back2])

set_option maxHeartbeats 800000 in
/-- The copy of the own row, read at the share lent on send semaphore 0, into slot 3 of the device 1 places on,
    landing on that device's receive semaphore 2: the addressed-transfer rule at these cells. -/
theorem wp_send_1 (K : Dev nD × Fin 7 → ℕ) (c n : Dev nD) (hn : n = pk c 1)
    {hsc : (slot 3 : Memref sig (Dev.tc n : Thread nD τ).2.kind .vmem S1x512 .f32).view.ref.isScScratch = false}
    {hsrc : (slot 0 : Memref sig .tc .vmem S1x512 .f32).view.WordExact} {hdst : (slot 3 : Memref sig .tc .vmem S1x512 .f32).view.WordExact}
    {hsem : DmaTarget.Typed .vmem (.dma (recvS 2)) (.remote (Dev.tc n : Thread nD τ) (slot 3 : Memref sig .tc .vmem S1x512 .f32) (.dma (sendS 0)) hsc)}
    {α : Type} {Q : α → sProp 𝕄} {k : PUnit → Prog (TpuEff nD τ sig (Elt F) Λ₀ .tc) α}
    (fd : CommBuf (F := F) (pk c 1)) (O₀ O : CellTallies nD τ sig Unit) (hO : O₀ = O + owedR c 1) (W : Waits sig Unit) :
    iprop(cellInv ER (xRd m) (K (c, kS 0)) (sendCell c 0) ∗ cellInv ER (xRd m) (K (pk c 1, kR 2)) (recvCell (pk c 1) 2)
        ∗ slotPts c 0 (qS 0) (f3 m c) ∗ slotPts (pk c 1) 3 fullShare fd
        ∗ owes (c : Thread nD τ) O₀ W
        ∗ dutyTok ER (sendCell c 0) 0 (0 : Fin 4) ∗ reached ER (sendCell c 0) 0
        ∗ dutyTok ER (recvCell (pk c 1) 2) 0 (0 : Fin 4) ∗ reached ER (recvCell (pk c 1) 2) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot 0) (.remote (Dev.tc n : Thread nD τ) (slot 3) (.dma (sendS 0)) hsc) (.dma (recvS 2)) hsrc hdst hsem) k) Q) := by
  subst hn
  simp only [slotPts]
  exact Rounds.wp_send_pointsTo 𝒱₀ ER (xRd m) (c : Thread nD τ) none (c' := (pk c 1 : Thread nD τ)) (src := slot 0) (dst := slot 3)
    (sS := .dma (sendS 0)) (sem := .dma (recvS 2)) (κ₁ := K (c, kS 0)) (κ₂ := K (pk c 1, kR 2))
    (r₁ := 0) (r₂ := 0) (d₁ := 0) (d₂ := 0) (fd := fd) (q := qS 0) (fs := f3 m c)
    (by rw [duties_send]; exact Finset.mem_singleton_self _) (by rw [duties_recv]; exact Finset.mem_singleton_self _)
    () () N rfl (amount_send m c 0 0) (amount_recv m (pk c 1) 2 0) O hO (W := W)
    (by rw [payload_send]; unfold sendPay; simp only [slotPts]; exact BI.Entails.refl _)
    (by rw [payload_recv]; unfold recvPay; simp only []; rw [landed_slot3, pk_back1])

set_option maxHeartbeats 800000 in
/-- The copy of the own row, read at the share lent on send semaphore 2, into slot 1 of the device 3 places on,
    landing on that device's receive semaphore 0: the addressed-transfer rule at these cells. -/
theorem wp_send_3 (K : Dev nD × Fin 7 → ℕ) (c n : Dev nD) (hn : n = pk c 3)
    {hsc : (slot 1 : Memref sig (Dev.tc n : Thread nD τ).2.kind .vmem S1x512 .f32).view.ref.isScScratch = false}
    {hsrc : (slot 0 : Memref sig .tc .vmem S1x512 .f32).view.WordExact} {hdst : (slot 1 : Memref sig .tc .vmem S1x512 .f32).view.WordExact}
    {hsem : DmaTarget.Typed .vmem (.dma (recvS 0)) (.remote (Dev.tc n : Thread nD τ) (slot 1 : Memref sig .tc .vmem S1x512 .f32) (.dma (sendS 2)) hsc)}
    {α : Type} {Q : α → sProp 𝕄} {k : PUnit → Prog (TpuEff nD τ sig (Elt F) Λ₀ .tc) α}
    (fd : CommBuf (F := F) (pk c 3)) (O₀ O : CellTallies nD τ sig Unit) (hO : O₀ = O + owedR c 3) (W : Waits sig Unit) :
    iprop(cellInv ER (xRd m) (K (c, kS 2)) (sendCell c 2) ∗ cellInv ER (xRd m) (K (pk c 3, kR 0)) (recvCell (pk c 3) 0)
        ∗ slotPts c 0 (qS 2) (f3 m c) ∗ slotPts (pk c 3) 1 fullShare fd
        ∗ owes (c : Thread nD τ) O₀ W
        ∗ dutyTok ER (sendCell c 2) 0 (0 : Fin 4) ∗ reached ER (sendCell c 2) 0
        ∗ dutyTok ER (recvCell (pk c 3) 0) 0 (0 : Fin 4) ∗ reached ER (recvCell (pk c 3) 0) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot 0) (.remote (Dev.tc n : Thread nD τ) (slot 1) (.dma (sendS 2)) hsc) (.dma (recvS 0)) hsrc hdst hsem) k) Q) := by
  subst hn
  simp only [slotPts]
  exact Rounds.wp_send_pointsTo 𝒱₀ ER (xRd m) (c : Thread nD τ) none (c' := (pk c 3 : Thread nD τ)) (src := slot 0) (dst := slot 1)
    (sS := .dma (sendS 2)) (sem := .dma (recvS 0)) (κ₁ := K (c, kS 2)) (κ₂ := K (pk c 3, kR 0))
    (r₁ := 0) (r₂ := 0) (d₁ := 0) (d₂ := 0) (fd := fd) (q := qS 2) (fs := f3 m c)
    (by rw [duties_send]; exact Finset.mem_singleton_self _) (by rw [duties_recv]; exact Finset.mem_singleton_self _)
    () () N rfl (amount_send m c 2 0) (amount_recv m (pk c 3) 0 0) O hO (W := W)
    (by rw [payload_send]; unfold sendPay; simp only [slotPts]; exact BI.Entails.refl _)
    (by rw [payload_recv]; unfold recvPay; simp only []; rw [landed_slot1, pk_back3])

/-- Statements 1–60 of the last region: the wait for the three peers' units on the own barrier cell, which brings the three
    slots the own row is to be written into; the own row cut into its four shares; the copy 2 places on. -/
theorem part2_spec (K : Dev nD × Fin 7 → ℕ) (c : Dev nD) (W : Waits sig Unit) (v2 : BitVec 32)
    (Q : (Σ' (v23 : BitVec 32) (v37 : BitVec 32) (v42 : BitVec 1), BitVec 32) → sProp 𝕄) :
    iprop(invs m K c ∗ reacheds c ∗ levAts L lv
        ∗ atPos ER (barCell c) 0 ∅ 0 ∗ cred (tallyAt (barCell c) () 3) ∗ owes (c : Thread nD τ) (O₃ c) W
        ∗ slotPts c 0 fullShare (f3 m c)
        ∗ dutyTok ER (sendCell c 1) 0 (0 : Fin 4) ∗ dutyTok ER (recvCell (pk c 2) (rj 2)) 0 (0 : Fin 4)
        ∗ (∀ r, (slotPts c 0 (qS 0) (f3 m c) ∗ slotPts c 0 (qS 2) (f3 m c) ∗ slotPts c 0 qK (f3 m c) ∗ barPay c 1 ∗ barPay c 3
              ∗ cred (tallyAt (sendCell c 1) () N) ∗ owes (c : Thread nD τ) (owedR c 3 + owedR c 1) (insert (SemLoc.reg barS, ()) W)) -∗ Q r))
      ⊢ wp frame (wpE (defs₀ (F := F)) 𝒱₀ c none) Set.univ
          (k0_part2 (grid0.coords t0_3) xM (Memref.isWhole_whole _) oM (Memref.isWhole_whole _) commM (Memref.isWhole_whole _) cc0_scratch1 cc0_scratch2 c v2 cond3_t3) Q := by
  simp only [k0_part2_eq_skeleton]; unfold k0_part2_skel
  simp only [semWaitWord, Prog.lift, Prog.bind_op, Prog.bind_ret, Prog.pure_eq_ret]
  unfold invs reacheds
  iintro ⟨⟨#HIbar, #HIs0, #HIs1, #HIs2, #HIr0, #HIr1, #HIr2, #HIb1, #HIb2, #HIb3, #HIp1, #HIp2, #HIp3⟩, ⟨#Hrb1, #Hrb2, #Hrb3, #Hrp1, #Hrp2, #Hrp3, #Hrs0, #Hrs1, #Hrs2⟩, #Hlev, HatB, HcB, HO, Hs0, HtS, HtR, Hk⟩
  -- the wait for 3 on the own barrier cell, owing the three rows' credits
  iapply (Rounds.wp_wait_rest_token 𝒱₀ ER (xRd m) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  icases Hp with ⟨Hb1, Hb2, Hb3⟩
  -- the own row, cut into the shares the three copies read and the one kept
  ihave Hs := (Entails.of_eq (slot_split4 c 0 (f3 m c))) $$ Hs0
  icases Hs with ⟨⟨Hq0, Hq1⟩, Hq2, HqK⟩
  -- the copy 2 places on
  unfold barPay
  icases Hb2 with ⟨%fd2, Hd2⟩
  rw [show (-2 : Fin 4) = 2 from by decide]
  unfold O₃
  iapply (wp_send_2 m K c _ (dev4_eq c _) fd2 _ (owedR c 3 + owedR c 1) rfl (insert (SemLoc.reg barS, ()) W)) $$ [Hq1 Hd2 HO HtS HtR]
  · isplitr; · iexact HIs1
    isplitr; · iexact HIp2
    isplitl [Hq1]; · iexact Hq1
    isplitl [Hd2]; · iexact Hd2
    isplitl [HO]; · iexact HO
    isplitl [HtS]; · iexact HtS
    isplitr; · iexact Hrs1
    isplitl [HtR]; · iexact HtR
    iexact Hrp2
  iintro ⟨HcS, HO⟩
  rw [wp_ret]; imodintro
  iapply Hk
  isplitl [Hq0]; · iexact Hq0
  isplitl [Hq2]; · iexact Hq2
  isplitl [HqK]; · iexact HqK
  isplitl [Hb1]; · iexact Hb1
  isplitl [Hb3]; · iexact Hb3
  isplitl [HcS]; · iexact HcS
  iexact HO

/-- Statements 61–120: the copy 1 place on. -/
theorem part3_spec (K : Dev nD × Fin 7 → ℕ) (c : Dev nD) (W : Waits sig Unit) (v2 v37 v43 : BitVec 32) (v42 : BitVec 1)
    (Q : (Σ' (v44 : BitVec 32), BitVec 32) → sProp 𝕄) :
    iprop(invs m K c ∗ reacheds c
        ∗ slotPts c 0 (qS 0) (f3 m c) ∗ barPay c 1 ∗ owes (c : Thread nD τ) (owedR c 3 + owedR c 1) W
        ∗ dutyTok ER (sendCell c 0) 0 (0 : Fin 4) ∗ dutyTok ER (recvCell (pk c 1) (rj 1)) 0 (0 : Fin 4)
        ∗ (∀ r, (cred (tallyAt (sendCell c 0) () N) ∗ owes (c : Thread nD τ) (owedR c 3) W) -∗ Q r))
      ⊢ wp frame (wpE (defs₀ (F := F)) 𝒱₀ c none) Set.univ
          (k0_part3 (grid0.coords t0_3) xM (Memref.isWhole_whole _) oM (Memref.isWhole_whole _) commM (Memref.isWhole_whole _) cc0_scratch1 cc0_scratch2 c v2 cond3_t3 v37 v42 v43) Q := by
  simp only [k0_part3_eq_skeleton]; unfold k0_part3_skel
  simp only [Prog.lift, Prog.bind_op, Prog.bind_ret, Prog.pure_eq_ret]
  unfold invs reacheds
  iintro ⟨⟨#HIbar, #HIs0, #HIs1, #HIs2, #HIr0, #HIr1, #HIr2, #HIb1, #HIb2, #HIb3, #HIp1, #HIp2, #HIp3⟩, ⟨#Hrb1, #Hrb2, #Hrb3, #Hrp1, #Hrp2, #Hrp3, #Hrs0, #Hrs1, #Hrs2⟩, Hq0, Hb1, HO, HtS, HtR, Hk⟩
  unfold barPay
  icases Hb1 with ⟨%fd1, Hd1⟩
  rw [show (-1 : Fin 4) = 3 from by decide]
  iapply (wp_send_1 m K c _ (dev5_eq c _) fd1 _ (owedR c 3) rfl W) $$ [Hq0 Hd1 HO HtS HtR]
  · isplitr; · iexact HIs0
    isplitr; · iexact HIp1
    isplitl [Hq0]; · iexact Hq0
    isplitl [Hd1]; · iexact Hd1
    isplitl [HO]; · iexact HO
    isplitl [HtS]; · iexact HtS
    isplitr; · iexact Hrs0
    isplitl [HtR]; · iexact HtR
    iexact Hrp1
  iintro ⟨HcS, HO⟩
  rw [wp_ret]; imodintro
  iapply Hk
  isplitl [HcS]; · iexact HcS
  iexact HO

/-- Statements 121–180: the copy 3 places on, and the three waits on the own receive cells, which bring slots 2, 3, 1
    with the rows of the devices 2, 3, 1 places on. -/
theorem part4_spec (K : Dev nD × Fin 7 → ℕ) (c : Dev nD) (W : Waits sig Unit) (v23 v44 v65 : BitVec 32)
    (Q : PUnit → sProp 𝕄) :
    iprop(invs m K c ∗ reacheds c
        ∗ slotPts c 0 (qS 2) (f3 m c) ∗ barPay c 3 ∗ owes (c : Thread nD τ) (owedR c 3) W
        ∗ dutyTok ER (sendCell c 2) 0 (0 : Fin 4) ∗ dutyTok ER (recvCell (pk c 3) (rj 3)) 0 (0 : Fin 4)
        ∗ (atPos ER (recvCell c 0) 0 ∅ 0 ∗ atPos ER (recvCell c 1) 0 ∅ 0 ∗ atPos ER (recvCell c 2) 0 ∅ 0)
        ∗ (cred (tallyAt (recvCell c 0) () N) ∗ cred (tallyAt (recvCell c 1) () N) ∗ cred (tallyAt (recvCell c 2) () N))
        ∗ (∀ W', (cred (tallyAt (sendCell c 2) () N) ∗ owes (c : Thread nD τ) 0 W'
              ∗ (atPos ER (recvCell c 0) 1 ∅ 0 ∗ atPos ER (recvCell c 1) 1 ∅ 0 ∗ atPos ER (recvCell c 2) 1 ∅ 0)
              ∗ recvPay m c 0 ∗ recvPay m c 1 ∗ recvPay m c 2) -∗ Q ⟨⟩))
      ⊢ wp frame (wpE (defs₀ (F := F)) 𝒱₀ c none) Set.univ
          (k0_part4 (grid0.coords t0_3) xM (Memref.isWhole_whole _) oM (Memref.isWhole_whole _) commM (Memref.isWhole_whole _) cc0_scratch1 cc0_scratch2 c cond3_t3 v23 v44 v65) Q := by
  simp only [k0_part4_eq_skeleton]; unfold k0_part4_skel
  simp only [Prog.lift, Prog.bind_op, Prog.bind_ret, Prog.pure_eq_ret]
  unfold invs reacheds
  iintro ⟨⟨#HIbar, #HIs0, #HIs1, #HIs2, #HIr0, #HIr1, #HIr2, #HIb1, #HIb2, #HIb3, #HIp1, #HIp2, #HIp3⟩, ⟨#Hrb1, #Hrb2, #Hrb3, #Hrp1, #Hrp2, #Hrp3, #Hrs0, #Hrs1, #Hrs2⟩, Hq2, Hb3, HO, HtS, HtR, ⟨HatR0, HatR1, HatR2⟩, ⟨HcR0, HcR1, HcR2⟩, Hk⟩
  unfold barPay
  icases Hb3 with ⟨%fd3, Hd3⟩
  rw [show (-3 : Fin 4) = 1 from by decide]
  iapply (wp_send_3 m K c _ (dev6_eq c _) fd3 _ 0 (zero_add _).symm W) $$ [Hq2 Hd3 HO HtS HtR]
  · isplitr; · iexact HIs2
    isplitr; · iexact HIp3
    isplitl [Hq2]; · iexact Hq2
    isplitl [Hd3]; · iexact Hd3
    isplitl [HO]; · iexact HO
    isplitl [HtS]; · iexact HtS
    isplitr; · iexact Hrs2
    isplitl [HtR]; · iexact HtR
    iexact Hrp3
  iintro ⟨HcS, HO⟩
  -- the wait on the own receive cell 1: slot 2 with the row of the device 2 places on
  iapply (Rounds.wp_wait_rest_token 𝒱₀ ER (xRd m) (c : Thread nD τ) none (κ := K (c, kR 1)) (sm := .dma (recvS 1))
      (wpE_waitDma2_eq 𝒱₀ (c : Thread nD τ) none Set.univ) (Set.mem_univ _) () (O := 0) (W := W) (R := 0) (m := 0) (T := ∅)
      (by rw [Nat.zero_add]; exact (show _ = N from rfl).trans (expect_recv m c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hr1 := (Entails.of_eq (rest_recv m c 1)) $$ Hpay
  -- the wait on the own receive cell 2: slot 3 with the row of the device 3 places on
  iapply (Rounds.wp_wait_rest_token 𝒱₀ ER (xRd m) (c : Thread nD τ) none (κ := K (c, kR 2)) (sm := .dma (recvS 2))
      (wpE_waitDma2_eq 𝒱₀ (c : Thread nD τ) none Set.univ) (Set.mem_univ _) () (O := 0) (W := insert (SemLoc.dma (recvS 1), ()) W) (R := 0) (m := 0) (T := ∅)
      (by rw [Nat.zero_add]; exact (show _ = N from rfl).trans (expect_recv m c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hr2 := (Entails.of_eq (rest_recv m c 2)) $$ Hpay
  -- the wait on the own receive cell 0: slot 1 with the row of the device 1 places on
  iapply (Rounds.wp_wait_rest_token 𝒱₀ ER (xRd m) (c : Thread nD τ) none (κ := K (c, kR 0)) (sm := .dma (recvS 0))
      (wpE_waitDma2_eq 𝒱₀ (c : Thread nD τ) none Set.univ) (Set.mem_univ _) () (O := 0) (W := insert (SemLoc.dma (recvS 2), ()) (insert (SemLoc.dma (recvS 1), ()) W)) (R := 0) (m := 0) (T := ∅)
      (by rw [Nat.zero_add]; exact (show _ = N from rfl).trans (expect_recv m c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hr0 := (Entails.of_eq (rest_recv m c 0)) $$ Hpay
  rw [wp_ret]; imodintro
  iapply Hk $$ %_
  isplitl [HcS]; · iexact HcS
  isplitl [HO]; · iexact HO
  isplitl [HatR0 HatR1 HatR2]
  · isplitl [HatR0]; · iexact HatR0
    isplitl [HatR1]; · iexact HatR1
    iexact HatR2
  isplitl [Hr0]; · iexact Hr0
  isplitl [Hr1]; · iexact Hr1
  iexact Hr2

theorem part2_bind (K : Dev nD × Fin 7 → ℕ) (c : Dev nD) (W : Waits sig Unit) (v2 : BitVec 32) {β : Type}
    (k : (Σ' (v23 : BitVec 32) (v37 : BitVec 32) (v42 : BitVec 1), BitVec 32) → Prog (TpuEff nD τ sig (Elt F) Λ₀ .tc) β) (Q : β → sProp 𝕄) :
    iprop(invs m K c ∗ reacheds c ∗ levAts L lv
        ∗ atPos ER (barCell c) 0 ∅ 0 ∗ cred (tallyAt (barCell c) () 3) ∗ owes (c : Thread nD τ) (O₃ c) W
        ∗ slotPts c 0 fullShare (f3 m c)
        ∗ dutyTok ER (sendCell c 1) 0 (0 : Fin 4) ∗ dutyTok ER (recvCell (pk c 2) (rj 2)) 0 (0 : Fin 4)
        ∗ (∀ r, (slotPts c 0 (qS 0) (f3 m c) ∗ slotPts c 0 (qS 2) (f3 m c) ∗ slotPts c 0 qK (f3 m c) ∗ barPay c 1 ∗ barPay c 3
              ∗ cred (tallyAt (sendCell c 1) () N) ∗ owes (c : Thread nD τ) (owedR c 3 + owedR c 1) (insert (SemLoc.reg barS, ()) W))
            -∗ wp frame (wpE (defs₀ (F := F)) 𝒱₀ c none) Set.univ (k r) Q))
      ⊢ wp frame (wpE (defs₀ (F := F)) 𝒱₀ c none) Set.univ
          (k0_part2 (grid0.coords t0_3) xM (Memref.isWhole_whole _) oM (Memref.isWhole_whole _) commM (Memref.isWhole_whole _) cc0_scratch1 cc0_scratch2 c v2 cond3_t3 >>= k) Q := by
  rw [wp_bind]; exact part2_spec m K c W v2 (fun a => wp frame (wpE (defs₀ (F := F)) 𝒱₀ c none) Set.univ (k a) Q)

theorem part3_bind (K : Dev nD × Fin 7 → ℕ) (c : Dev nD) (W : Waits sig Unit) (v2 v37 v43 : BitVec 32) (v42 : BitVec 1) {β : Type}
    (k : (Σ' (v44 : BitVec 32), BitVec 32) → Prog (TpuEff nD τ sig (Elt F) Λ₀ .tc) β) (Q : β → sProp 𝕄) :
    iprop(invs m K c ∗ reacheds c
        ∗ slotPts c 0 (qS 0) (f3 m c) ∗ barPay c 1 ∗ owes (c : Thread nD τ) (owedR c 3 + owedR c 1) W
        ∗ dutyTok ER (sendCell c 0) 0 (0 : Fin 4) ∗ dutyTok ER (recvCell (pk c 1) (rj 1)) 0 (0 : Fin 4)
        ∗ (∀ r, (cred (tallyAt (sendCell c 0) () N) ∗ owes (c : Thread nD τ) (owedR c 3) W)
            -∗ wp frame (wpE (defs₀ (F := F)) 𝒱₀ c none) Set.univ (k r) Q))
      ⊢ wp frame (wpE (defs₀ (F := F)) 𝒱₀ c none) Set.univ
          (k0_part3 (grid0.coords t0_3) xM (Memref.isWhole_whole _) oM (Memref.isWhole_whole _) commM (Memref.isWhole_whole _) cc0_scratch1 cc0_scratch2 c v2 cond3_t3 v37 v42 v43 >>= k) Q := by
  rw [wp_bind]; exact part3_spec m K c W v2 v37 v43 v42 (fun a => wp frame (wpE (defs₀ (F := F)) 𝒱₀ c none) Set.univ (k a) Q)

theorem part4_bind (K : Dev nD × Fin 7 → ℕ) (c : Dev nD) (W : Waits sig Unit) (v23 v44 v65 : BitVec 32) {β : Type}
    (k : PUnit → Prog (TpuEff nD τ sig (Elt F) Λ₀ .tc) β) (Q : β → sProp 𝕄) :
    iprop(invs m K c ∗ reacheds c
        ∗ slotPts c 0 (qS 2) (f3 m c) ∗ barPay c 3 ∗ owes (c : Thread nD τ) (owedR c 3) W
        ∗ dutyTok ER (sendCell c 2) 0 (0 : Fin 4) ∗ dutyTok ER (recvCell (pk c 3) (rj 3)) 0 (0 : Fin 4)
        ∗ (atPos ER (recvCell c 0) 0 ∅ 0 ∗ atPos ER (recvCell c 1) 0 ∅ 0 ∗ atPos ER (recvCell c 2) 0 ∅ 0)
        ∗ (cred (tallyAt (recvCell c 0) () N) ∗ cred (tallyAt (recvCell c 1) () N) ∗ cred (tallyAt (recvCell c 2) () N))
        ∗ (∀ W', (cred (tallyAt (sendCell c 2) () N) ∗ owes (c : Thread nD τ) 0 W'
              ∗ (atPos ER (recvCell c 0) 1 ∅ 0 ∗ atPos ER (recvCell c 1) 1 ∅ 0 ∗ atPos ER (recvCell c 2) 1 ∅ 0)
              ∗ recvPay m c 0 ∗ recvPay m c 1 ∗ recvPay m c 2)
            -∗ wp frame (wpE (defs₀ (F := F)) 𝒱₀ c none) Set.univ (k ⟨⟩) Q))
      ⊢ wp frame (wpE (defs₀ (F := F)) 𝒱₀ c none) Set.univ
          (k0_part4 (grid0.coords t0_3) xM (Memref.isWhole_whole _) oM (Memref.isWhole_whole _) commM (Memref.isWhole_whole _) cc0_scratch1 cc0_scratch2 c cond3_t3 v23 v44 v65 >>= k) Q := by
  rw [wp_bind]; exact part4_spec m K c W v23 v44 v65 (fun a => wp frame (wpE (defs₀ (F := F)) 𝒱₀ c none) Set.univ (k a) Q)

omit [FloatOps F] in
theorem hz2 : (![0, 0] : Fin 2 → Nat) = fun _ => 0 := funext fun a => by fin_cases a <;> rfl

omit [FloatOps F] in
theorem read_x3 (f : (cc0_stg0_1 : Ref sig .tc).ty.Contents (Elt F)) :
    (xM : Memref sig .tc .vmem S256x512 .f32).view.readAt (Elt F) (Rect.unit (s := S256x512) ![0, 0] S256x512.size Facts₀.inb_S256x512_S256x512_0_0).toLoadRect f = f :=
  Memref.readAt_unit_zero (Elt F) cc0_stg0_1 hz2 _ f

set_option maxHeartbeats 1600000 in
/-- The body at the last step, from what the device holds between steps to what it holds at the end: the running
    maxima take in the last 256 rows; then the exchange. -/
theorem sound3 (K : Dev nD × Fin 7 → ℕ) (c : Dev nD) (W : Waits sig Unit) (g1 : Buf (Elt F) ((c : Thread nD τ).loc cc0_stg1_0)) (Kt : PUnit → sProp 𝕄) :
    iprop(invs m K c ∗ poss c ∗ reacheds c ∗ xferToks c ∗ creds c ∗ levAts L lv
        ∗ slotPts c 0 fullShare (spread c (acc2 m c))
        ∗ owes (c : Thread nD τ) (O₃ c) W
        ∗ (((c : Thread nD τ).loc cc0_stg0_1) ↦{fullShare} xblk m c t0_3)
        ∗ (((c : Thread nD τ).loc cc0_stg1_0) ↦{fullShare} g1)
        ∗ (∀ W', (Φe m c ∗ owes (c : Thread nD τ) 0 W' ∗ (((c : Thread nD τ).loc cc0_stg0_1) ↦{fullShare} xblk m c t0_3)
              ∗ (((c : Thread nD τ).loc cc0_stg1_0) ↦{fullShare} outAt m c)) -∗ Kt ⟨⟩))
      ⊢ wp frame (wpE (defs₀ (F := F)) 𝒱₀ c none) Set.univ
          (cc0_body (grid0.coords t0_3) xM (Memref.isWhole_whole _) oM (Memref.isWhole_whole _) commM (Memref.isWhole_whole _) cc0_scratch1 cc0_scratch2) Kt := by
  simp only [cc0_body_eq_skeleton]; unfold cc0_body_skel
  simp only [cond1_t3, cond2_t3, cond3_t3, ↓reduceDIte]
  simp only [Prog.lift, Prog.bind_op, Prog.bind_ret, Prog.pure_eq_ret, wp_deviceId]
  unfold poss xferToks creds
  iintro ⟨#HI, ⟨HatB, HatS0, HatS1, HatS2, HatR0, HatR1, HatR2⟩, #Hr, ⟨HtR1, HtR2, HtR3, HtS0, HtS1, HtS2⟩, ⟨HcB, HcR0, HcR1, HcR2⟩, #Hlev, Hs0, HO, Hx, Hout, Hk⟩
  -- the running maxima take in the last block
  simp only [slotPts]
  iapply (wp_load 𝒱₀ (c : Thread nD τ) none Set.univ (m := commM) setOn_load0) $$ Hs0; iintro Hs0
  rw [read_slot0_spread]
  iapply (wp_load 𝒱₀ (c : Thread nD τ) none Set.univ (m := xM) (Finset.subset_univ _)) $$ Hx; iintro Hx
  rw [read_x3]
  iapply (wp_load 𝒱₀ (c : Thread nD τ) none Set.univ (m := commM) setOn_load0) $$ Hs0; iintro Hs0
  iapply (wp_store 𝒱₀ (c : Thread nD τ) none Set.univ (m := commM) (r := rect0) (Mk := Finset.univ) setOn_store0) $$ Hs0; iintro Hs0
  ihave Hs0 := (Entails.of_eq (store_slot0 c fullShare _ _)) $$ Hs0
  -- the wait on the barrier cell and the copy 2 places on
  iapply (part2_bind m K c W _ _ _)
  isplitr; · iexact HI
  isplitr; · iexact Hr
  isplitr; · iexact Hlev
  isplitl [HatB]; · iexact HatB
  isplitl [HcB]; · iexact HcB
  isplitl [HO]; · iexact HO
  isplitl [Hs0]; · iexact Hs0
  isplitl [HtS1]; · iexact HtS1
  isplitl [HtR2]; · iexact HtR2
  iintro %r2 ⟨Hq0, Hq2, HqK, Hb1, Hb3, HcS1, HO⟩
  -- the copy 1 place on
  iapply (part3_bind m K c _ _ _ _ _ _ _)
  isplitr; · iexact HI
  isplitr; · iexact Hr
  isplitl [Hq0]; · iexact Hq0
  isplitl [Hb1]; · iexact Hb1
  isplitl [HO]; · iexact HO
  isplitl [HtS0]; · iexact HtS0
  isplitl [HtR1]; · iexact HtR1
  iintro %r3 ⟨HcS0, HO⟩
  -- the copy 3 places on and the three rows landing
  iapply (part4_bind m K c _ _ _ _ _ _)
  isplitr; · iexact HI
  isplitr; · iexact Hr
  isplitl [Hq2]; · iexact Hq2
  isplitl [Hb3]; · iexact Hb3
  isplitl [HO]; · iexact HO
  isplitl [HtS2]; · iexact HtS2
  isplitl [HtR3]; · iexact HtR3
  isplitl [HatR0 HatR1 HatR2]
  · isplitl [HatR0]; · iexact HatR0
    isplitl [HatR1]; · iexact HatR1
    iexact HatR2
  isplitl [HcR0 HcR1 HcR2]
  · isplitl [HcR0]; · iexact HcR0
    isplitl [HcR1]; · iexact HcR1
    iexact HcR2
  iintro %W' ⟨HcS2, HO, HatR, Hr0, Hr1, Hr2⟩
  -- the maximum over the four rows, and the own cells closed
  iapply (tail3 m K c W' g1 Kt)
  isplitr; · iexact HI
  isplitl [HatS0 HatS1 HatS2]
  · isplitl [HatS0]; · iexact HatS0
    isplitl [HatS1]; · iexact HatS1
    iexact HatS2
  isplitl [HatR]; · iexact HatR
  isplitl [HcS0 HcS1 HcS2]
  · isplitl [HcS0]; · iexact HcS0
    isplitl [HcS1]; · iexact HcS1
    iexact HcS2
  isplitl [HqK]; · iexact HqK
  isplitl [Hr0]; · iexact Hr0
  isplitl [Hr1]; · iexact Hr1
  isplitl [Hr2]; · iexact Hr2
  isplitl [HO]; · iexact HO
  isplitl [Hout]; · iexact Hout
  iintro %W'' ⟨He, HO, Hout⟩
  iapply Hk $$ %W''
  isplitl [He]; · iexact He
  isplitl [HO]; · iexact HO
  isplitl [Hx]; · iexact Hx
  iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Body3

open Body3 in
set_option maxRecDepth 4000 in
set_option maxHeartbeats 1600000 in
/-- The body obligation at the last step. -/
theorem body3 (c : Dev nD) : BodyAt m ρ c t0_3 := by
  unfold BodyAt
  rw [bigSep_W0, bigSep_W0]
  show iprop((dats m ρ 0 c).Φ t0_3.castSucc ∗ (dats m ρ 0 c).owesAt () t0_3.castSucc
      ∗ (∃ d, owns (c : Thread nD τ) (Memref.whole cc0_stg0_1) fullShare ((dats m ρ 0 c).before (0 : Fin 2) t0_3 d))
      ∗ (∃ d, owns (c : Thread nD τ) (Memref.whole cc0_stg1_0) fullShare ((dats m ρ 0 c).before (1 : Fin 2) t0_3 d)))
    ⊢ wp frame (wpE (defs₀ (F := F)) 𝒱₀ c none) Set.univ
        (cc0_body (grid0.coords t0_3) xM (Memref.isWhole_whole _) oM (Memref.isWhole_whole _) commM (Memref.isWhole_whole _) cc0_scratch1 cc0_scratch2)
        fun _ => iprop((dats m ρ 0 c).Φ t0_3.succ ∗ (dats m ρ 0 c).owesAt () t0_3.succ
          ∗ owns (c : Thread nD τ) (Memref.whole cc0_stg0_1) fullShare ((dats m ρ 0 c).after (0 : Fin 2) t0_3)
          ∗ owns (c : Thread nD τ) (Memref.whole cc0_stg1_0) fullShare ((dats m ρ 0 c).after (1 : Fin 2) t0_3))
  simp only [owns_whole_eq]
  show iprop((dats m ρ 0 c).Φ t0_3.castSucc ∗ (dats m ρ 0 c).owesAt () t0_3.castSucc
      ∗ (∃ d, stg c cc0_stg0_1 ((dats m ρ 0 c).before (0 : Fin 2) t0_3 d))
      ∗ (∃ d, stg c cc0_stg1_0 ((dats m ρ 0 c).before (1 : Fin 2) t0_3 d)))
    ⊢ wp frame (wpE (defs₀ (F := F)) 𝒱₀ c none) Set.univ
        (cc0_body (grid0.coords t0_3) xM (Memref.isWhole_whole _) oM (Memref.isWhole_whole _) commM (Memref.isWhole_whole _) cc0_scratch1 cc0_scratch2)
        fun _ => iprop((dats m ρ 0 c).Φ t0_3.succ ∗ (dats m ρ 0 c).owesAt () t0_3.succ
          ∗ stg c cc0_stg0_1 ((dats m ρ 0 c).after (0 : Fin 2) t0_3) ∗ stg c cc0_stg1_0 ((dats m ρ 0 c).after (1 : Fin 2) t0_3))
  rw [show (dats m ρ 0 c).Φ t0_3.castSucc = Φm m c (acc2 m c) from rfl, show (dats m ρ 0 c).Φ t0_3.succ = Φe m c from rfl]
  unfold Φm mid Dat.owesAt Pipeline.owesWithin
  rw [show (dats m ρ 0 c).owed t0_3.castSucc = O₃ c from rfl, show (dats m ρ 0 c).owed t0_3.succ = 0 from rfl]
  iintro ⟨⟨⟨⟨%K, HI, Hpos, Hrch, Htok⟩, Hcr, Hlev⟩, Hs0⟩, ⟨%W, %hW, HO⟩, ⟨%d0, %g0, %hg0, Hx⟩, ⟨%d1, %g1, %hg1, Hout⟩⟩
  have hx : g0 = xblk m c t0_3 := by rw [hg0]; unfold Dat.before; rw [if_pos (fetch0_0 t0_3)]; rfl
  subst hx
  iapply (sound3 m K c W g1 _)
  isplitl [HI]; · iexact HI
  isplitl [Hpos]; · iexact Hpos
  isplitl [Hrch]; · iexact Hrch
  isplitl [Htok]; · iexact Htok
  isplitl [Hcr]; · iexact Hcr
  isplitl [Hlev]; · iexact Hlev
  isplitl [Hs0]; · iexact Hs0
  isplitl [HO]; · iexact HO
  isplitl [Hx]; · iexact Hx
  isplitl [Hout]; · iexact Hout
  iintro %W' ⟨He, HO, Hx, Hout⟩
  isplitl [He]; · iexact He
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KI.body3' depends on axioms: [propext, Classical.choice, Quot.sound] -/
#guard_msgs in #print axioms body3

end Cert.KI

end
-- ==== Proof.KIBody.lean ====
/- The body obligation of a device: its four steps, one after the other. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIBody0
import proofs.«900906_g7700000000000907_dist_max_ax0_shard0_i_m1024_n512_v7x_i4_f32_1_alg».proof.Proof.KIBodyMid
import proofs.«900906_g7700000000000907_dist_max_ax0_shard0_i_m1024_n512_v7x_i4_f32_1_alg».proof.Proof.KIBody3
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem body_obligation (c : Dev nD) : BodyObligation (dats (F := F) m ρ 0 c) (defs₀ (F := F)) 𝒱₀ () Set.univ :=
  body_of_steps m ρ c (body0 m ρ c) (body1 m ρ c) (body2 m ρ c) (body3 m ρ c)

end Cert.KI

end
-- ==== Proof.KIRun.lean ====
/- The arrays after the run, as the pipeline's proof data computes them, and the run's post: every device's two windowed
   arrays (its rows, its result row) end at those contents. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIData
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

end Cert.KI

end
-- ==== Proof.KICredit.lean ====
/- The credit dealt at launch, and that the pipeline's own waits are allowed at every step. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIData
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

omit [FloatOps F] in
/-- Every device owes one unit to the barrier cell of the device k places on; going k places on is a permutation of the
    devices, so device c's own barrier cell is owed exactly one such unit. -/
private theorem launch_bar (k : Fin 4) (c : Dev nD) :
    (Pipeline.launchCred (fun d => owedB d k) c : sProp 𝕄) ⊢ cred (tallyAt (barCell c) () 1) :=
  Pipeline.launchCred_tallyAt (.reg barS) (fun d => pk d k) (fun d => pk d (-k)) (fun c => pk_neg_pk c k) (fun d => pk_pk_neg d k) () 1 c

omit [FloatOps F] in
/-- Every device owes one row's credit to receive cell rj k of the device k places on: device c's own receive cell
    rj k is owed exactly one row's credit. -/
private theorem launch_recv (k : Fin 4) (j : Fin 3) (hj : rj k = j) (c : Dev nD) :
    (Pipeline.launchCred (fun d => owedR d k) c : sProp 𝕄) ⊢ cred (tallyAt (recvCell c j) () N) := by
  subst hj
  exact Pipeline.launchCred_tallyAt (.dma (recvS (rj k))) (fun d => pk d k) (fun d => pk d (-k)) (fun c => pk_neg_pk c k) (fun d => pk_pk_neg d k) () N c

omit [FloatOps F] in
/-- Three units on one cell are one token of three. -/
private theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- The credit dealt to device c at launch: what the four devices owe, summed cell by cell, is three units on c's barrier
    cell (one from each of the three other devices) and a row's credit on each of its three receive cells. -/
theorem creds_of_launch (c : Dev nD) : (Pipeline.launchCred O₀ c : sProp 𝕄) ⊢ creds c := by
  have h : (O₀ : Dev nD → CellTallies nD τ sig Unit)
      = fun d => owedR d 3 + owedR d 1 + owedR d 2 + owedB d 3 + owedB d 2 + owedB d 1 := rfl
  rw [h, Pipeline.launchCred_add, Pipeline.launchCred_add, Pipeline.launchCred_add, Pipeline.launchCred_add, Pipeline.launchCred_add]
  refine (BIClass.sep_mono (BIClass.sep_mono (BIClass.sep_mono (BIClass.sep_mono (BIClass.sep_mono (launch_recv 3 0 rfl c) (launch_recv 1 2 rfl c)) (launch_recv 2 1 rfl c))
    (launch_bar 3 c)) (launch_bar 2 c)) (launch_bar 1 c)).trans ?_
  unfold creds
  iintro ⟨⟨⟨⟨⟨R0, R2⟩, R1⟩, B3⟩, B2⟩, B1⟩
  isplitl [B3 B2 B1]
  · iapply (cred_three (F := F) (barCell c))
    isplitl [B3]; · iexact B3
    isplitl [B2]; · iexact B2
    iexact B1
  isplitl [R0]; · iexact R0
  isplitl [R1]; · iexact R1
  iexact R2

/-! ## The pipeline's own waits -/

/-- The pipeline waits only on its staging semaphores, none of which is a receive semaphore; what the device owes before a
    step is what it owes at launch, the three rows' credits, or nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _ | _ | _ | t, ht⟩
      · exact Or.inl rfl
      · exact Or.inr (Or.inl rfl)
      · exact Or.inr (Or.inl rfl)
      · exact Or.inr (Or.inl rfl)
      · exact Or.inr (Or.inr rfl))

end Cert.KI

end
-- ==== Proof.KILaunch.lean ====
/- The launch: from every device's body obligation to the run of the whole program on the four devices. The exchange's
   ghost state is made once for all devices (a barrier cell's invariant is shared by the four devices that touch it),
   the barrier semaphore being the runtime's and not the kernel's own. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIRun
import proofs.«900906_g7700000000000907_dist_max_ax0_shard0_i_m1024_n512_v7x_i4_f32_1_alg».proof.Proof.KICredit
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells, the minted tokens -/

/-- The kernel's own scoped semaphores: the three send and the three receive semaphores. -/
abbrev osem : Fin 6 → SemLoc sig := fun
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- The 28 cells of the exchange: seven a device. -/
def xCells : Finset (GSem nD τ sig) := Finset.univ.map ⟨kcell, kcell_injective⟩

/-- The nine duties of a device's own cells, as (semaphore, duty): its barrier cell's 1, 2, 3; duty 0 of its three send
    cells and of its three receive cells. -/
abbrev tokSem : Fin 9 → SemLoc sig × Fin 4 := fun
  | 0 => (.reg barS, 1) | 1 => (.reg barS, 2) | 2 => (.reg barS, 3)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokSem_injective : Function.Injective (tokSem : Fin 9 → SemLoc sig × Fin 4) := by decide

/-- A device's own cells' duty tokens as minted: (device, which of the nine). -/
abbrev tokOf (cj : Dev nD × Fin 9) : GSem nD τ sig × ℕ × Fin 4 := (((cj.1 : Thread nD τ), (tokSem cj.2).1), 0, (tokSem cj.2).2)
theorem tokOf_injective : Function.Injective (tokOf : Dev nD × Fin 9 → GSem nD τ sig × ℕ × Fin 4) := by
  rintro ⟨c, j⟩ ⟨c', j'⟩ h
  have h1 : c = c' := by have := congrArg (fun x : GSem nD τ sig × ℕ × Fin 4 => x.1.1.1) h; exact this
  subst h1
  have h2 : (tokSem j).1 = (tokSem j').1 := congrArg (fun x : GSem nD τ sig × ℕ × Fin 4 => x.1.2) h
  have h3 : (tokSem j).2 = (tokSem j').2 := congrArg (fun x : GSem nD τ sig × ℕ × Fin 4 => x.2.2) h
  rw [tokSem_injective (Prod.ext h2 h3)]
def xToks : Finset (GSem nD τ sig × ℕ × Fin 4) := Finset.univ.map ⟨tokOf, tokOf_injective⟩

/-- The launch element: the pipeline's own beside the exchange's. -/
def u₀ : UU :=
  (initOf (Pipeline.cells cfgs cellOf_inj) (Pipeline.launchToks cfgs cellOf_inj), initOf xCells xToks)

/-- The duty tokens of device c's own cells. -/
def toks (c : Dev nD) : sProp 𝕄 :=
  iprop(dutyTok ER (barCell c) 0 (1 : Fin 4) ∗ dutyTok ER (barCell c) 0 (2 : Fin 4) ∗ dutyTok ER (barCell c) 0 (3 : Fin 4)
    ∗ dutyTok ER (sendCell c 0) 0 (0 : Fin 4) ∗ dutyTok ER (sendCell c 1) 0 (0 : Fin 4) ∗ dutyTok ER (sendCell c 2) 0 (0 : Fin 4)
    ∗ dutyTok ER (recvCell c 0) 0 (0 : Fin 4) ∗ dutyTok ER (recvCell c 1) 0 (0 : Fin 4) ∗ dutyTok ER (recvCell c 2) 0 (0 : Fin 4))

/-- What the launch element deals device c: the round states of its seven cells, its positions and reached-marks,
    the tokens its own cells mint. -/
def G (c : Dev nD) : sProp 𝕄 :=
  iprop((bigSep Finset.univ fun k : Fin 7 => roundState ER (xRd m) (kcell (c, k)) 0)
    ∗ (bigSep Finset.univ fun k : Fin 7 => iprop(atPos ER (kcell (c, k)) 0 ∅ 0 ∗ reached ER (kcell (c, k)) 0)) ∗ toks c)

/-- What the global step makes of it: what the body starts from, the credit and the levels apart. -/
def G' (c : Dev nD) : sProp 𝕄 := iprop(∃ K, invs m K c ∗ poss c ∗ reacheds c ∗ barToks c ∗ xferToks c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero become the cells' invariants -/

omit [FloatOps F] in
/-- The six send and receive semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HR0, HR1, HR2⟩, HB⟩
  isplitl [HB]; · iexact HB
  isplitl [HS0]; · iexact HS0
  isplitl [HS1]; · iexact HS1
  isplitl [HS2]; · iexact HS2
  isplitl [HR0]; · iexact HR0
  isplitl [HR1]; · iexact HR1
  iexact HR2

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Every device's share of the whole -/

/-- What every device may read of the whole: all 28 invariants at their names, all reached-marks. -/
def records (K : Dev nD × Fin 7 → ℕ) : sProp 𝕄 :=
  iprop((bigSep Finset.univ fun ck : Dev nD × Fin 7 => cellInv ER (xRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (xRd m) (K ck) (kcell ck) : sProp 𝕄)) ⊢ cellInv ER (xRd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c alone: its seven positions and the tokens of the nine duties it pays. -/
def linear (c : Dev nD) : sProp 𝕄 := iprop(poss c ∗ barToks c ∗ xferToks c)

theorem ghost_intro (K : Dev nD × Fin 7 → ℕ) (c : Dev nD) : iprop(records m K ∗ linear c) ⊢ G' m c := by
  unfold records linear G' invs reacheds
  iintro ⟨⟨#HI, #HR⟩, Hpos, Hbt, Hxt⟩
  iexists K
  isplitr
  · isplitr; · iapply (inv_at m K (c, 0)); iexact HI
    isplitr; · iapply (inv_at m K (c, kS 0)); iexact HI
    isplitr; · iapply (inv_at m K (c, kS 1)); iexact HI
    isplitr; · iapply (inv_at m K (c, kS 2)); iexact HI
    isplitr; · iapply (inv_at m K (c, kR 0)); iexact HI
    isplitr; · iapply (inv_at m K (c, kR 1)); iexact HI
    isplitr; · iapply (inv_at m K (c, kR 2)); iexact HI
    isplitr; · iapply (inv_at m K (pk c 1, 0)); iexact HI
    isplitr; · iapply (inv_at m K (pk c 2, 0)); iexact HI
    isplitr; · iapply (inv_at m K (pk c 3, 0)); iexact HI
    isplitr; · iapply (inv_at m K (pk c 1, kR (rj 1))); iexact HI
    isplitr; · iapply (inv_at m K (pk c 2, kR (rj 2))); iexact HI
    iapply (inv_at m K (pk c 3, kR (rj 3))); iexact HI
  isplitl [Hpos]; · iexact Hpos
  isplitr
  · isplitr; · iapply (reached_at (F := F) (pk c 1, 0)); iexact HR
    isplitr; · iapply (reached_at (F := F) (pk c 2, 0)); iexact HR
    isplitr; · iapply (reached_at (F := F) (pk c 3, 0)); iexact HR
    isplitr; · iapply (reached_at (F := F) (pk c 1, kR (rj 1))); iexact HR
    isplitr; · iapply (reached_at (F := F) (pk c 2, kR (rj 2))); iexact HR
    isplitr; · iapply (reached_at (F := F) (pk c 3, kR (rj 3))); iexact HR
    isplitr; · iapply (reached_at (F := F) (c, kS 0)); iexact HR
    isplitr; · iapply (reached_at (F := F) (c, kS 1)); iexact HR
    iapply (reached_at (F := F) (c, kS 2)); iexact HR
  isplitl [Hbt]; · iexact Hbt
  iexact Hxt

omit [FloatOps F] in
/-- The minted tokens dealt round the mesh: duty s of a barrier cell goes s places on, to the device that pays it; duty 0
    of a receive cell goes to the device whose row lands there; a send cell's stays. -/
theorem toks_around : (bigSep Finset.univ fun c : Dev nD => (toks c : sProp 𝕄)) ⊢ bigSep Finset.univ fun c : Dev nD => iprop(barToks c ∗ xferToks c) := by
  unfold toks barToks xferToks
  simp only [bigSep_sep']
  rw [bigSep_univ_equiv (turn 3) (fun c : Dev nD => (dutyTok ER (barCell c) 0 (1 : Fin 4) : sProp 𝕄)),
    bigSep_univ_equiv (turn 2) (fun c : Dev nD => (dutyTok ER (barCell c) 0 (2 : Fin 4) : sProp 𝕄)),
    bigSep_univ_equiv (turn 1) (fun c : Dev nD => (dutyTok ER (barCell c) 0 (3 : Fin 4) : sProp 𝕄)),
    bigSep_univ_equiv (turn 3) (fun c : Dev nD => (dutyTok ER (recvCell c 0) 0 (0 : Fin 4) : sProp 𝕄)),
    bigSep_univ_equiv (turn 2) (fun c : Dev nD => (dutyTok ER (recvCell c 1) 0 (0 : Fin 4) : sProp 𝕄)),
    bigSep_univ_equiv (turn 1) (fun c : Dev nD => (dutyTok ER (recvCell c 2) 0 (0 : Fin 4) : sProp 𝕄))]
  iintro ⟨B1, B2, B3, S0, S1, S2, R0, R1, R2⟩
  isplitl [B1 B2 B3]
  · isplitl [B3]; · iexact B3
    isplitl [B2]; · iexact B2
    iexact B1
  isplitl [R2]; · iexact R2
  isplitl [R1]; · iexact R1
  isplitl [R0]; · iexact R0
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (xRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) (fun c => iprop(barToks c ∗ xferToks c))).symm).trans
      (bigSep_mono fun c _ => show _ ⊢ linear c from Entails.of_eq (by unfold linear poss; rw [bigSep_fin7])))
    isplitl [Hat]; · iexact Hat
    iexact Htk

/-- The global step: every device's own semaphores and its barrier semaphore at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ commPts
  iintro ⟨Hs, -, ⟨%f, Hr⟩⟩
  isplitl [Hs]; · iexact Hs
  iexists f; iexact Hr

theorem phie_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φe m c from rfl, scopedRest0_eq, ownSems0_eq]
  unfold Φe commPts
  iintro ⟨Hr, HS0, HS1, HS2, HR0, HR1, HR2⟩
  isplitr; · iempintro
  isplitl [HS0 HS1 HS2 HR0 HR1 HR2]
  · isplitl [HS0]; · iexact HS0
    isplitl [HS1]; · iexact HS1
    isplitl [HS2]; · iexact HS2
    isplitl [HR0]; · iexact HR0
    isplitl [HR1]; · iexact HR1
    iexact HR2
  iexists (gathered m c); iexact Hr

/-! ## The run -/

set_option maxRecDepth 8000 in
/-- At the compiled mesh of four devices, from any memory with zero counters: if every device's body meets its
    obligation, every weakly fair execution of the program terminates without a fault, each device's windowed arrays
    ending at the contents the proof data computes. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phie_exit m ρ)
    (QY := fun _ _ => True)
    (hY := fun c s' => by
      iintro ⟨-, -, HSI⟩
      imodintro
      isplitr; · ipureintro; trivial
      iexact HSI)
    (hQ := fun _ h c w => (h c).1 w)

end Cert.KI

end
-- ==== Proof.KIFinal.lean ====
/- Reading the arrays after the run: a device's rows are never written, and its result row is what the last step stored
   into the result's staging buffer, written back whole. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.KernelIdeal.Skeleton
import proofs.«900906_g7700000000000907_dist_max_ax0_shard0_i_m1024_n512_v7x_i4_f32_1_alg».proof.Proof.Gen.KernelIdeal.Launch
import proofs.«900906_g7700000000000907_dist_max_ax0_shard0_i_m1024_n512_v7x_i4_f32_1_alg».proof.Proof.Gen.KernelIdeal.Points
import proofs.«900906_g7700000000000907_dist_max_ax0_shard0_i_m1024_n512_v7x_i4_f32_1_alg».proof.Proof.Gen.KernelIdeal.Frame
import proofs.«900906_g7700000000000907_dist_max_ax0_shard0_i_m1024_n512_v7x_i4_f32_1_alg».proof.Proof.KIRun
import Idealize.ShloMosaic.Lib.Pipeline.Value
import Idealize.ShloMosaic.Lib.Pipeline.Launch
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Window 0 is an input: no step writes it back, so it ends as it started. -/
theorem finalA_x (c : Dev nD) : finalA m ρ c (0 : Fin 2) = m ((c : Thread nD τ).loc main_arg0) :=
  ((dats (F := F) m ρ 0 c).arrAt_in (0 : Fin 2) rfl _).trans rfl

/-- Window 1 is the result row. Its block is the whole 1 x 512 array at every step, at offsets (0, 0); the last step
    writes the block back, and a write of the whole array leaves exactly what was written, whatever the array held. -/
theorem finalA_out (c : Dev nD) : finalA m ρ c (1 : Fin 2) = outAt m c := by
  have hz : (fun a => win0_1.index t0_3 a * main_v1.ty.shape.size a) = fun _ => 0 := funext fun a => by fin_cases a <;> decide
  show (dats m ρ 0 c).arrAt 1 (t0_3.val + 1) = _
  rw [Dat.arrAt_succ, if_pos ((flush0_1 t0_3).mpr rfl)]
  exact Memref.write_access_unit_zero_univ (Elt F) main_v1 hz (fun a => by rw [congrFun hz a]; simp) _ (outAt m c)

/-- The run with its results named: each device's result row is outAt, its rows are unchanged. -/
theorem run_named (hrun : θ_run defs (onTc (τ := τ) (main (F := F))) (s₀ m ρ) (QC m ρ)) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun r h c => ⟨((h c) (1 : Fin 2)).trans (finalA_out m ρ c), ((h c) (0 : Fin 2)).trans (finalA_x m ρ c)⟩) hrun

end Cert.KI

end
-- ==== Proof.KIValue.lean ====
/- Over the extended reals the kernel's result row is the reference's: a device's row of maxima over its four blocks of
   256 rows is the maximum over its 1024 rows; the maximum over the four devices' rows is the maximum over all 4096
   rows, whatever the order; and device c's rows are rows 1024 c .. 1024 c + 1023 of the whole array. A maximum needs no
   finiteness: it is associative, commutative and idempotent on the extended reals, with -∞ its unit. Every maximum here
   is carried by its universal property: two extended reals with the same upper bounds are equal, and z bounds a
   maximum from a start value over a family exactly when it bounds the start value and every member. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.KIProto
import proofs.«900906_g7700000000000907_dist_max_ax0_shard0_i_m1024_n512_v7x_i4_f32_1_alg».proof.Proof.Gen.ReferenceIdeal.Run
import proofs.«900906_g7700000000000907_dist_max_ax0_shard0_i_m1024_n512_v7x_i4_f32_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.KIValue

open Cert.KernelIdeal Cert.KernelIdeal.Gen Cert.KI
open Idealize.ShloMosaic Idealize.ShloMosaic.TcCoe Idealize.SL.Sem
open Idealize.ShloMosaic.ValueIdx

/-! ## A maximum by its upper bounds -/

/-- The value both programs start every maximum from: the pattern of -∞. -/
abbrev ninf : EReal := FloatOps.ofBits (F := Ideal) .f32 0xFF800000#32

/-- z bounds the maximum from b over a finite family exactly when it bounds b and every member. -/
theorem fold_le_iff {n : Nat} (b : EReal) (f : Fin n → EReal) (z : EReal) :
    (Finset.univ : Finset (Fin n)).fold max b f ≤ z ↔ b ≤ z ∧ ∀ k, f k ≤ z := by
  rw [Finset.fold_max_le]; simp

/-! ## The three stored values, read at a column -/

/-- The column maximum of a block of 256 rows, from -∞. -/
theorem colmax_apply (v : Vec Ideal S256x512 .f32) (j : Fin 512) :
    multiReduction (F := Ideal) .maximumf [0] S512 (shapeCast S256x512 v shapeCasts_S256x512_S256x512) 0xFF800000#32 reduces_S256x512_S512 (.inl rfl) rfl (ix1 j)
      = (Finset.univ : Finset (Fin 256)).fold max ninf (fun r => v (ix2 r j)) := by
  refine (Ideal.multiReduction_maximumf_single _ _ _ _ _ (ix1 j)).trans ?_
  refine congrArg (fun f => (Finset.univ : Finset (Fin 256)).fold max ninf f) ?_
  funext r
  show shapeCast S256x512 v shapeCasts_S256x512_S256x512 (reduces_S256x512_S512.lift (ix1 j) r) = v (ix2 r j)
  rw [shapeCast_self]
  refine congrArg v ?_
  funext a
  match a with
  | ⟨0, _⟩ => rfl
  | ⟨1, _⟩ => rfl

/-- Step 0 stores the first block's column maxima. -/
theorem pay1_apply (v : Vec Ideal S256x512 .f32) (u0 u1 : Fin 1) (j : Fin 512) :
    k0_pay1 v (ix3 u0 u1 j) = (Finset.univ : Finset (Fin 256)).fold max ninf (fun r => v (ix2 r j)) := by
  unfold k0_pay1
  refine (shapeCast_ab_1ab_apply _ _ u0 u1 j).trans ?_
  refine (shapeCast_a_1a_apply _ _ u1 j).trans ?_
  exact colmax_apply v j

/-- Steps 1 to 3 store the larger of the running maximum and the block's column maximum. -/
theorem pay2_apply (a : Vec Ideal S1x1x512 .f32) (v : Vec Ideal S256x512 .f32) (u0 u1 : Fin 1) (j : Fin 512) :
    k0_pay2 a v (ix3 u0 u1 j)
      = max (a (ix3 (0 : Fin 1) u1 j)) ((Finset.univ : Finset (Fin 256)).fold max ninf (fun r => v (ix2 r j))) := by
  unfold k0_pay2
  refine (shapeCast_ab_1ab_apply _ _ u0 u1 j).trans ?_
  refine (maximumf_apply _ _ _).trans ?_
  refine congrArg₂ max ?_ ?_
  · exact shapeCast_1ab_ab_apply _ _ u1 j
  · refine (shapeCast_a_1a_apply _ _ u1 j).trans ?_
    exact colmax_apply v j

/-- The result row is the maximum, from -∞, over the four slots of the exchange buffer. -/
theorem pay3_apply (g : Vec Ideal S4x1x512 .f32) (u : Fin 1) (j : Fin 512) :
    k0_pay3 g (ix2 u j) = (Finset.univ : Finset (Fin 4)).fold max ninf (fun s => g (ix3 s u j)) := by
  unfold k0_pay3
  refine (Ideal.multiReduction_maximumf_single _ _ _ _ _ (ix2 u j)).trans ?_
  refine congrArg (fun f => (Finset.univ : Finset (Fin 4)).fold max ninf f) ?_
  funext s
  show g (reduces_S4x1x512_S1x512.lift (ix2 u j) s) = g (ix3 s u j)
  refine congrArg g ?_
  funext a
  match a with
  | ⟨0, _⟩ => rfl
  | ⟨1, _⟩ => rfl
  | ⟨2, _⟩ => rfl

/-! ## From a step's block to the device's rows, and from a device's rows to the whole array -/

/-- The rows' window moves one block of 256 rows down per step and stays in column block 0. -/
theorem rows_index : ∀ t : Fin cfg0.N, win0_0.index t (0 : Fin 2) = t.val ∧ win0_0.index t (1 : Fin 2) = 0 :=
  (by decide +kernel : ∀ t : Fin grid0.N, _)

/-- Row r of the block at step t is row 256 t + r of the device's array. -/
theorem xblk_apply (m : (ℓ : Loc nD τ sig) → Buf (Elt Ideal) ℓ) (c : Dev nD) (t : Fin cfg0.N) (r : Fin 256) (j : Fin 512)
    (i : S1024x512.Idx) (h0 : (i 0).val = 256 * t.val + r.val) (h1 : (i 1).val = j.val) :
    xblk m c t (ix2 r j) = m ((c.tc : Thread nD τ).loc main_arg0) i := by
  show V m c main_arg0 (((cfg0.win 0).blk t).view.emb (ix2 r j)) = V m c main_arg0 i
  refine congrArg (V m c main_arg0) ?_
  funext a; apply Fin.ext
  obtain ⟨e0, e1⟩ := rows_index t
  match a with
  | ⟨0, _⟩ => show win0_0.index t (0 : Fin 2) * 256 + 1 * r.val = (i 0).val; omega
  | ⟨1, _⟩ => show win0_0.index t (1 : Fin 2) * 512 + 1 * j.val = (i 1).val; omega

/-- Row a of device c's block of the whole array is row 1024 c + a. -/
theorem block_rows (X : (⟨Cert.ReferenceIdeal.S4096x512, .f32⟩ : BufTy).Contents (Elt Ideal)) (c : Fin 4)
    (i : S1024x512.Idx) (k : Cert.ReferenceIdeal.S4096x512.Idx)
    (h0 : (k 0).val = 1024 * c.val + (i 0).val) (h1 : (k 1).val = (i 1).val) :
    (Layout.block ⟨2, ![1024, 512]⟩ ⟨2, ![4096, 512]⟩ 0 4 c X) i = X k := by
  rw [Layout.block_apply]
  refine congrArg X ?_
  funext a; apply Fin.ext
  match a with
  | ⟨0, _⟩ => show c.val * 1024 + (i 0).val = (k 0).val; omega
  | ⟨1, _⟩ => show (i 1).val = (k 1).val; omega

/-- So row r of device c's block at step t is row 1024 c + 256 t + r of the whole array. -/
theorem xblk_row (m : (ℓ : Loc nD τ sig) → Buf (Elt Ideal) ℓ)
    (X : (⟨Cert.ReferenceIdeal.S4096x512, .f32⟩ : BufTy).Contents (Elt Ideal))
    (h : ∀ c : Dev nD, m ((c.tc : Thread nD τ).loc main_arg0) = Layout.block ⟨2, ![1024, 512]⟩ ⟨2, ![4096, 512]⟩ 0 4 c X)
    (c : Dev nD) (t : Fin cfg0.N) (r : Fin 256) (j : Fin 512) (k : Fin 4096)
    (hk : k.val = 1024 * c.val + 256 * t.val + r.val) :
    xblk m c t (ix2 r j) = X (ix2 k j) := by
  have ht : t.val < 4 := Nat.lt_of_lt_of_eq t.isLt N_0
  have hr : r.val < 256 := r.isLt
  refine (xblk_apply m c t r j (ix2 (⟨256 * t.val + r.val, by omega⟩ : Fin 1024) j) rfl rfl).trans ?_
  rw [h c]
  exact block_rows X c _ _ (by show k.val = 1024 * c.val + (256 * t.val + r.val); omega) rfl

/-! ## The upper bounds of a device's row, of the result row, and of the reference's -/

/-- z bounds device c's row of maxima at column j exactly when it bounds -∞ and column j of every row of every block. -/
theorem acc3_le (m : (ℓ : Loc nD τ sig) → Buf (Elt Ideal) ℓ) (c : Dev nD) (u0 u1 : Fin 1) (j : Fin 512) (z : EReal) :
    acc3 m c (ix3 u0 u1 j) ≤ z ↔ ninf ≤ z ∧ ∀ (t : Fin cfg0.N) (r : Fin 256), xblk m c t (ix2 r j) ≤ z := by
  unfold acc3 acc2 acc1 acc0
  rw [pay2_apply, pay2_apply, pay2_apply, pay1_apply]
  simp only [max_le_iff, fold_le_iff]
  constructor
  · rintro ⟨⟨⟨⟨hb, h0⟩, -, h1⟩, -, h2⟩, -, h3⟩
    refine ⟨hb, fun t r => ?_⟩
    rcases fin_N0 t with rfl | rfl | rfl | rfl
    · exact h0 r
    · exact h1 r
    · exact h2 r
    · exact h3 r
  · rintro ⟨hb, H⟩
    exact ⟨⟨⟨⟨hb, H t0_0⟩, hb, H t0_1⟩, hb, H t0_2⟩, hb, H t0_3⟩

/-- z bounds device c's result at column j exactly when it bounds -∞ and column j of every row of every block of
    every device: as s runs over the four slots, the device s places on runs over all four. -/
theorem outAt_le (m : (ℓ : Loc nD τ sig) → Buf (Elt Ideal) ℓ) (c : Dev nD) (u : Fin 1) (j : Fin 512) (z : EReal) :
    outAt m c (ix2 u j) ≤ z
      ↔ ninf ≤ z ∧ ∀ (s : Fin 4) (t : Fin cfg0.N) (r : Fin 256), xblk m (pk c s) t (ix2 r j) ≤ z := by
  unfold outAt
  rw [pay3_apply, fold_le_iff]
  -- slot s of the gathered buffer is the row of the device s places on
  constructor
  · rintro ⟨hb, H⟩
    exact ⟨hb, fun s => ((acc3_le m (pk c s) 0 u j z).1 (H s)).2⟩
  · rintro ⟨hb, H⟩
    exact ⟨hb, fun s => (acc3_le m (pk c s) 0 u j z).2 ⟨hb, H s⟩⟩

theorem red_ref : Cert.ReferenceIdeal.S4096x512.Reduces [0] Cert.ReferenceIdeal.S512 := by decide

/-- The reference's row, read at a column: the maximum from -∞ over all 4096 rows. -/
theorem ref_apply (X : (⟨Cert.ReferenceIdeal.S4096x512, .f32⟩ : BufTy).Contents (Elt Ideal)) (u : Fin 1) (j : Fin 512) :
    Cert.ReferenceIdeal.Read.val_main_v1 (F := Ideal) X (ix2 u j)
      = (Finset.univ : Finset (Fin 4096)).fold max ninf (fun k => X (ix2 k j)) := by
  rw [Cert.ReferenceIdeal.Read.val_main_v1_apply]
  unfold Cert.ReferenceIdeal.Read.val_main_v0
  refine (Host.reduce_eq_fold_single _ _ _ _ red_ref _ _).trans ?_
  refine congrArg (fun f => (Finset.univ : Finset (Fin 4096)).fold max ninf f) ?_
  funext k
  show X (red_ref.lift (Cert.ReferenceIdeal.Read.idx_main_v1 (ix2 u j)) k) = X (ix2 k j)
  refine congrArg X ?_
  funext a
  match a with
  | ⟨0, _⟩ => rfl
  | ⟨1, _⟩ => rfl

/-! ## The two rows are one -/

/-- If every device's rows are its block of the whole array X, every device's result row is the reference's result at X. -/
theorem outAt_eq_ref (m : (ℓ : Loc nD τ sig) → Buf (Elt Ideal) ℓ)
    (X : (⟨Cert.ReferenceIdeal.S4096x512, .f32⟩ : BufTy).Contents (Elt Ideal))
    (h : ∀ c : Dev nD, m ((c.tc : Thread nD τ).loc main_arg0) = Layout.block ⟨2, ![1024, 512]⟩ ⟨2, ![4096, 512]⟩ 0 4 c X)
    (c : Dev nD) :
    outAt (F := Ideal) m c = Cert.ReferenceIdeal.Read.val_main_v1 (F := Ideal) X := by
  funext i
  obtain ⟨u, j, rfl⟩ : ∃ (u : Fin 1) (j : Fin 512), i = ix2 u j := ⟨i 0, i 1, eq_ix2 i⟩
  refine eq_of_forall_ge_iff fun z => ?_
  rw [outAt_le, ref_apply, fold_le_iff]
  have hc : c.val < 4 := c.isLt
  constructor
  · rintro ⟨hb, H⟩
    refine ⟨hb, fun k => ?_⟩
    have hk : k.val < 4096 := k.isLt
    -- row k is row k % 256 of block (k % 1024) / 256 of device k / 1024, which is (k / 1024 - c) places on from c
    have e := xblk_row m X h (pk c ⟨(k.val / 1024 + 4 - c.val) % 4, Nat.mod_lt _ (by decide)⟩)
      ⟨k.val % 1024 / 256, by rw [show cfg0.N = 4 from N_0]; omega⟩ ⟨k.val % 256, Nat.mod_lt _ (by decide)⟩ j k
      (by show k.val = 1024 * ((c.val + (k.val / 1024 + 4 - c.val) % 4) % 4) + 256 * (k.val % 1024 / 256) + k.val % 256; omega)
    rw [← e]
    exact H _ _ _
  · rintro ⟨hb, H⟩
    refine ⟨hb, fun s t r => ?_⟩
    have ht : t.val < 4 := Nat.lt_of_lt_of_eq t.isLt N_0
    have hr : r.val < 256 := r.isLt
    have hp : (pk c s).val < 4 := (pk c s).isLt
    rw [xblk_row m X h (pk c s) t r j ⟨1024 * (pk c s).val + 256 * t.val + r.val, by omega⟩ rfl]
    exact H _

/-- info: 'Cert.KIValue.outAt_eq_ref' depends on axioms: [propext, Classical.choice, Quot.sound] -/
#guard_msgs in #print axioms outAt_eq_ref

end Cert.KIValue

end
-- ==== Proof.KBProto.lean ====
/- Four devices each reduce their own 1024 rows to one row of column maxima, in four steps of 256 rows, and then
   exchange these rows all to all: device c writes its row into slot (4 - d) of device c + d, for d = 1, 2, 3, after
   every device has told the three others, on the barrier semaphore, that it is inside the kernel. This module names
   the peers, the four slots of the exchange buffer, the seven semaphore cells of a device, and the resource algebra. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import Idealize.ShloMosaic.Lib.ValueIdx
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds (one duty a round) beside the exchange's (duties 0..3) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers: the device d places further round the mesh -/

def pk (c : Dev nD) (d : Fin 4) : Dev nD := ⟨(c.val + d.val) % 4, Nat.mod_lt _ (by decide)⟩

theorem pk_zero (c : Dev nD) : pk c 0 = c := by revert c; decide
/-- Going d places on and then 4 - d places on comes back. -/
theorem pk_pk_neg (c : Dev nD) (d : Fin 4) : pk (pk c d) (-d) = c := by revert c d; decide
theorem pk_neg_pk (c : Dev nD) (d : Fin 4) : pk (pk c (-d)) d = c := by revert c d; decide
theorem pk_inj (d : Fin 4) : Function.Injective (fun c : Dev nD => pk c d) := by revert d; decide

/-- The mesh turned by d places, as a permutation of the devices. -/
def turn (d : Fin 4) : Dev nD ≃ Dev nD := ⟨fun c => pk c d, fun c => pk c (-d), fun c => pk_pk_neg c d, fun c => pk_neg_pk c d⟩

/-- The kernel's device chains, in closed form: the three signals go 1, 2, 3 places on; the three copies 2, 1, 3. -/
theorem dev1_val (c : Dev nD) : k0_dev1 c = (pk c 1).val := by revert c; decide
theorem dev2_val (c : Dev nD) : k0_dev2 c = (pk c 2).val := by revert c; decide
theorem dev3_val (c : Dev nD) : k0_dev3 c = (pk c 3).val := by revert c; decide
theorem dev4_val (c : Dev nD) : k0_dev4 c = (pk c 2).val := by revert c; decide
theorem dev5_val (c : Dev nD) : k0_dev5 c = (pk c 1).val := by revert c; decide
theorem dev6_val (c : Dev nD) : k0_dev6 c = (pk c 3).val := by revert c; decide

theorem dev1_eq (c : Dev nD) (h : k0_dev1 c < nD) : (⟨k0_dev1 c, h⟩ : Dev nD) = pk c 1 := Fin.ext (dev1_val c)
theorem dev2_eq (c : Dev nD) (h : k0_dev2 c < nD) : (⟨k0_dev2 c, h⟩ : Dev nD) = pk c 2 := Fin.ext (dev2_val c)
theorem dev3_eq (c : Dev nD) (h : k0_dev3 c < nD) : (⟨k0_dev3 c, h⟩ : Dev nD) = pk c 3 := Fin.ext (dev3_val c)
theorem dev4_eq (c : Dev nD) (h : k0_dev4 c < nD) : (⟨k0_dev4 c, h⟩ : Dev nD) = pk c 2 := Fin.ext (dev4_val c)
theorem dev5_eq (c : Dev nD) (h : k0_dev5 c < nD) : (⟨k0_dev5 c, h⟩ : Dev nD) = pk c 1 := Fin.ext (dev5_val c)
theorem dev6_eq (c : Dev nD) (h : k0_dev6 c < nD) : (⟨k0_dev6 c, h⟩ : Dev nD) = pk c 3 := Fin.ext (dev6_val c)

/-! ## The exchange buffer and its four slots -/

abbrev commM : Memref sig .tc .vmem S4x1x512 .f32 := Memref.whole cc0_scratch0

/-- Slot s of the exchange buffer, one row of 512: slot 0 is the device's own running maximum, slot s > 0 is where
    the device s places on writes its row. -/
abbrev slot : Fin 4 → Memref sig .tc .vmem S1x512 .f32
  | 0 => (commM.slice (Rect.unit (s := S4x1x512) ![0, 0, 0] S1x1x512.size Facts₀.inb_S4x1x512_S1x1x512_0_0_0) (fun _ => rfl)).squeeze S1x512 Facts₀.squeezes_S1x1x512_S1x512
  | 1 => (commM.slice (Rect.unit (s := S4x1x512) ![1, 0, 0] S1x1x512.size Facts₀.inb_S4x1x512_S1x1x512_1_0_0) (fun _ => rfl)).squeeze S1x512 Facts₀.squeezes_S1x1x512_S1x512
  | 2 => (commM.slice (Rect.unit (s := S4x1x512) ![2, 0, 0] S1x1x512.size Facts₀.inb_S4x1x512_S1x1x512_2_0_0) (fun _ => rfl)).squeeze S1x512 Facts₀.squeezes_S1x1x512_S1x512
  | 3 => (commM.slice (Rect.unit (s := S4x1x512) ![3, 0, 0] S1x1x512.size Facts₀.inb_S4x1x512_S1x1x512_3_0_0) (fun _ => rfl)).squeeze S1x512 Facts₀.squeezes_S1x1x512_S1x512

/-! ## The semaphores and the cells -/

/-- The runtime's barrier semaphore of collective id 0 (not scoped to the launch). -/
abbrev barS : Sem sig := (SemArray.scalar (sig.barrier 0 rfl) : Sems sig S_).sem

/-- The three send semaphores and the three receive semaphores (scoped scratch), as the body slices them. -/
abbrev sendS : Fin 3 → DmaSem sig
  | 0 => ((cc0_scratch1.slice (Rect.unit (s := S3) ![0] S1.size Facts₀.inb_S3_S1_0)).squeeze S_ Facts₀.squeezes_S1_S_).sem
  | 1 => ((cc0_scratch1.slice (Rect.unit (s := S3) ![1] S1.size Facts₀.inb_S3_S1_1)).squeeze S_ Facts₀.squeezes_S1_S_).sem
  | 2 => ((cc0_scratch1.slice (Rect.unit (s := S3) ![2] S1.size Facts₀.inb_S3_S1_2)).squeeze S_ Facts₀.squeezes_S1_S_).sem
abbrev recvS : Fin 3 → DmaSem sig
  | 0 => ((cc0_scratch2.slice (Rect.unit (s := S3) ![0] S1.size Facts₀.inb_S3_S1_0)).squeeze S_ Facts₀.squeezes_S1_S_).sem
  | 1 => ((cc0_scratch2.slice (Rect.unit (s := S3) ![1] S1.size Facts₀.inb_S3_S1_1)).squeeze S_ Facts₀.squeezes_S1_S_).sem
  | 2 => ((cc0_scratch2.slice (Rect.unit (s := S3) ![2] S1.size Facts₀.inb_S3_S1_2)).squeeze S_ Facts₀.squeezes_S1_S_).sem

theorem sendS_val (j : Fin 3) : (sendS j).val = 3 + j.val := by revert j; decide
theorem recvS_val (j : Fin 3) : (recvS j).val = 6 + j.val := by revert j; decide

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The credit of one row's copy. -/
abbrev N : ℕ := (slot 0).view.dmaCredit
theorem N_pos : 0 < N := View.dmaCredit_pos _ (by decide)

/-! ## Contents -/

variable (m : (ℓ : Loc nD τ sig) → Buf (Elt F) ℓ) (ρ : Dev nD → PrngReg)

/-- Device c's rows 256 t .. 256 t + 255, as the kernel finds them at step t. -/
abbrev xblk (c : Dev nD) (t : Fin cfg0.N) : Vec F S256x512 .f32 := iblk m c 0 t

/-- The running column maxima of device c after steps 0, 1, 2, 3 (a row of 512, shaped 1 x 1 x 512). -/
def acc0 (c : Dev nD) : Vec F S1x1x512 .f32 := k0_pay1 (xblk m c t0_0)
def acc1 (c : Dev nD) : Vec F S1x1x512 .f32 := k0_pay2 (acc0 m c) (xblk m c t0_1)
def acc2 (c : Dev nD) : Vec F S1x1x512 .f32 := k0_pay2 (acc1 m c) (xblk m c t0_2)
def acc3 (c : Dev nD) : Vec F S1x1x512 .f32 := k0_pay2 (acc2 m c) (xblk m c t0_3)

abbrev CommBuf (c : Dev nD) : Type := Buf (Elt F) ((c : Thread nD τ).loc cc0_scratch0)

/-- A row laid into every slot of the exchange buffer: the contents a slot is described by, whichever slot it is. -/
def spread (c : Dev nD) (a : Vec F S1x1x512 .f32) : CommBuf (F := F) c :=
  fun i => a (ValueIdx.ix3 (0 : Fin 1) (i 1) (i 2))

/-- The exchange buffer of device c once the three rows have landed: slot s holds the row of the device s places on. -/
def gathered (c : Dev nD) : CommBuf (F := F) c :=
  fun i => acc3 m (pk c ⟨(i 0).val, (i 0).isLt⟩) (ValueIdx.ix3 (0 : Fin 1) (i 1) (i 2))

/-- What device c's result row is: the maximum over the four slots. -/
def outAt (c : Dev nD) : Vec F S1x512 .f32 := k0_pay3 (gathered m c)

/-- Slot s of device c's exchange buffer, held at share q with contents f. -/
def slotPts (c : Dev nD) (s : Fin 4) (q : PosShare TreeShare) (f : CommBuf (F := F) c) : sProp 𝕄 :=
  match s with
  | 0 => (slot 0).view.loc (c : Thread nD τ) ↦[(slot 0).view.set]{q} f
  | 1 => (slot 1).view.loc (c : Thread nD τ) ↦[(slot 1).view.set]{q} f
  | 2 => (slot 2).view.loc (c : Thread nD τ) ↦[(slot 2).view.set]{q} f
  | 3 => (slot 3).view.loc (c : Thread nD τ) ↦[(slot 3).view.set]{q} f

/-- The whole exchange buffer. -/
def commPts (c : Dev nD) (q : PosShare TreeShare) (f : CommBuf (F := F) c) : sProp 𝕄 :=
  ((c : Thread nD τ).loc cc0_scratch0) ↦{q} f

end Cert.KB

end
-- ==== Proof.KBSched.lean ====
/- The exchange as a schedule of rounds. Every cell has one round. A device's barrier cell collects one unit from each of
   the three other devices; the unit from the device s places on brings that device's slot 4 - s, free to be written. Each of the three send cells and three receive cells of a
   device collects one row's credit: a send cell gives the device back the share of its own row that the copy was
   reading, a receive cell gives it the slot with the sender's row in it. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBProto
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which slot, which semaphore, which share -/

/-- The copy d places on (d = 1, 2, 3) is raised on send semaphore d - 1 and lands on the target's receive
    semaphore 3 - d, in the target's slot 4 - d. -/
def sj : Fin 4 → Fin 3 | 0 => 0 | 1 => 0 | 2 => 1 | 3 => 2
def rj : Fin 4 → Fin 3 | 0 => 0 | 1 => 2 | 2 => 1 | 3 => 0

/-- The share of its own row a device lends to the copy on send semaphore j; what it keeps for itself. -/
def qS : Fin 3 → PosShare TreeShare | 0 => fullShare.left.left | 1 => fullShare.left.right | 2 => fullShare.right.left
def qK : PosShare TreeShare := fullShare.right.right

/-! ## Payloads -/

/-- What the unit from the device s places on brings to c's barrier cell: that device's slot 4 - s, at any contents,
    free for c's row to be written into. -/
def barPay (c : Dev nD) (s : Fin 4) : sProp 𝕄 := iprop(∃ f, slotPts (pk c s) (-s) fullShare f)
/-- The send cell j gives back the lent share of the device's own row. -/
def sendPay (c : Dev nD) (j : Fin 3) : sProp 𝕄 := slotPts c 0 (qS j) (spread c (acc3 m c))
/-- The receive cell j gives slot j + 1 holding the row of the device j + 1 places on. -/
def recvPay (c : Dev nD) (j : Fin 3) : sProp 𝕄 :=
  match j with
  | 0 => slotPts c 1 fullShare (spread c (acc3 m (pk c 1)))
  | 1 => slotPts c 2 fullShare (spread c (acc3 m (pk c 2)))
  | 2 => slotPts c 3 fullShare (spread c (acc3 m (pk c 3)))

abbrev IsBar (g : GSem nD τ sig) : Prop := g.1.2 = .tc ∧ g.2 = .reg barS
abbrev IsXfer (g : GSem nD τ sig) : Prop :=
  g.1.2 = .tc ∧ (g.2 = .dma (sendS 0) ∨ g.2 = .dma (sendS 1) ∨ g.2 = .dma (sendS 2) ∨ g.2 = .dma (recvS 0) ∨ g.2 = .dma (recvS 1) ∨ g.2 = .dma (recvS 2))

/-- One round, round 0. A barrier cell: duties 1, 2, 3 of one unit each. A send or receive cell: duty 0 of a row's credit. -/
def xRd : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then (if d = 1 then barPay g.1.1 1 else if d = 2 then barPay g.1.1 2 else if d = 3 then barPay g.1.1 3 else iprop(emp))
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp)
  amount_pos g _ _ _ := by
    by_cases h : g.2 = .reg barS
    · rw [if_pos h]; exact Nat.one_pos
    · rw [if_neg h]; exact N_pos

omit [FloatOps F] in
instance slotPts_storable (c : Dev nD) (s : Fin 4) (q) (f) : BI.Storable (upEmb : UEmb _ 𝕄) (slotPts (F := F) c s q f) := by
  unfold slotPts; split <;> infer_instance

instance xRd_payload_storable (g : GSem nD τ sig) (r : ℕ) (d : Fin 4) :
    BI.Storable (upEmb : UEmb _ 𝕄) ((xRd (F := F) m).payload g r d) := by
  show BI.Storable upEmb (if g.2 = .reg barS then (if d = 1 then barPay g.1.1 1 else if d = 2 then barPay g.1.1 2 else if d = 3 then barPay g.1.1 3 else iprop(emp))
    else if g.2 = .dma (sendS 0) then sendPay m g.1.1 0
    else if g.2 = .dma (sendS 1) then sendPay m g.1.1 1
    else if g.2 = .dma (sendS 2) then sendPay m g.1.1 2
    else if g.2 = .dma (recvS 0) then recvPay m g.1.1 0
    else if g.2 = .dma (recvS 1) then recvPay m g.1.1 1
    else if g.2 = .dma (recvS 2) then recvPay m g.1.1 2
    else iprop(emp))
  unfold barPay sendPay recvPay
  (repeat' split) <;> infer_instance

/-! ## The tables, cell by cell -/

section Sched
variable (c : Dev nD)

theorem send_ne_bar (j : Fin 3) : (SemLoc.dma (sendS j) : SemLoc sig) ≠ .reg barS := fun h => by cases h
theorem recv_ne_bar (j : Fin 3) : (SemLoc.dma (recvS j) : SemLoc sig) ≠ .reg barS := fun h => by cases h
theorem send_ne_recv (j k : Fin 3) : (SemLoc.dma (sendS j) : SemLoc sig) ≠ .dma (recvS k) := by revert j k; decide
theorem send_inj : ∀ j k : Fin 3, (SemLoc.dma (sendS j) : SemLoc sig) = .dma (sendS k) → j = k := by decide
theorem recv_inj : ∀ j k : Fin 3, (SemLoc.dma (recvS j) : SemLoc sig) = .dma (recvS k) → j = k := by decide
theorem xfer_send_sem : ∀ j : Fin 3, (SemLoc.dma (sendS j) : SemLoc sig) = .dma (sendS 0) ∨ (SemLoc.dma (sendS j) : SemLoc sig) = .dma (sendS 1) ∨ (SemLoc.dma (sendS j) : SemLoc sig) = .dma (sendS 2)
    ∨ (SemLoc.dma (sendS j) : SemLoc sig) = .dma (recvS 0) ∨ (SemLoc.dma (sendS j) : SemLoc sig) = .dma (recvS 1) ∨ (SemLoc.dma (sendS j) : SemLoc sig) = .dma (recvS 2) := by decide
theorem xfer_recv_sem : ∀ j : Fin 3, (SemLoc.dma (recvS j) : SemLoc sig) = .dma (sendS 0) ∨ (SemLoc.dma (recvS j) : SemLoc sig) = .dma (sendS 1) ∨ (SemLoc.dma (recvS j) : SemLoc sig) = .dma (sendS 2)
    ∨ (SemLoc.dma (recvS j) : SemLoc sig) = .dma (recvS 0) ∨ (SemLoc.dma (recvS j) : SemLoc sig) = .dma (recvS 1) ∨ (SemLoc.dma (recvS j) : SemLoc sig) = .dma (recvS 2) := by decide
theorem isXfer_send (j : Fin 3) : IsXfer (sendCell c j) := ⟨rfl, xfer_send_sem j⟩
theorem isXfer_recv (j : Fin 3) : IsXfer (recvCell c j) := ⟨rfl, xfer_recv_sem j⟩
theorem not_bar_send (j : Fin 3) : ¬ IsBar (sendCell c j) := fun h => send_ne_bar j h.2
theorem not_bar_recv (j : Fin 3) : ¬ IsBar (recvCell c j) := fun h => recv_ne_bar j h.2

theorem duties_bar : (xRd (F := F) m).duties (barCell c) 0 = {1, 2, 3} := by dsimp only [xRd]; exact if_pos ⟨rfl, rfl, rfl⟩
theorem duties_send (j : Fin 3) : (xRd (F := F) m).duties (sendCell c j) 0 = {0} := by
  dsimp only [xRd]; rw [if_neg (fun h => not_bar_send c j h.2)]; exact if_pos ⟨rfl, isXfer_send c j⟩
theorem duties_recv (j : Fin 3) : (xRd (F := F) m).duties (recvCell c j) 0 = {0} := by
  dsimp only [xRd]; rw [if_neg (fun h => not_bar_recv c j h.2)]; exact if_pos ⟨rfl, isXfer_recv c j⟩
theorem duties_later (g : GSem nD τ sig) : ∀ r, 1 ≤ r → (xRd (F := F) m).duties g r = ∅ :=
  fun r hr => by dsimp only [xRd]; rw [if_neg fun h => by omega, if_neg fun h => by omega]

theorem amount_bar (d : Fin 4) : (xRd (F := F) m).amount (barCell c) 0 d = 1 := by dsimp only [xRd]; exact if_pos rfl
theorem amount_send (j : Fin 3) (d : Fin 4) : (xRd (F := F) m).amount (sendCell c j) 0 d = N := by dsimp only [xRd]; exact if_neg (send_ne_bar j)
theorem amount_recv (j : Fin 3) (d : Fin 4) : (xRd (F := F) m).amount (recvCell c j) 0 d = N := by dsimp only [xRd]; exact if_neg (recv_ne_bar j)

theorem expect_bar : (xRd (F := F) m).expect (barCell c) 0 = 3 := by
  unfold Schedule.expect Schedule.amountOf
  rw [duties_bar, Finset.sum_congr rfl fun d _ => amount_bar m c d, Finset.sum_const, smul_eq_mul]; decide
theorem expect_send (j : Fin 3) : (xRd (F := F) m).expect (sendCell c j) 0 = N := by
  unfold Schedule.expect Schedule.amountOf; rw [duties_send, Finset.sum_singleton, amount_send]
theorem expect_recv (j : Fin 3) : (xRd (F := F) m).expect (recvCell c j) 0 = N := by
  unfold Schedule.expect Schedule.amountOf; rw [duties_recv, Finset.sum_singleton, amount_recv]

theorem payload_bar1 : (xRd (F := F) m).payload (barCell c) 0 1 = barPay c 1 := by dsimp only [xRd]; rw [if_pos rfl, if_pos rfl]
theorem payload_bar2 : (xRd (F := F) m).payload (barCell c) 0 2 = barPay c 2 := by
  dsimp only [xRd]; rw [if_pos rfl, if_neg (by decide), if_pos rfl]
theorem payload_bar3 : (xRd (F := F) m).payload (barCell c) 0 3 = barPay c 3 := by
  dsimp only [xRd]; rw [if_pos rfl, if_neg (by decide), if_neg (by decide), if_pos rfl]
theorem payload_send (j : Fin 3) (d : Fin 4) : (xRd (F := F) m).payload (sendCell c j) 0 d = sendPay m c j := by
  dsimp only [xRd]; rw [if_neg (send_ne_bar j)]
  revert j; intro j; fin_cases j
  · exact if_pos rfl
  · rw [if_neg (fun h => absurd (send_inj _ _ h) (by decide))]; exact if_pos rfl
  · rw [if_neg (fun h => absurd (send_inj _ _ h) (by decide)), if_neg (fun h => absurd (send_inj _ _ h) (by decide))]; exact if_pos rfl
theorem payload_recv (j : Fin 3) (d : Fin 4) : (xRd (F := F) m).payload (recvCell c j) 0 d = recvPay m c j := by
  dsimp only [xRd]; rw [if_neg (recv_ne_bar j), if_neg (fun h => send_ne_recv 0 j h.symm), if_neg (fun h => send_ne_recv 1 j h.symm), if_neg (fun h => send_ne_recv 2 j h.symm)]
  revert j; intro j; fin_cases j
  · exact if_pos rfl
  · rw [if_neg (fun h => absurd (recv_inj _ _ h) (by decide))]; exact if_pos rfl
  · rw [if_neg (fun h => absurd (recv_inj _ _ h) (by decide)), if_neg (fun h => absurd (recv_inj _ _ h) (by decide))]; exact if_pos rfl

/-- The whole of the barrier cell's round, no duty taken yet: the three peers' slots. -/
theorem rest_bar : bigSep ((xRd (F := F) m).duties (barCell c) 0 \ ∅) (fun d => (xRd (F := F) m).payload (barCell c) 0 d)
    = iprop(barPay c 1 ∗ barPay c 2 ∗ barPay c 3) := by
  rw [Finset.sdiff_empty, duties_bar, bigSep_eq_bigSepL_of_eq [(1 : Fin 4), 2, 3] (by decide) (by decide), bigSepL_cons_cons, bigSepL_cons_cons, bigSepL_singleton,
    payload_bar1, payload_bar2, payload_bar3]
  rfl
theorem rest_send (j : Fin 3) : bigSep ((xRd (F := F) m).duties (sendCell c j) 0 \ ∅) (fun d => (xRd (F := F) m).payload (sendCell c j) 0 d) = sendPay m c j := by
  rw [Finset.sdiff_empty, duties_send, bigSep_singleton, payload_send]
theorem rest_recv (j : Fin 3) : bigSep ((xRd (F := F) m).duties (recvCell c j) 0 \ ∅) (fun d => (xRd (F := F) m).payload (recvCell c j) 0 d) = recvPay m c j := by
  rw [Finset.sdiff_empty, duties_recv, bigSep_singleton, payload_recv]

end Sched

end Cert.KB

end
-- ==== Proof.KBLevels.lean ====
/- What a device owes the others when the kernel starts, and the order in which cells may be waited on: a device that
   still owes units may only wait on a cell that sits strictly below every cell it owes. Barrier cells sit at level 1,
   receive cells at level 2, everything else (the pipeline's own staging cells, the send cells) at level 0. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBSched
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What each device owes -/

/-- The row's credit owed to the receive cell of the device d places on; the barrier unit owed to that device. -/
def owedR (c : Dev nD) (d : Fin 4) : CellTallies nD τ sig Unit := tallyAt (recvCell (pk c d) (rj d)) () N
def owedB (c : Dev nD) (d : Fin 4) : CellTallies nD τ sig Unit := tallyAt (barCell (pk c d)) () 1

/-- After the three signals of step 0: the three rows' credits, summed so that the copies 2, 1, 3 places on peel them
    from the right in that order. -/
def O₃ (c : Dev nD) : CellTallies nD τ sig Unit := owedR c 3 + owedR c 1 + owedR c 2
/-- At launch: those, and the three barrier units, the signals 1, 2, 3 places on peeling them from the right. -/
def O₀ (c : Dev nD) : CellTallies nD τ sig Unit := O₃ c + owedB c 3 + owedB c 2 + owedB c 1

/-! ## Levels -/

def L (g : GSem nD τ sig) : Finset Unit := if g.1.2 = .tc then {()} else ∅
abbrev IsRecvSem (sm : SemLoc sig) : Prop := sm = .dma (recvS 0) ∨ sm = .dma (recvS 1) ∨ sm = .dma (recvS 2)
def lv (g : GSem nD τ sig) (_ : Unit) : ℕ := if g.2 = .reg barS then 1 else if IsRecvSem g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem isRecvSem_recv : ∀ j : Fin 3, IsRecvSem (SemLoc.dma (recvS j) : SemLoc sig) := by decide
theorem lv_recv (c : Dev nD) (j : Fin 3) : lv (recvCell c j) () = 2 := by
  unfold lv; rw [if_neg (recv_ne_bar j)]; exact if_pos (isRecvSem_recv j)

/-- A cell device c owes a row's credit is one of three: the receive cell its copy d places on lands on. -/
theorem O₃_pos {c : Dev nD} {g : GSem nD τ sig} {u : Unit} (h : 0 < O₃ c g u) :
    ∃ d : Fin 4, g = recvCell (pk c d) (rj d) := by
  unfold O₃ at h
  rcases Pipeline.add_pos_cases h with h | h
  · rcases Pipeline.add_pos_cases h with h | h
    · exact ⟨3, (Pipeline.tallyAt_pos h).1⟩
    · exact ⟨1, (Pipeline.tallyAt_pos h).1⟩
  · exact ⟨2, (Pipeline.tallyAt_pos h).1⟩

/-- A cell device c owes something at launch is one of six: a peer's barrier cell or a peer's receive cell. -/
theorem O₀_pos {c : Dev nD} {g : GSem nD τ sig} {u : Unit} (h : 0 < O₀ c g u) :
    (∃ d : Fin 4, g = barCell (pk c d)) ∨ (∃ d : Fin 4, g = recvCell (pk c d) (rj d)) := by
  unfold O₀ at h
  rcases Pipeline.add_pos_cases h with h | h
  · rcases Pipeline.add_pos_cases h with h | h
    · rcases Pipeline.add_pos_cases h with h | h
      · exact Or.inr (O₃_pos h)
      · exact Or.inl ⟨3, (Pipeline.tallyAt_pos h).1⟩
    · exact Or.inl ⟨2, (Pipeline.tallyAt_pos h).1⟩
  · exact Or.inl ⟨1, (Pipeline.tallyAt_pos h).1⟩

omit [FloatOps F] in
/-- Waiting on a staging semaphore of the pipeline (level 0) is allowed whatever the device still owes. -/
theorem mayWait_stage (c : Dev nD) (q : DmaSem sig) (hq : ¬ IsRecvSem (SemLoc.dma q)) (O : CellTallies nD τ sig Unit)
    (hO : O = O₀ c ∨ O = O₃ c ∨ O = 0) :
    (levAts L lv : sProp 𝕄) ⊢ MayWait (c : Thread nD τ) (.dma q) () O := by
  have hW : ∀ p ∈ ({(SemLoc.dma q, ())} : Waits sig Unit), p.2 ∈ L ((c : Thread nD τ), p.1) := fun p hp => by
    rw [Finset.mem_singleton.mp hp, L_tc]; exact Finset.mem_singleton_self _
  have hWb : ∀ p ∈ ({(SemLoc.dma q, ())} : Waits sig Unit), lv ((c : Thread nD τ), p.1) p.2 ≤ 0 := fun p hp => by
    rw [Finset.mem_singleton.mp hp]; dsimp only [lv]; rw [if_neg (fun h => by cases h), if_neg hq]
  have h₃L : ∀ (g : GSem nD τ sig) (u : Unit), 0 < O₃ c g u → u ∈ L g := fun g u hg => by
    obtain ⟨d, rfl⟩ := O₃_pos hg; rw [L_tc]; exact Finset.mem_singleton_self _
  have h₃b : ∀ (g : GSem nD τ sig) (u : Unit), 0 < O₃ c g u → 0 < lv g u := fun g u hg => by
    obtain ⟨d, rfl⟩ := O₃_pos hg; cases u; rw [lv_recv]; decide
  rcases hO with rfl | rfl | rfl
  · refine MayOwe.of_cut (L := L) (lev := lv) 0 hW
      (fun g u hg => by
        rcases O₀_pos hg with ⟨d, rfl⟩ | ⟨d, rfl⟩ <;> (rw [L_tc]; exact Finset.mem_singleton_self _))
      hWb
      (fun g u hg => by
        rcases O₀_pos hg with ⟨d, rfl⟩ | ⟨d, rfl⟩
        · cases u; rw [lv_bar]; decide
        · cases u; rw [lv_recv]; decide)
  · exact MayOwe.of_cut (L := L) (lev := lv) 0 hW h₃L hWb h₃b
  · rw [MayWait_zero]; iintro -; iempintro

omit [FloatOps F] in
/-- At its barrier wait a device owes the three rows' credits only: receive cells, above its barrier cell. -/
theorem mayWait_bar (c : Dev nD) :
    (levAts L lv : sProp 𝕄) ⊢ MayWait (c : Thread nD τ) (.reg barS) () (O₃ c) :=
  MayOwe.of_cut (L := L) (lev := lv) 1
    (fun p hp => by rw [Finset.mem_singleton.mp hp, L_tc]; exact Finset.mem_singleton_self _)
    (fun g u hg => by obtain ⟨d, rfl⟩ := O₃_pos hg; rw [L_tc]; exact Finset.mem_singleton_self _)
    (fun p hp => by rw [Finset.mem_singleton.mp hp]; dsimp only [lv]; rw [if_pos rfl])
    (fun g u hg => by obtain ⟨d, rfl⟩ := O₃_pos hg; cases u; rw [lv_recv]; decide)

end Cert.KB

end
-- ==== Proof.KBData.lean ====
/- What a device holds at each step. Before step 0: the names of the cells' invariants, its seven positions, the tokens of
   the nine duties it pays (three barrier units, three rows landing at its peers, three of its own send cells), the
   credit dealt to it at launch, and its whole exchange buffer at any contents. Between steps: the same without the
   barrier tokens and without slots 1 to 3, which went out with the barrier units; slot 0 holds the running maxima.
   After step 3: the exchange buffer whole again with all four rows in it, and its six own cells closed. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBLevels
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Names of the cells' invariants -/

/-- Cell k of a device: 0 the barrier cell, 1, 2, 3 the send cells, 4, 5, 6 the receive cells. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
def kS : Fin 3 → Fin 7 | 0 => 1 | 1 => 2 | 2 => 3
def kR : Fin 3 → Fin 7 | 0 => 4 | 1 => 5 | 2 => 6

theorem kcell_bar (c : Dev nD) : kcell (c, 0) = barCell c := rfl
theorem kcell_send (c : Dev nD) (j : Fin 3) : kcell (c, kS j) = sendCell c j := by revert j; intro j; fin_cases j <;> rfl
theorem kcell_recv (c : Dev nD) (j : Fin 3) : kcell (c, kR j) = recvCell c j := by revert j; intro j; fin_cases j <;> rfl

/-! ## The ghost state of device c -/

section Ghost
variable (K : Dev nD × Fin 7 → ℕ) (c : Dev nD)

/-- The invariants device c opens: its own seven cells', the three peers' barrier cells' (its signals), and the
    receive cell each of its three copies lands on. -/
def invs : sProp 𝕄 :=
  iprop(cellInv ER (xRd m) (K (c, 0)) (barCell c)
    ∗ cellInv ER (xRd m) (K (c, kS 0)) (sendCell c 0) ∗ cellInv ER (xRd m) (K (c, kS 1)) (sendCell c 1) ∗ cellInv ER (xRd m) (K (c, kS 2)) (sendCell c 2)
    ∗ cellInv ER (xRd m) (K (c, kR 0)) (recvCell c 0) ∗ cellInv ER (xRd m) (K (c, kR 1)) (recvCell c 1) ∗ cellInv ER (xRd m) (K (c, kR 2)) (recvCell c 2)
    ∗ cellInv ER (xRd m) (K (pk c 1, 0)) (barCell (pk c 1)) ∗ cellInv ER (xRd m) (K (pk c 2, 0)) (barCell (pk c 2)) ∗ cellInv ER (xRd m) (K (pk c 3, 0)) (barCell (pk c 3))
    ∗ cellInv ER (xRd m) (K (pk c 1, kR (rj 1))) (recvCell (pk c 1) (rj 1)) ∗ cellInv ER (xRd m) (K (pk c 2, kR (rj 2))) (recvCell (pk c 2) (rj 2))
    ∗ cellInv ER (xRd m) (K (pk c 3, kR (rj 3))) (recvCell (pk c 3) (rj 3)))

instance invs_persistent : BI.Persistent (invs m K c) := by unfold invs; infer_instance

end Ghost

section Lin
variable (c : Dev nD)

/-- Its positions: round 0, nothing taken, of each of its seven cells. -/
def poss : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- Round 0 of every cell it pays into is reached. -/
def reacheds : sProp 𝕄 :=
  iprop(reached ER (barCell (pk c 1)) 0 ∗ reached ER (barCell (pk c 2)) 0 ∗ reached ER (barCell (pk c 3)) 0
    ∗ reached ER (recvCell (pk c 1) (rj 1)) 0 ∗ reached ER (recvCell (pk c 2) (rj 2)) 0 ∗ reached ER (recvCell (pk c 3) (rj 3)) 0
    ∗ reached ER (sendCell c 0) 0 ∗ reached ER (sendCell c 1) 0 ∗ reached ER (sendCell c 2) 0)

instance reacheds_persistent : BI.Persistent (reacheds (F := F) c) := by unfold reacheds; infer_instance

/-- The barrier units it pays: to the device d places on it is the device 4 - d places on. -/
def barToks : sProp 𝕄 :=
  iprop(dutyTok ER (barCell (pk c 1)) 0 (3 : Fin 4) ∗ dutyTok ER (barCell (pk c 2)) 0 (2 : Fin 4) ∗ dutyTok ER (barCell (pk c 3)) 0 (1 : Fin 4))

/-- The rows it pays: landing at the three peers, and leaving on its own three send cells. -/
def xferToks : sProp 𝕄 :=
  iprop(dutyTok ER (recvCell (pk c 1) (rj 1)) 0 (0 : Fin 4) ∗ dutyTok ER (recvCell (pk c 2) (rj 2)) 0 (0 : Fin 4) ∗ dutyTok ER (recvCell (pk c 3) (rj 3)) 0 (0 : Fin 4)
    ∗ dutyTok ER (sendCell c 0) 0 (0 : Fin 4) ∗ dutyTok ER (sendCell c 1) 0 (0 : Fin 4) ∗ dutyTok ER (sendCell c 2) 0 (0 : Fin 4))

/-- The credit dealt at launch: three units on its barrier cell, a row's on each receive cell. -/
def creds : sProp 𝕄 :=
  iprop(cred (tallyAt (barCell c) () 3) ∗ cred (tallyAt (recvCell c 0) () N) ∗ cred (tallyAt (recvCell c 1) () N) ∗ cred (tallyAt (recvCell c 2) () N))

end Lin

/-- What device c's body starts step 0 from, the exchange buffer apart. -/
def start (c : Dev nD) : sProp 𝕄 :=
  iprop((∃ K, invs m K c ∗ poss c ∗ reacheds c ∗ barToks c ∗ xferToks c) ∗ creds c ∗ levAts L lv)
/-- The same once the three barrier units are paid. -/
def mid (c : Dev nD) : sProp 𝕄 :=
  iprop((∃ K, invs m K c ∗ poss c ∗ reacheds c ∗ xferToks c) ∗ creds c ∗ levAts L lv)

/-- Before step 0. -/
def Φ₀ (c : Dev nD) : sProp 𝕄 := iprop(start m c ∗ ∃ f, commPts c fullShare f)
/-- Between steps: slot 0 holds the running maxima a. -/
def Φm (c : Dev nD) (a : Vec F S1x1x512 .f32) : sProp 𝕄 := iprop(mid m c ∗ slotPts c 0 fullShare (spread c a))
/-- After step 3: the four rows in the buffer, the six own cells at zero. -/
def Φe (c : Dev nD) : sProp 𝕄 :=
  iprop(commPts c fullShare (gathered m c)
    ∗ semVal (sendCell c 0) 0 ∗ semVal (sendCell c 1) 0 ∗ semVal (sendCell c 2) 0
    ∗ semVal (recvCell c 0) 0 ∗ semVal (recvCell c 1) 0 ∗ semVal (recvCell c 2) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => outAt m c
  Φ t := match t with
    | ⟨0, _⟩ => Φ₀ m c
    | ⟨1, _⟩ => Φm m c (acc0 m c)
    | ⟨2, _⟩ => Φm m c (acc1 m c)
    | ⟨3, _⟩ => Φm m c (acc2 m c)
    | ⟨_ + 4, _⟩ => Φe m c
  q _ := fullShare
  owed t := match t with
    | ⟨0, _⟩ => O₀ c
    | ⟨1, _⟩ => O₃ c
    | ⟨2, _⟩ => O₃ c
    | ⟨3, _⟩ => O₃ c
    | ⟨_ + 4, _⟩ => 0

/-- The body obligation at one step t of device c. -/
def BodyAt (c : Dev nD) (t : Fin cfg0.N) : Prop :=
  iprop((dats m ρ 0 c).Φ t.castSucc ∗ (dats m ρ 0 c).owesAt () t.castSucc
      ∗ bigSep Finset.univ fun w : Fin cfg0.W => iprop(∃ d, owns c ((cfg0.win w).stage (cfg0.slots t w)) fullShare ((dats m ρ 0 c).before w t d)))
    ⊢ wp frame (wpE (defs₀ (F := F)) 𝒱₀ c none) Set.univ (defs₀ .tc cfg0.body (cfg0.bodyArgs t (cfg0.slots t))) fun _ =>
        iprop((dats m ρ 0 c).Φ t.succ ∗ (dats m ρ 0 c).owesAt () t.succ
          ∗ bigSep Finset.univ fun w : Fin cfg0.W => (dats m ρ 0 c).leavesExact w t)

theorem body_of_steps (c : Dev nD) (h0 : BodyAt m ρ c t0_0) (h1 : BodyAt m ρ c t0_1) (h2 : BodyAt m ρ c t0_2) (h3 : BodyAt m ρ c t0_3) :
    BodyObligation (dats (F := F) m ρ 0 c) (defs₀ (F := F)) 𝒱₀ () Set.univ := fun t => by
  rcases fin_N0 t with rfl | rfl | rfl | rfl
  · exact h0
  · exact h1
  · exact h2
  · exact h3

end Cert.KB

end
-- ==== Proof.KBViews.lean ====
/- Reading and writing the exchange buffer slot by slot: what a load of slot 0 sees, what a store into slot 0 and a copy
   landing in slot s leave there, and that the buffer is its four slots side by side. Index arithmetic only. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBProto
import Idealize.ShloMosaic.Lib.Pipeline.Value
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The rectangle of slot 0 and the rectangle of the whole buffer, as the body's loads and stores spell them. -/
abbrev rect0 : Rect S4x1x512 := Rect.unit (s := S4x1x512) ![0, 0, 0] S1x1x512.size Facts₀.inb_S4x1x512_S1x1x512_0_0_0
abbrev rectAll : Rect S4x1x512 := Rect.unit (s := S4x1x512) ![0, 0, 0] S4x1x512.size Facts₀.inb_S4x1x512_S4x1x512_0_0_0

/-- A row laid into every slot, read at the element under index z of the rectangle of slot k, is the row at z: the
    rectangle's offsets on the last two axes are zero. -/
theorem spread_rect (c : Dev nD) (v : Vec F S1x1x512 .f32) (k : ℕ) (inb : ∀ a, (![k, 0, 0] : Fin 3 → ℕ) a + S1x1x512.size a ≤ S4x1x512.size a)
    (z : S1x1x512.Idx) : spread c v ((Rect.unit (s := S4x1x512) ![k, 0, 0] S1x1x512.size inb).emb z) = v z := by
  show v (ValueIdx.ix3 (0 : Fin 1) (((Rect.unit (s := S4x1x512) ![k, 0, 0] S1x1x512.size inb).emb z) 1) (((Rect.unit (s := S4x1x512) ![k, 0, 0] S1x1x512.size inb).emb z) 2)) = v z
  congr 1
  funext d
  fin_cases d
  · exact Fin.ext (Nat.lt_one_iff.mp (z 0).isLt).symm
  · exact Fin.ext (by show 0 + 1 * (z 1).val = (z 1).val; omega)
  · exact Fin.ext (by show 0 + 1 * (z 2).val = (z 2).val; omega)

/-- Slot 0's elements are those of its rectangle: dropping the unit axis moves no element. -/
theorem slot0_set : (slot 0).view.set = ((commM : Memref sig .tc .vmem S4x1x512 .f32).access rect0).set := View.set_reshape _ _

/-- A load of slot 0 from a buffer that holds the row a in every slot reads a. -/
theorem read_slot0_spread (c : Dev nD) (a : Vec F S1x1x512 .f32) :
    commM.view.readAt (Elt F) rect0.toLoadRect (spread c a) = a := by
  funext x
  exact spread_rect c a 0 _ x

/-- The elements a load or a store of slot 0 touches are slot 0's. -/
theorem setOn_load0 : (commM : Memref sig .tc .vmem S4x1x512 .f32).view.setOn rect0.toLoadRect.set ⊆ (slot 0).view.set := by
  rw [slot0_set, View.set_slice]
  exact Finset.Subset.refl _
theorem setOn_store0 : ((commM : Memref sig .tc .vmem S4x1x512 .f32).access rect0).setOn Finset.univ ⊆ (slot 0).view.set := by
  rw [slot0_set, View.setOn_univ]

/-- After a store of the row v into slot 0, slot 0 is described by v laid into every slot. -/
theorem store_slot0 (c : Dev nD) (q : PosShare TreeShare) (f : CommBuf (F := F) c) (v : Vec F S1x1x512 .f32) :
    ((slot 0).view.loc (c : Thread nD τ) ↦[(slot 0).view.set]{q} ((commM.access rect0).write (Elt F) f v Finset.univ) : sProp 𝕄)
      = slotPts c 0 q (spread c v) := by
  unfold slotPts
  refine pointsTo_congr fun i hi => ?_
  rw [slot0_set] at hi
  obtain ⟨y, rfl⟩ := View.exists_emb_of_mem_set _ hi
  rw [View.write_emb_of_mem _ _ (Finset.mem_univ y)]
  exact (spread_rect c v 0 _ y).symm

/-- The element of the buffer under index y of slot s is the element of slot s's rectangle under y behind a leading 0;
    a row laid into every slot reads there as the row at that index, whichever slot it is. -/
theorem spread_slot0 (c : Dev nD) (v : Vec F S1x1x512 .f32) (y : S1x512.Idx) :
    spread c v ((slot 0).view.emb y) = v (Shape.reshapeEquiv Facts₀.squeezes_S1x1x512_S1x512.numel_eq y) := spread_rect c v 0 _ _
theorem spread_slot1 (c : Dev nD) (v : Vec F S1x1x512 .f32) (y : S1x512.Idx) :
    spread c v ((slot 1).view.emb y) = v (Shape.reshapeEquiv Facts₀.squeezes_S1x1x512_S1x512.numel_eq y) := spread_rect c v 1 _ _
theorem spread_slot2 (c : Dev nD) (v : Vec F S1x1x512 .f32) (y : S1x512.Idx) :
    spread c v ((slot 2).view.emb y) = v (Shape.reshapeEquiv Facts₀.squeezes_S1x1x512_S1x512.numel_eq y) := spread_rect c v 2 _ _
theorem spread_slot3 (c : Dev nD) (v : Vec F S1x1x512 .f32) (y : S1x512.Idx) :
    spread c v ((slot 3).view.emb y) = v (Shape.reshapeEquiv Facts₀.squeezes_S1x1x512_S1x512.numel_eq y) := spread_rect c v 3 _ _

/-- A copy of device c′'s slot 0, which holds the row a, landed in slot s of device c: slot s is described by a. -/
theorem landed_slot1 (c c' : Dev nD) (fd : CommBuf (F := F) c) (a : Vec F S1x1x512 .f32) :
    ((slot 1).view.loc (c : Thread nD τ) ↦[(slot 1).view.set]{fullShare} ((slot 1).view.write (Elt F) fd ((slot 0).view.read (Elt F) (spread c' a)) Finset.univ) : sProp 𝕄)
      = slotPts c 1 fullShare (spread c a) := by
  unfold slotPts
  refine pointsTo_congr fun i hi => ?_
  obtain ⟨y, rfl⟩ := View.exists_emb_of_mem_set _ hi
  rw [View.write_emb_of_mem _ _ (Finset.mem_univ y)]
  exact (spread_slot0 c' a y).trans (spread_slot1 c a y).symm
theorem landed_slot2 (c c' : Dev nD) (fd : CommBuf (F := F) c) (a : Vec F S1x1x512 .f32) :
    ((slot 2).view.loc (c : Thread nD τ) ↦[(slot 2).view.set]{fullShare} ((slot 2).view.write (Elt F) fd ((slot 0).view.read (Elt F) (spread c' a)) Finset.univ) : sProp 𝕄)
      = slotPts c 2 fullShare (spread c a) := by
  unfold slotPts
  refine pointsTo_congr fun i hi => ?_
  obtain ⟨y, rfl⟩ := View.exists_emb_of_mem_set _ hi
  rw [View.write_emb_of_mem _ _ (Finset.mem_univ y)]
  exact (spread_slot0 c' a y).trans (spread_slot2 c a y).symm
theorem landed_slot3 (c c' : Dev nD) (fd : CommBuf (F := F) c) (a : Vec F S1x1x512 .f32) :
    ((slot 3).view.loc (c : Thread nD τ) ↦[(slot 3).view.set]{fullShare} ((slot 3).view.write (Elt F) fd ((slot 0).view.read (Elt F) (spread c' a)) Finset.univ) : sProp 𝕄)
      = slotPts c 3 fullShare (spread c a) := by
  unfold slotPts
  refine pointsTo_congr fun i hi => ?_
  obtain ⟨y, rfl⟩ := View.exists_emb_of_mem_set _ hi
  rw [View.write_emb_of_mem _ _ (Finset.mem_univ y)]
  exact (spread_slot0 c' a y).trans (spread_slot3 c a y).symm

/-- An element lies in the rectangle of row k exactly when its first coordinate is k. -/
theorem mem_rect_row (k : ℕ) (inb : ∀ a, (![k, 0, 0] : Fin 3 → ℕ) a + S1x1x512.size a ≤ S4x1x512.size a) (i : S4x1x512.Idx) :
    i ∈ (Rect.unit (s := S4x1x512) ![k, 0, 0] S1x1x512.size inb).set ↔ (i 0).val = k := by
  rw [Rect.mem_set_unit]
  constructor
  · intro h
    have h0 := h 0
    have : (![k, 0, 0] : Fin 3 → ℕ) 0 = k := rfl
    have : S1x1x512.size 0 = 1 := rfl
    omega
  · intro h a
    fin_cases a
    · show k ≤ (i 0).val ∧ (i 0).val < k + 1
      omega
    · have := (i 1).isLt
      show 0 ≤ (i 1).val ∧ (i 1).val < 0 + 1
      have h1 : S4x1x512.size 1 = 1 := rfl
      omega
    · have := (i 2).isLt
      show 0 ≤ (i 2).val ∧ (i 2).val < 0 + 512
      have h2 : S4x1x512.size 2 = 512 := rfl
      omega

/-- Slot s's elements are those whose first coordinate is s. -/
theorem mem_slot0 (i : S4x1x512.Idx) : i ∈ (slot 0).view.set ↔ (i 0).val = 0 := by
  rw [show (slot 0).view.set = (Rect.unit (s := S4x1x512) ![0, 0, 0] S1x1x512.size Facts₀.inb_S4x1x512_S1x1x512_0_0_0).set from (View.set_reshape _ _).trans (View.set_slice_whole _ _)]
  exact mem_rect_row 0 _ i
theorem mem_slot1 (i : S4x1x512.Idx) : i ∈ (slot 1).view.set ↔ (i 0).val = 1 := by
  rw [show (slot 1).view.set = (Rect.unit (s := S4x1x512) ![1, 0, 0] S1x1x512.size Facts₀.inb_S4x1x512_S1x1x512_1_0_0).set from (View.set_reshape _ _).trans (View.set_slice_whole _ _)]
  exact mem_rect_row 1 _ i
theorem mem_slot2 (i : S4x1x512.Idx) : i ∈ (slot 2).view.set ↔ (i 0).val = 2 := by
  rw [show (slot 2).view.set = (Rect.unit (s := S4x1x512) ![2, 0, 0] S1x1x512.size Facts₀.inb_S4x1x512_S1x1x512_2_0_0).set from (View.set_reshape _ _).trans (View.set_slice_whole _ _)]
  exact mem_rect_row 2 _ i
theorem mem_slot3 (i : S4x1x512.Idx) : i ∈ (slot 3).view.set ↔ (i 0).val = 3 := by
  rw [show (slot 3).view.set = (Rect.unit (s := S4x1x512) ![3, 0, 0] S1x1x512.size Facts₀.inb_S4x1x512_S1x1x512_3_0_0).set from (View.set_reshape _ _).trans (View.set_slice_whole _ _)]
  exact mem_rect_row 3 _ i

omit [FloatOps F] in
/-- The buffer is its four slots side by side, at any one share and contents. -/
theorem comm_split (c : Dev nD) (q : PosShare TreeShare) (f : CommBuf (F := F) c) :
    (commPts c q f : sProp 𝕄) ⊣⊢ iprop(slotPts c 0 q f ∗ slotPts c 1 q f ∗ slotPts c 2 q f ∗ slotPts c 3 q f) := by
  unfold commPts slotPts
  have hu : (Finset.univ : Finset S4x1x512.Idx) = (slot 0).view.set ∪ ((slot 1).view.set ∪ ((slot 2).view.set ∪ (slot 3).view.set)) := by
    ext i
    simp only [Finset.mem_univ, Finset.mem_union, true_iff]
    rw [mem_slot0, mem_slot1, mem_slot2, mem_slot3]
    have := (i 0).isLt
    have h0 : S4x1x512.size 0 = 4 := rfl
    omega
  have d0 : Disjoint (slot 0).view.set ((slot 1).view.set ∪ ((slot 2).view.set ∪ (slot 3).view.set)) := by
    rw [Finset.disjoint_left]; intro i h0 h
    simp only [Finset.mem_union] at h
    rw [mem_slot0] at h0; rw [mem_slot1, mem_slot2, mem_slot3] at h
    omega
  have d1 : Disjoint (slot 1).view.set ((slot 2).view.set ∪ (slot 3).view.set) := by
    rw [Finset.disjoint_left]; intro i h0 h
    simp only [Finset.mem_union] at h
    rw [mem_slot1] at h0; rw [mem_slot2, mem_slot3] at h
    omega
  have d2 : Disjoint (slot 2).view.set (slot 3).view.set := by
    rw [Finset.disjoint_left]; intro i h0 h
    rw [mem_slot2] at h0; rw [mem_slot3] at h
    omega
  have e0 := pointsTo_union (ℓ := ((c : Thread nD τ).loc cc0_scratch0)) (q := q) (f := f) (Val := Elt F) (Ix := Unit) (Name := ℕ) (U := UU) (Lvl := ℕ) d0
  have e1 := pointsTo_union (ℓ := ((c : Thread nD τ).loc cc0_scratch0)) (q := q) (f := f) (Val := Elt F) (Ix := Unit) (Name := ℕ) (U := UU) (Lvl := ℕ) d1
  have e2 := pointsTo_union (ℓ := ((c : Thread nD τ).loc cc0_scratch0)) (q := q) (f := f) (Val := Elt F) (Ix := Unit) (Name := ℕ) (U := UU) (Lvl := ℕ) d2
  have E0 := (BI.equiv_iff (M := 𝕄)).mp ⟨e0.1, e0.2⟩
  have E1 := (BI.equiv_iff (M := 𝕄)).mp ⟨e1.1, e1.2⟩
  have E2 := (BI.equiv_iff (M := 𝕄)).mp ⟨e2.1, e2.2⟩
  refine BIBase.BiEntails.of_eq ?_
  show (((c : Thread nD τ).loc cc0_scratch0) ↦[(Finset.univ : Finset S4x1x512.Idx)]{q} f : sProp 𝕄) = _
  rw [hu, E0, E1, E2]

/-- In slot s the gathered buffer holds the row of the device s places on: the first coordinate there is s. -/
theorem gathered_slot0 (c : Dev nD) (q : PosShare TreeShare) :
    (slotPts c 0 q (spread c (acc3 m (pk c 0))) : sProp 𝕄) = slotPts c 0 q (gathered m c) := by
  unfold slotPts
  refine pointsTo_congr fun i hi => ?_
  have h0 : (⟨(i 0).val, (i 0).isLt⟩ : Fin 4) = 0 := Fin.ext ((mem_slot0 i).mp hi)
  show acc3 m (pk c 0) _ = acc3 m (pk c ⟨(i 0).val, (i 0).isLt⟩) _
  rw [h0]
theorem gathered_slot1 (c : Dev nD) (q : PosShare TreeShare) :
    (slotPts c 1 q (spread c (acc3 m (pk c 1))) : sProp 𝕄) = slotPts c 1 q (gathered m c) := by
  unfold slotPts
  refine pointsTo_congr fun i hi => ?_
  have h0 : (⟨(i 0).val, (i 0).isLt⟩ : Fin 4) = 1 := Fin.ext ((mem_slot1 i).mp hi)
  show acc3 m (pk c 1) _ = acc3 m (pk c ⟨(i 0).val, (i 0).isLt⟩) _
  rw [h0]
theorem gathered_slot2 (c : Dev nD) (q : PosShare TreeShare) :
    (slotPts c 2 q (spread c (acc3 m (pk c 2))) : sProp 𝕄) = slotPts c 2 q (gathered m c) := by
  unfold slotPts
  refine pointsTo_congr fun i hi => ?_
  have h0 : (⟨(i 0).val, (i 0).isLt⟩ : Fin 4) = 2 := Fin.ext ((mem_slot2 i).mp hi)
  show acc3 m (pk c 2) _ = acc3 m (pk c ⟨(i 0).val, (i 0).isLt⟩) _
  rw [h0]
theorem gathered_slot3 (c : Dev nD) (q : PosShare TreeShare) :
    (slotPts c 3 q (spread c (acc3 m (pk c 3))) : sProp 𝕄) = slotPts c 3 q (gathered m c) := by
  unfold slotPts
  refine pointsTo_congr fun i hi => ?_
  have h0 : (⟨(i 0).val, (i 0).isLt⟩ : Fin 4) = 3 := Fin.ext ((mem_slot3 i).mp hi)
  show acc3 m (pk c 3) _ = acc3 m (pk c ⟨(i 0).val, (i 0).isLt⟩) _
  rw [h0]

/-- Slot s holding the row of the device s places on is slot s of the gathered buffer. -/
theorem slot_gathered (c : Dev nD) (s : Fin 4) (q : PosShare TreeShare) :
    (slotPts c s q (spread c (acc3 m (pk c s))) : sProp 𝕄) = slotPts c s q (gathered m c) := by
  match s with
  | 0 => exact gathered_slot0 m c q
  | 1 => exact gathered_slot1 m c q
  | 2 => exact gathered_slot2 m c q
  | 3 => exact gathered_slot3 m c q

omit [FloatOps F] in
/-- A load of the whole buffer reads its contents as they are. -/
theorem read_all (c : Dev nD) (f : CommBuf (F := F) c) : commM.view.readAt (Elt F) rectAll.toLoadRect f = f := by
  exact Memref.readAt_unit_zero (Elt F) cc0_scratch0 (by funext a; fin_cases a <;> rfl) _ f
theorem setOn_loadAll : (commM : Memref sig .tc .vmem S4x1x512 .f32).view.setOn rectAll.toLoadRect.set ⊆ Finset.univ := Finset.subset_univ _

end Cert.KB

end
-- ==== Proof.KBBody0.lean ====
/- Step 0 of a device's body. The device tells the three others, on their barrier semaphores, that it is inside the
   kernel: with the unit to the device d places on goes slot d of its own exchange buffer, free to be written. It then
   reduces its first 256 rows to one row of column maxima and stores that row into slot 0. What it still owes goes from
   the three barrier units and the three rows' credits down to the three rows' credits. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBData
import proofs.«900906_g7700000000000907_dist_max_ax0_shard0_i_m1024_n512_v7x_i4_f32_1_alg».proof.Proof.KBViews
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body0

/-! ## The first grid point: which branches run, which staging buffers are current -/

/-- At the first point only the first of the body's three branches runs. -/
theorem cond1_t0 : k0_cond1 (grid0.coords t0_0) = 1#1 := by decide
theorem cond2_t0 : Scalar.cmpi .ne (Scalar.extui (Scalar.cmpi .sgt (BitVec.ofNat 32 ((grid0.coords t0_0) 0).val) 0#32)) 0#32 = 0#1 := by decide
theorem cond3_t0 : k0_cond3 (grid0.coords t0_0) = 0#1 := by decide
theorem zero_ne_one1 : ((0#1 : BitVec 1) = 1#1) = False := eq_false (by decide)

/-- Both windows are on their first staging buffer; the result's window is idle and not written back. -/
theorem slot0_t0 : cfg0.slots t0_0 (0 : Fin 2) = (0 : Fin 2) := by decide
theorem slot1_t0 : cfg0.slots t0_0 (1 : Fin 2) = (0 : Fin 1) := by decide
theorem idle1_t0 : cfg0.idle 1 (cfg0.grid.coords t0_0) = true := by decide
theorem flush1_t0 : (cfg0.win 1).flush t0_0 = false := by
  have h := (flush0_1 t0_0).not
  simpa [t0_0] using h
theorem stage0_zero : stage0_0 0 = Memref.whole cc0_stg0_0 := rfl
theorem stage1_zero : stage0_1 0 = Memref.whole cc0_stg1_0 := rfl

theorem hz2 : (![0, 0] : Fin 2 → Nat) = fun _ => 0 := funext fun a => by fin_cases a <;> rfl

/-! ## The proof data at the first point -/

theorem Φ_at0 (c : Dev nD) : (dats m ρ 0 c).Φ t0_0.castSucc = Φ₀ m c := rfl
theorem Φ_at1 (c : Dev nD) : (dats m ρ 0 c).Φ t0_0.succ = Φm m c (acc0 m c) := rfl
theorem owed_at0 (c : Dev nD) : (dats m ρ 0 c).owed t0_0.castSucc = O₀ c := rfl
theorem owed_at1 (c : Dev nD) : (dats m ρ 0 c).owed t0_0.succ = O₃ c := rfl
theorem after0 (c : Dev nD) (t : Fin cfg0.N) : (dats m ρ 0 c).after 0 t = xblk m c t := rfl

/-- The input's staging buffer holds the device's block of the step when the body runs: the body leaves it in place. -/
theorem before0 (c : Dev nD) (t : Fin cfg0.N) (d) : (dats m ρ 0 c).before 0 t d = xblk m c t :=
  ((dats m ρ 0 c).before_in_eq_fetched 0 rfl (fun _ => rfl) (fun _ _ _ => rfl) (fun t => by rw [after0]; unfold Dat.blockOf; rfl) t d).trans
    (by unfold Dat.fetched Dat.blockOf; rfl)

theorem leaves0 (c : Dev nD) : (dats m ρ 0 c).leavesExact 0 t0_0 = owns c (Memref.whole cc0_stg0_0) fullShare (xblk m c t0_0) := by
  dsimp only [Dat.leavesExact]
  rw [slot0_t0, after0]

/-! ## What goes out with the three barrier units -/

/-- With the unit to the device d places on goes slot d of this device, at any contents. -/
theorem pay_to1 (c : Dev nD) : (xRd (F := F) m).payload (barCell (pk c 1)) 0 3
    = iprop(∃ f : CommBuf (F := F) c, (slot 1).view.loc (c : Thread nD τ) ↦[(slot 1).view.set]{fullShare} f) := by
  rw [payload_bar3]; unfold barPay
  rw [show pk (pk c 1) 3 = c from pk_pk_neg c 1]
  rfl
theorem pay_to2 (c : Dev nD) : (xRd (F := F) m).payload (barCell (pk c 2)) 0 2
    = iprop(∃ f : CommBuf (F := F) c, (slot 2).view.loc (c : Thread nD τ) ↦[(slot 2).view.set]{fullShare} f) := by
  rw [payload_bar2]; unfold barPay
  rw [show pk (pk c 2) 2 = c from pk_pk_neg c 2]
  rfl
theorem pay_to3 (c : Dev nD) : (xRd (F := F) m).payload (barCell (pk c 3)) 0 1
    = iprop(∃ f : CommBuf (F := F) c, (slot 3).view.loc (c : Thread nD τ) ↦[(slot 3).view.set]{fullShare} f) := by
  rw [payload_bar1]; unfold barPay
  rw [show pk (pk c 3) 1 = c from pk_pk_neg c 3]
  rfl

omit [FloatOps F] in
/-- The buffer cut into its slots: the three that go out, in the order they go, then the device's own. -/
theorem comm_cut (c : Dev nD) (f : CommBuf (F := F) c) :
    (commPts c fullShare f : sProp 𝕄) ⊢ iprop(((slot 1).view.loc (c : Thread nD τ) ↦[(slot 1).view.set]{fullShare} f)
      ∗ ((slot 2).view.loc (c : Thread nD τ) ↦[(slot 2).view.set]{fullShare} f)
      ∗ ((slot 3).view.loc (c : Thread nD τ) ↦[(slot 3).view.set]{fullShare} f)
      ∗ ((slot 0).view.loc (c : Thread nD τ) ↦[(slot 0).view.set]{fullShare} f)) := by
  refine (comm_split c fullShare f).1.trans ?_
  show iprop(((slot 0).view.loc (c : Thread nD τ) ↦[(slot 0).view.set]{fullShare} f)
      ∗ ((slot 1).view.loc (c : Thread nD τ) ↦[(slot 1).view.set]{fullShare} f)
      ∗ ((slot 2).view.loc (c : Thread nD τ) ↦[(slot 2).view.set]{fullShare} f)
      ∗ ((slot 3).view.loc (c : Thread nD τ) ↦[(slot 3).view.set]{fullShare} f)) ⊢ _
  iintro ⟨H0, H1, H2, H3⟩
  isplitl [H1]; · iexact H1
  isplitl [H2]; · iexact H2
  isplitl [H3]; · iexact H3
  iexact H0

end Body0

open Body0

attribute [local sl_rounds] duties_bar amount_bar pay_to1 pay_to2 pay_to3
attribute [local sl_canon] dev1_eq dev2_eq dev3_eq

/-- The body obligation at step 0: from the start state and the whole exchange buffer, the three barrier units are
    paid, each with its slot, and slot 0 ends holding the column maxima of the first block. -/
theorem body0 (c : Dev nD) : BodyAt m ρ c t0_0 := by
  unfold BodyAt
  rw [bigSep_W0, bigSep_W0]
  rw [Dat.leavesExact_idle (dats m ρ 0 c) (1 : Fin 2) t0_0 idle1_t0 flush1_t0, leaves0]
  simp only [before0, Φ_at0, Φ_at1, slot0_t0, slot1_t0, stage0_zero, stage1_zero]
  unfold Dat.owesAt Pipeline.owesWithin
  rw [owed_at0, owed_at1]
  show _ ⊢ wp frame _ Set.univ (cc0_body (grid0.coords t0_0) (Memref.whole cc0_stg0_0) (Memref.isWhole_whole _) (Memref.whole cc0_stg1_0) (Memref.isWhole_whole _) (Memref.whole cc0_scratch0) (Memref.isWhole_whole _) cc0_scratch1 cc0_scratch2) _
  simp only [cc0_body_eq_skeleton]; unfold cc0_body_skel
  simp only [cond1_t0, cond2_t0, cond3_t0, zero_ne_one1, ↓reduceDIte]
  unfold Φ₀ start O₀ owedB owns
  iintro ⟨⟨⟨⟨%K, #Hinv, Hpos, #Hreach, Htok, Hxf⟩, Hcr, #Hlev⟩, ⟨%f0, Hcomm⟩⟩, ⟨%W, %hW, HO⟩, ⟨%d0, %g0, %hg0, Hx⟩, ⟨%d1, %g1, %hg1, Hout⟩⟩
  ihave Hsl := (comm_cut c f0) $$ Hcomm
  unfold invs reacheds barToks
  icases Hsl with ⟨Hs1, Hs2, Hs3, Hs0⟩
  icases Hinv with ⟨#HIb, #HIs0, #HIs1, #HIs2, #HIr0, #HIr1, #HIr2, #HIb1, #HIb2, #HIb3, #HIx1, #HIx2, #HIx3⟩
  icases Hreach with ⟨#Hrb1, #Hrb2, #Hrb3, #Hrx1, #Hrx2, #Hrx3, #Hrs0, #Hrs1, #Hrs2⟩
  icases Htok with ⟨Ht1, Ht2, Ht3⟩
  -- the elements a load and a store of slot 0 touch are slot 0's
  have hL := setOn_load0
  have hS := setOn_store0
  -- the three signals, the two loads, the store
  sl_exec
  sl_step
  -- what was stored is the first block's column maxima
  have hv : body0.sl.v52 c g0 = xblk m c t0_0 := by
    unfold body0.sl.v52
    exact (Memref.readAt_unit_zero (Elt F) cc0_stg0_0 hz2 _ g0).trans hg0
  have e : k0_pay1 (body0.sl.v52 c g0) = acc0 m c := (congrArg k0_pay1 hv).trans rfl
  have hs : ((slot 0).view.loc (c : Thread nD τ) ↦[(slot 0).view.set]{fullShare} body0.sl.Hs0_w1 c f0 g0 : sProp 𝕄)
      = slotPts c 0 fullShare (spread c (acc0 m c)) := by
    unfold body0.sl.Hs0_w1; rw [e]; exact store_slot0 c fullShare f0 (acc0 m c)
  ihave Hs0 := (Entails.of_eq hs) $$ Hs0
  unfold Φm mid
  isplitl [Hpos Hxf Hcr Hs0]
  · isplitr [Hs0]
    · isplitl [Hpos Hxf]
      · iexists K
        isplitr
        · unfold invs
          isplitr; · iexact HIb
          isplitr; · iexact HIs0
          isplitr; · iexact HIs1
          isplitr; · iexact HIs2
          isplitr; · iexact HIr0
          isplitr; · iexact HIr1
          isplitr; · iexact HIr2
          isplitr; · iexact HIb1
          isplitr; · iexact HIb2
          isplitr; · iexact HIb3
          isplitr; · iexact HIx1
          isplitr; · iexact HIx2
          iexact HIx3
        isplitl [Hpos]; · iexact Hpos
        isplitr
        · unfold reacheds
          isplitr; · iexact Hrb1
          isplitr; · iexact Hrb2
          isplitr; · iexact Hrb3
          isplitr; · iexact Hrx1
          isplitr; · iexact Hrx2
          isplitr; · iexact Hrx3
          isplitr; · iexact Hrs0
          isplitr; · iexact Hrs1
          iexact Hrs2
        iexact Hxf
      isplitl [Hcr]; · iexact Hcr
      iexact Hlev
    · iexact Hs0
  isplitl [HO]
  · iexists W
    isplitr; · ipureintro; exact fun _ _ => Or.inl trivial
    iexact HO
  isplitl [Hx]
  · iexists g0
    isplitr; · ipureintro; exact hg0
    iexact Hx
  iexists d1
  iexists g1
  isplitr; · ipureintro; exact hg1
  iexact Hout

end Cert.KB

end
-- ==== Proof.KBBodyMid.lean ====
/- Steps 1 and 2 of a device's four steps. Only the middle branch of the body runs: it reads the running column maxima
   from slot 0 of the exchange buffer, reads the step's block of 256 rows from its staging buffer, and writes back into
   slot 0 the running maxima joined with the block's column maxima. Nothing is sent, signalled or waited for: what the
   device holds for the exchange, what it owes, and the two staging buffers pass through the step untouched. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBData
import proofs.«900906_g7700000000000907_dist_max_ax0_shard0_i_m1024_n512_v7x_i4_f32_1_alg».proof.Proof.KBViews
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace BodyMid

/-- A whole staging buffer held by its own elements; and held at contents equal to X. -/
abbrev stgPts (c : Dev nD) (b : Ref sig .tc) (f : Buf (Elt F) ((Memref.whole b : Memref sig .tc _ _ _).view.loc (c : Thread nD τ))) : sProp 𝕄 :=
  (Memref.whole b : Memref sig .tc _ _ _).view.loc (c : Thread nD τ) ↦[(Memref.whole b : Memref sig .tc _ _ _).view.set]{fullShare} f
abbrev stg (c : Dev nD) (b : Ref sig .tc) (X : b.ty.Contents (Elt F)) : sProp 𝕄 :=
  iprop(∃ f : Buf (Elt F) ((Memref.whole b : Memref sig .tc _ _ _).view.loc (c : Thread nD τ)), ⌜f = X⌝ ∗ stgPts c b f)
/-- Slot 0 of the exchange buffer held whole by its own elements. -/
abbrev slot0Pts (c : Dev nD) (f : CommBuf (F := F) c) : sProp 𝕄 :=
  (slot 0).view.loc (c : Thread nD τ) ↦[(slot 0).view.set]{fullShare} f

/-- The body's middle condition as the kernel computes it at a grid point: the step is not the first. -/
abbrev condMid (i : grid0.Coords) : BitVec 1 :=
  Scalar.cmpi .ne (Scalar.extui (Scalar.cmpi .sgt (BitVec.ofNat 32 (i 0).val) 0#32) : BitVec 32) 0#32

/-- At steps 1 and 2 the first and the last branch are not taken, the middle one is. -/
theorem cond1_t1 : ¬ k0_cond1 (grid0.coords t0_1) = 1#1 := by decide
theorem cond1_t2 : ¬ k0_cond1 (grid0.coords t0_2) = 1#1 := by decide
theorem cond3_t1 : ¬ k0_cond3 (grid0.coords t0_1) = 1#1 := by decide
theorem cond3_t2 : ¬ k0_cond3 (grid0.coords t0_2) = 1#1 := by decide
theorem cond2_t1 : condMid (grid0.coords t0_1) = 1#1 := by decide
theorem cond2_t2 : condMid (grid0.coords t0_2) = 1#1 := by decide

/-- What window 0's staging buffer holds when the body runs at step t: the step's block, fetched there or not. -/
theorem before0 (c : Dev nD) (t : Fin cfg0.N) (d) : (dats m ρ 0 c).before 0 t d = xblk m c t :=
  ((dats m ρ 0 c).before_in_eq_fetched 0 rfl (fun _ => rfl) (fun _ _ _ => rfl) (fun t => rfl) t d).trans rfl

omit [FloatOps F] in
/-- The elements an access of slot 0's rectangle goes through are slot 0's. -/
theorem set_access0 : ((commM : Memref sig .tc .vmem S4x1x512 .f32).access rect0).set ⊆ (slot 0).view.set := by
  rw [View.set_slice]; exact setOn_load0

omit [FloatOps F] in
theorem hz2 : (![0, 0] : Fin 2 → Nat) = fun _ => 0 := funext fun a => by fin_cases a <;> rfl

/-- The rectangle of a whole block of 256 rows. -/
abbrev rectBlk : Rect S256x512 := Rect.unit (s := S256x512) ![0, 0] S256x512.size Facts₀.inb_S256x512_S256x512_0_0

/-- Slot 0 after the step's store, when it held the row a in every slot's description and the block read is v: it is
    described by a joined with v's column maxima. -/
theorem slot0_after (c : Dev nD) (a : Vec F S1x1x512 .f32) (v : Vec F S256x512 .f32) :
    (slot0Pts c ((commM.access rect0).write (Elt F) (spread c a) (k0_pay2 (commM.view.readAt (Elt F) rect0.toLoadRect (spread c a)) v) Finset.univ) : sProp 𝕄)
      = slotPts c 0 fullShare (spread c (k0_pay2 a v)) := by
  rw [read_slot0_spread]; exact store_slot0 c fullShare _ _

/-- The body at a grid point where only the middle branch is taken, on any staging buffers: slot 0 goes from the
    running maxima a to a joined with the column maxima of what the block's staging buffer holds; that buffer is read
    and handed back as it was, the result row's staging buffer is not touched. -/
theorem mid_run (c : Dev nD) (i : grid0.Coords) (h1 : ¬ k0_cond1 i = 1#1) (h2 : condMid i = 1#1) (h3 : ¬ k0_cond3 i = 1#1)
    (arg1 : Memref sig .tc .vmem S256x512 .f32) (harg1 : arg1.IsWhole) (arg2 : Memref sig .tc .vmem S1x512 .f32) (harg2 : arg2.IsWhole)
    (a : Vec F S1x1x512 .f32) (f0 : Buf (Elt F) (arg1.view.loc (c : Thread nD τ))) (Kt : PUnit.{1} → sProp 𝕄) :
    iprop((slot0Pts c (spread c a) ∗ (arg1.view.loc (c : Thread nD τ) ↦[arg1.view.set]{fullShare} f0))
        ∗ ((slotPts c 0 fullShare (spread c (k0_pay2 a (arg1.view.readAt (Elt F) rectBlk.toLoadRect f0)))
            ∗ (arg1.view.loc (c : Thread nD τ) ↦[arg1.view.set]{fullShare} f0)) -∗ Kt ⟨⟩))
      ⊢ wp frame (wpE (defs₀ (F := F)) 𝒱₀ c none) Set.univ
          (cc0_body i arg1 harg1 arg2 harg2 (Memref.whole cc0_scratch0) (Memref.isWhole_whole _) cc0_scratch1 cc0_scratch2) Kt := by
  rw [cc0_body_eq_skeleton]; unfold cc0_body_skel
  iintro ⟨⟨Hs0, Hx⟩, HK⟩
  have hl0 := set_access0
  have hs0 := setOn_store0
  sl_exec
  sl_step
  iapply HK
  isplitl [Hs0]
  · irw [← slot0_after]
    unfold mid_run.sl.Hs0_w1 mid_run.sl.v12
    iexact Hs0
  iexact Hx

end BodyMid

/-- Step 1: from the running maxima after step 0 in slot 0 to those after step 1. -/
theorem body1 (c : Dev nD) : BodyAt m ρ c t0_1 := by
  unfold BodyAt
  rw [bigSep_W0, bigSep_W0]
  show iprop((mid m c ∗ BodyMid.slot0Pts c (spread c (acc0 m c))) ∗ (dats m ρ 0 c).owesAt () (t0_1).castSucc
      ∗ (∃ d, BodyMid.stg c cc0_stg0_1 ((dats m ρ 0 c).before 0 t0_1 d))
      ∗ (∃ d, BodyMid.stg c cc0_stg1_0 ((dats m ρ 0 c).before 1 t0_1 d)))
    ⊢ wp frame (wpE (defs₀ (F := F)) 𝒱₀ c none) Set.univ
        (cc0_body (grid0.coords t0_1) (Memref.whole cc0_stg0_1) (Memref.isWhole_whole _) (Memref.whole cc0_stg1_0) (Memref.isWhole_whole _)
          (Memref.whole cc0_scratch0) (Memref.isWhole_whole _) cc0_scratch1 cc0_scratch2) fun _ =>
        iprop((mid m c ∗ slotPts c 0 fullShare (spread c (acc1 m c))) ∗ (dats m ρ 0 c).owesAt () (t0_1).succ
          ∗ BodyMid.stg c cc0_stg0_1 (xblk m c t0_1)
          ∗ (∃ d, BodyMid.stg c cc0_stg1_0 ((dats m ρ 0 c).before 1 t0_1 d)))
  iintro ⟨⟨Hmid, Hs0⟩, HO, ⟨%d0, %f0, %hf0, Hx⟩, ⟨%d1, %f1, %hf1, Hout⟩⟩
  rw [BodyMid.before0] at hf0
  subst hf0
  iapply (BodyMid.mid_run c (grid0.coords t0_1) BodyMid.cond1_t1 BodyMid.cond2_t1 BodyMid.cond3_t1 (Memref.whole cc0_stg0_1) (Memref.isWhole_whole _)
    (Memref.whole cc0_stg1_0) (Memref.isWhole_whole _) (acc0 m c) (xblk m c t0_1) _)
  isplitl [Hs0 Hx]
  · isplitl [Hs0]; · iexact Hs0
    iexact Hx
  iintro ⟨Hs0, Hx⟩
  have hv : (Memref.whole cc0_stg0_1 : Memref sig .tc .vmem S256x512 .f32).view.readAt (Elt F) BodyMid.rectBlk.toLoadRect (xblk m c t0_1) = xblk m c t0_1 :=
    Memref.readAt_unit_zero (Elt F) cc0_stg0_1 BodyMid.hz2 _ _
  isplitl [Hmid Hs0]
  · isplitl [Hmid]; · iexact Hmid
    irw [show acc1 m c = k0_pay2 (acc0 m c) (xblk m c t0_1) from rfl, ← hv]
    iexact Hs0
  isplitl [HO]; · iexact HO
  isplitl [Hx]
  · iexists _; isplitr; · (ipureintro; rfl)
    iexact Hx
  iexists d1, f1; isplitr; · (ipureintro; exact hf1)
  iexact Hout

/-- Step 2: from the running maxima after step 1 in slot 0 to those after step 2. -/
theorem body2 (c : Dev nD) : BodyAt m ρ c t0_2 := by
  unfold BodyAt
  rw [bigSep_W0, bigSep_W0]
  show iprop((mid m c ∗ BodyMid.slot0Pts c (spread c (acc1 m c))) ∗ (dats m ρ 0 c).owesAt () (t0_2).castSucc
      ∗ (∃ d, BodyMid.stg c cc0_stg0_0 ((dats m ρ 0 c).before 0 t0_2 d))
      ∗ (∃ d, BodyMid.stg c cc0_stg1_0 ((dats m ρ 0 c).before 1 t0_2 d)))
    ⊢ wp frame (wpE (defs₀ (F := F)) 𝒱₀ c none) Set.univ
        (cc0_body (grid0.coords t0_2) (Memref.whole cc0_stg0_0) (Memref.isWhole_whole _) (Memref.whole cc0_stg1_0) (Memref.isWhole_whole _)
          (Memref.whole cc0_scratch0) (Memref.isWhole_whole _) cc0_scratch1 cc0_scratch2) fun _ =>
        iprop((mid m c ∗ slotPts c 0 fullShare (spread c (acc2 m c))) ∗ (dats m ρ 0 c).owesAt () (t0_2).succ
          ∗ BodyMid.stg c cc0_stg0_0 (xblk m c t0_2)
          ∗ (∃ d, BodyMid.stg c cc0_stg1_0 ((dats m ρ 0 c).before 1 t0_2 d)))
  iintro ⟨⟨Hmid, Hs0⟩, HO, ⟨%d0, %f0, %hf0, Hx⟩, ⟨%d1, %f1, %hf1, Hout⟩⟩
  rw [BodyMid.before0] at hf0
  subst hf0
  iapply (BodyMid.mid_run c (grid0.coords t0_2) BodyMid.cond1_t2 BodyMid.cond2_t2 BodyMid.cond3_t2 (Memref.whole cc0_stg0_0) (Memref.isWhole_whole _)
    (Memref.whole cc0_stg1_0) (Memref.isWhole_whole _) (acc1 m c) (xblk m c t0_2) _)
  isplitl [Hs0 Hx]
  · isplitl [Hs0]; · iexact Hs0
    iexact Hx
  iintro ⟨Hs0, Hx⟩
  have hv : (Memref.whole cc0_stg0_0 : Memref sig .tc .vmem S256x512 .f32).view.readAt (Elt F) BodyMid.rectBlk.toLoadRect (xblk m c t0_2) = xblk m c t0_2 :=
    Memref.readAt_unit_zero (Elt F) cc0_stg0_0 BodyMid.hz2 _ _
  isplitl [Hmid Hs0]
  · isplitl [Hmid]; · iexact Hmid
    irw [show acc2 m c = k0_pay2 (acc1 m c) (xblk m c t0_2) from rfl, ← hv]
    iexact Hs0
  isplitl [HO]; · iexact HO
  isplitl [Hx]
  · iexists _; isplitr; · (ipureintro; rfl)
    iexact Hx
  iexists d1, f1; isplitr; · (ipureintro; exact hf1)
  iexact Hout

/-- info: 'Cert.KB.body1' depends on axioms: [propext, Classical.choice, Quot.sound] -/
#guard_msgs in #print axioms body1
/-- info: 'Cert.KB.body2' depends on axioms: [propext, Classical.choice, Quot.sound] -/
#guard_msgs in #print axioms body2

end Cert.KB

end
-- ==== Proof.KBBody3Pre.lean ====
/- The last of the four steps, set-up: the conditions of the body decided at the last grid point, which staging buffers
   the body is handed there, the row a device sends, and a slot held outright as the four shares it is cut into (three
   lent to the three copies that read it, one kept). -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBData
import proofs.«900906_g7700000000000907_dist_max_ax0_shard0_i_m1024_n512_v7x_i4_f32_1_alg».proof.Proof.KBViews
import Idealize.ShloMosaic.Lib.Pipeline.Value
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The last step: the decided conditions, the staging buffers -/

theorem cond1_t3 : ¬ (k0_cond1 (grid0.coords t0_3) = 1#1) := by decide
theorem cond3_t3 : k0_cond3 (grid0.coords t0_3) = 1#1 := by decide
theorem cond2_t3 : Scalar.cmpi .ne (Scalar.extui (Scalar.cmpi .sgt (BitVec.ofNat 32 ((grid0.coords t0_3) 0).val) 0#32)) 0#32 = 1#1 := by decide
theorem stage0_t3 : stage0_0 (cfg0.slots t0_3 0) = Memref.whole cc0_stg0_1 := rfl
theorem stage1_t3 : stage0_1 (cfg0.slots t0_3 1) = Memref.whole cc0_stg1_0 := rfl

abbrev xM : Memref sig .tc .vmem S256x512 .f32 := Memref.whole cc0_stg0_1
abbrev oM : Memref sig .tc .vmem S1x512 .f32 := Memref.whole cc0_stg1_0

/-- The row every device sends: its column maxima after the four steps, laid into every slot. -/
abbrev f3 (c : Dev nD) : CommBuf (F := F) c := spread c (acc3 m c)

/-! ## Shares of a slot -/

omit [FloatOps F] in
theorem slot_halves (c : Dev nD) (s : Fin 4) (q : PosShare TreeShare) (f : CommBuf (F := F) c) :
    (slotPts c s q f : sProp 𝕄) = iprop(slotPts c s q.left f ∗ slotPts c s q.right f) := by
  unfold slotPts
  split <;> exact BI.equiv_iff.mp ⟨(pointsTo_share (PosShare.mem_left_op_right q)).1, (pointsTo_share (PosShare.mem_left_op_right q)).2⟩

omit [FloatOps F] in
/-- A slot held outright is its four shares: the three lent to the copies and the one kept. -/
theorem slot_split4 (c : Dev nD) (s : Fin 4) (f : CommBuf (F := F) c) :
    (slotPts c s fullShare f : sProp 𝕄)
      = iprop((slotPts c s (qS 0) f ∗ slotPts c s (qS 1) f) ∗ (slotPts c s (qS 2) f ∗ slotPts c s qK f)) := by
  rw [slot_halves c s fullShare, slot_halves c s fullShare.left, slot_halves c s fullShare.right]; rfl

end Cert.KB

end
-- ==== Proof.KBBody3Tail.lean ====
/- The end of the last step. The rows of the three peers have landed in slots 1, 2, 3. The device reads the whole exchange
   buffer through the one share of it that it kept (of slot 0, three further shares are still lent to its own three
   copies; a read needs no more than a share), stores the maximum over the four slots into the result row's staging
   buffer, and waits for its three copies to have been read out: each wait hands back the share of slot 0 that copy was
   lent. Its six cells, each past its single round with nothing of a later round taken, are then closed with their
   counters at zero, and the four shares of every slot are put together again: the device holds the exchange buffer
   outright, the four rows in it. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBData
import proofs.«900906_g7700000000000907_dist_max_ax0_shard0_i_m1024_n512_v7x_i4_f32_1_alg».proof.Proof.KBViews
import proofs.«900906_g7700000000000907_dist_max_ax0_shard0_i_m1024_n512_v7x_i4_f32_1_alg».proof.Proof.KBBody3Pre
import Idealize.ShloMosaic.Lib.Pipeline.Value
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tail of the last step -/

attribute [local sl_rounds] duties_send expect_send payload_send amount_send rest_send

/-- From the three receive waits on: the whole-buffer load, the result row's store, the three send waits; the device
    ends with the exchange buffer whole at the gathered contents, its six cells closed, and the result row's staging
    buffer at the maximum over the four slots. -/
theorem tail3 (K : Dev nD × Fin 7 → ℕ) (c : Dev nD) (W : Waits sig Unit) (g1 : Buf (Elt F) ((c : Thread nD τ).loc cc0_stg1_0)) (Kt : PUnit → sProp 𝕄) {h1 h2 h3 h4 h5 h6 h7 h8 h9 h10} :
  iprop(invs m K c
     ∗ (atPos ER (sendCell c 0) 0 ∅ 0 ∗ atPos ER (sendCell c 1) 0 ∅ 0 ∗ atPos ER (sendCell c 2) 0 ∅ 0)
     ∗ (atPos ER (recvCell c 0) 1 ∅ 0 ∗ atPos ER (recvCell c 1) 1 ∅ 0 ∗ atPos ER (recvCell c 2) 1 ∅ 0)
     ∗ (cred (tallyAt (sendCell c 0) () N) ∗ cred (tallyAt (sendCell c 1) () N) ∗ cred (tallyAt (sendCell c 2) () N))
     ∗ slotPts c 0 qK (f3 m c) ∗ recvPay m c 0 ∗ recvPay m c 1 ∗ recvPay m c 2
     ∗ owes (c : Thread nD τ) 0 W
     ∗ (((c : Thread nD τ).loc cc0_stg1_0) ↦{fullShare} g1)
     ∗ (∀ W', (Φe m c ∗ owes (c : Thread nD τ) 0 W' ∗ (((c : Thread nD τ).loc cc0_stg1_0) ↦{fullShare} outAt m c)) -∗ Kt ⟨⟩))
   ⊢ wp frame (wpE (defs₀ (F := F)) 𝒱₀ c none) Set.univ
      (.op (.load commM rectAll.toLoadRect h1) fun v100 =>
       .op (.load oM (Rect.unit (s := S1x512) ![0, 0] S1x512.size Facts₀.inb_S1x512_S1x512_0_0).toLoadRect h2) fun v102 =>
       .op (.store oM (Rect.unit (s := S1x512) ![0, 0] S1x512.size Facts₀.inb_S1x512_S1x512_0_0) (k0_pay3 v100) Finset.univ h3 h4) fun _ =>
       .op (.waitDma2 (sendS 1) (slot 2) (slot 0) h5 h6) fun _ =>
       .op (.waitDma2 (sendS 0) (slot 3) (slot 0) h7 h8) fun _ =>
       .op (.waitDma2 (sendS 2) (slot 1) (slot 0) h9 h10) fun _ => .ret ⟨⟩) Kt := by
  -- slot 0 holds the device's own row, which is slot 0 of the gathered buffer (the device 0 places on is itself)
  have e0 : (slotPts c 0 qK (f3 m c) : sProp 𝕄) = slotPts c 0 qK (gathered m c) := by
    have h := slot_gathered m c 0 qK
    rwa [pk_zero] at h
  -- each landed slot, held outright, is slot s of the gathered buffer, cut into its four shares
  rw [e0, show recvPay m c 0 = slotPts c 1 fullShare (spread c (acc3 m (pk c 1))) from rfl,
    show recvPay m c 1 = slotPts c 2 fullShare (spread c (acc3 m (pk c 2))) from rfl,
    show recvPay m c 2 = slotPts c 3 fullShare (spread c (acc3 m (pk c 3))) from rfl,
    slot_gathered m c 1 fullShare, slot_gathered m c 2 fullShare, slot_gathered m c 3 fullShare,
    slot_split4 c 1 (gathered m c), slot_split4 c 2 (gathered m c), slot_split4 c 3 (gathered m c)]
  unfold invs
  iintro ⟨⟨-, #IS0, #IS1, #IS2, #IR0, #IR1, #IR2, -⟩, ⟨HaS0, HaS1, HaS2⟩, ⟨HaR0, HaR1, HaR2⟩, ⟨Hc0, Hc1, Hc2⟩, HK0, ⟨⟨H1a, H1b⟩, ⟨H1c, H1K⟩⟩, ⟨⟨H2a, H2b⟩, ⟨H2c, H2K⟩⟩, ⟨⟨H3a, H3b⟩, ⟨H3c, H3K⟩⟩, HO, Hout, Hk⟩
  -- the kept share of the four slots side by side is the kept share of the whole buffer
  ihave Hcomm := (comm_split c qK (gathered m c)).2 $$ [HK0 H1K H2K H3K]
  · isplitl [HK0]; · iexact HK0
    isplitl [H1K]; · iexact H1K
    isplitl [H2K]; · iexact H2K
    iexact H3K
  unfold commPts
  ihave Hcomm := (Entails.of_eq (show (((c : Thread nD τ).loc cc0_scratch0) ↦{qK} gathered m c : sProp 𝕄) = ((commM.view.loc (c : Thread nD τ)) ↦{qK} gathered m c) from rfl)) $$ Hcomm
  ihave Hout := (Entails.of_eq (show (((c : Thread nD τ).loc cc0_stg1_0) ↦{fullShare} g1 : sProp 𝕄) = ((oM.view.loc (c : Thread nD τ)) ↦{fullShare} g1) from rfl)) $$ Hout
  -- the two loads, the store, and the three waits, each for the whole of its cell's one round
  sl_exec
  -- what the three send cells gave back: the lent shares of slot 0
  have hp : ∀ j : Fin 3, (bigSep ((xRd (F := F) m).duties (sendCell c j) 0) (fun d => (xRd (F := F) m).payload (sendCell c j) 0 d) : sProp 𝕄)
      = slotPts c 0 (qS j) (gathered m c) := by
    intro j
    rw [duties_send, bigSep_singleton, payload_send]
    have h := slot_gathered m c 0 (qS j)
    rw [pk_zero] at h
    exact h
  ihave P0 := (Entails.of_eq (hp 0)) $$ HaS0_pay1
  ihave P1 := (Entails.of_eq (hp 1)) $$ HaS1_pay1
  ihave P2 := (Entails.of_eq (hp 2)) $$ HaS2_pay1
  -- the kept share of the buffer, slot by slot again
  ihave Hcomm := (Entails.of_eq (show ((commM.view.loc (c : Thread nD τ)) ↦{qK} gathered m c : sProp 𝕄) = commPts c qK (gathered m c) from rfl)) $$ Hcomm
  ihave Hs := (comm_split c qK (gathered m c)).1 $$ Hcomm
  icases Hs with ⟨H0K, H1K, H2K, H3K⟩
  -- every slot's four shares make the slot held outright, and the four slots the buffer
  ihave S0 := (Entails.of_eq (slot_split4 c 0 (gathered m c)).symm) $$ [P0 P1 P2 H0K]
  · isplitl [P0 P1]
    · isplitl [P0]; · iexact P0
      iexact P1
    · isplitl [P2]; · iexact P2
      iexact H0K
  ihave S1 := (Entails.of_eq (slot_split4 c 1 (gathered m c)).symm) $$ [H1a H1b H1c H1K]
  · isplitl [H1a H1b]
    · isplitl [H1a]; · iexact H1a
      iexact H1b
    · isplitl [H1c]; · iexact H1c
      iexact H1K
  ihave S2 := (Entails.of_eq (slot_split4 c 2 (gathered m c)).symm) $$ [H2a H2b H2c H2K]
  · isplitl [H2a H2b]
    · isplitl [H2a]; · iexact H2a
      iexact H2b
    · isplitl [H2c]; · iexact H2c
      iexact H2K
  ihave S3 := (Entails.of_eq (slot_split4 c 3 (gathered m c)).symm) $$ [H3a H3b H3c H3K]
  · isplitl [H3a H3b]
    · isplitl [H3a]; · iexact H3a
      iexact H3b
    · isplitl [H3c]; · iexact H3c
      iexact H3K
  ihave HC := (comm_split c fullShare (gathered m c)).2 $$ [S0 S1 S2 S3]
  · isplitl [S0]; · iexact S0
    isplitl [S1]; · iexact S1
    isplitl [S2]; · iexact S2
    iexact S3
  -- the six own cells: no round from round 1 on has a duty, so each is closed and its counter is zero
  imod (Rounds.cell_close ER (xRd m) (Set.mem_univ (K (c, kS 0))) (fun h => h) (R := 1) (duties_later m (sendCell c 0))) $$ [HaS0] with Hz0
  · isplitr; · iexact IS0
    iexact HaS0
  imod (Rounds.cell_close ER (xRd m) (Set.mem_univ (K (c, kS 1))) (fun h => h) (R := 1) (duties_later m (sendCell c 1))) $$ [HaS1] with Hz1
  · isplitr; · iexact IS1
    iexact HaS1
  imod (Rounds.cell_close ER (xRd m) (Set.mem_univ (K (c, kS 2))) (fun h => h) (R := 1) (duties_later m (sendCell c 2))) $$ [HaS2] with Hz2
  · isplitr; · iexact IS2
    iexact HaS2
  imod (Rounds.cell_close ER (xRd m) (Set.mem_univ (K (c, kR 0))) (fun h => h) (R := 1) (duties_later m (recvCell c 0))) $$ [HaR0] with Hy0
  · isplitr; · iexact IR0
    iexact HaR0
  imod (Rounds.cell_close ER (xRd m) (Set.mem_univ (K (c, kR 1))) (fun h => h) (R := 1) (duties_later m (recvCell c 1))) $$ [HaR1] with Hy1
  · isplitr; · iexact IR1
    iexact HaR1
  imod (Rounds.cell_close ER (xRd m) (Set.mem_univ (K (c, kR 2))) (fun h => h) (R := 1) (duties_later m (recvCell c 2))) $$ [HaR2] with Hy2
  · isplitr; · iexact IR2
    iexact HaR2
  -- the staging buffer of the result row: the load of the whole buffer read its contents as they are, and the store
  -- wrote the whole row, the maximum over the four slots
  have hv : oM.view.writes (Elt F) g1 [⟨Rect.unit (s := S1x512) ![0, 0] S1x512.size Facts₀.inb_S1x512_S1x512_0_0,
      k0_pay3 (commM.view.readAt (Elt F) rectAll.toLoadRect (gathered m c))⟩] = outAt m c := by
    rw [read_all]
    exact Memref.write_access_unit_zero_univ (Elt F) cc0_stg1_0 (off := ![0, 0])
      (show (![0, 0] : Fin 2 → ℕ) = fun _ => 0 from by funext a; fin_cases a <;> rfl) Facts₀.inb_S1x512_S1x512_0_0 g1 (k0_pay3 (gathered m c))
  ihave Hout := (Entails.of_eq (congrArg (fun f => (((c : Thread nD τ).loc cc0_stg1_0) ↦{fullShare} f : sProp 𝕄)) hv)) $$ Hout
  sl_step
  iapply Hk $$ %_
  unfold Φe
  isplitl [HC Hz0 Hz1 Hz2 Hy0 Hy1 Hy2]
  · isplitl [HC]; · iexact HC
    isplitl [Hz0]; · iexact Hz0
    isplitl [Hz1]; · iexact Hz1
    isplitl [Hz2]; · iexact Hz2
    isplitl [Hy0]; · iexact Hy0
    isplitl [Hy1]; · iexact Hy1
    iexact Hy2
  isplitl [HO]; · iexact HO
  iexact Hout

/-- info: 'Cert.KB.tail3' depends on axioms: [propext, Classical.choice, Quot.sound] -/
#guard_msgs in #print axioms tail3

end Cert.KB

end
-- ==== Proof.KBBody3.lean ====
/- The last of the four steps of a device's body. The running column maxima in slot 0 of the exchange buffer take in the last
   256 rows. Then the exchange: the device waits on its barrier cell for the three units of its peers, each of which brings
   the slot of that peer the device's row goes into; it cuts its own row into four shares, lends one to each of the three
   copies (2, 1 and 3 places on, in that order) and keeps one; it waits on its three receive cells for the three rows of the
   others; it reads the four rows at the share it kept, writes their maximum into the result's staging buffer, waits on its
   three send cells for the lent shares, closes its six own cells and holds its exchange buffer whole again. One lemma for
   each printed part, each from what the part needs to what it leaves, composed in program order. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBData
import proofs.«900906_g7700000000000907_dist_max_ax0_shard0_i_m1024_n512_v7x_i4_f32_1_alg».proof.Proof.KBViews
import Idealize.ShloMosaic.Lib.Pipeline.Value
import Idealize.ShloMosaic.Lib.Pipeline.Launch
import Idealize.ShloMosaic.Lib.Pipeline.Kit
import Idealize.ShloMosaic.Lib.Tactic
import proofs.«900906_g7700000000000907_dist_max_ax0_shard0_i_m1024_n512_v7x_i4_f32_1_alg».proof.Proof.KBBody3Pre
import proofs.«900906_g7700000000000907_dist_max_ax0_shard0_i_m1024_n512_v7x_i4_f32_1_alg».proof.Proof.KBBody3Tail

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Body3

theorem pk_back1 (c : Dev nD) : pk (pk c 1) 3 = c := by revert c; decide
theorem pk_back2 (c : Dev nD) : pk (pk c 2) 2 = c := by revert c; decide
theorem pk_back3 (c : Dev nD) : pk (pk c 3) 1 = c := by revert c; decide

set_option maxHeartbeats 800000 in
/-- The copy of the own row, read at the share lent on send semaphore 1, into slot 2 of the device 2 places on,
    landing on that device's receive semaphore 1: the addressed-transfer rule at these cells. -/
theorem wp_send_2 (K : Dev nD × Fin 7 → ℕ) (c n : Dev nD) (hn : n = pk c 2)
    {hsc : (slot 2 : Memref sig (Dev.tc n : Thread nD τ).2.kind .vmem S1x512 .f32).view.ref.isScScratch = false}
    {hsrc : (slot 0 : Memref sig .tc .vmem S1x512 .f32).view.WordExact} {hdst : (slot 2 : Memref sig .tc .vmem S1x512 .f32).view.WordExact}
    {hsem : DmaTarget.Typed .vmem (.dma (recvS 1)) (.remote (Dev.tc n : Thread nD τ) (slot 2 : Memref sig .tc .vmem S1x512 .f32) (.dma (sendS 1)) hsc)}
    {α : Type} {Q : α → sProp 𝕄} {k : PUnit → Prog (TpuEff nD τ sig (Elt F) Λ₀ .tc) α}
    (fd : CommBuf (F := F) (pk c 2)) (O₀ O : CellTallies nD τ sig Unit) (hO : O₀ = O + owedR c 2) (W : Waits sig Unit) :
    iprop(cellInv ER (xRd m) (K (c, kS 1)) (sendCell c 1) ∗ cellInv ER (xRd m) (K (pk c 2, kR 1)) (recvCell (pk c 2) 1)
        ∗ slotPts c 0 (qS 1) (f3 m c) ∗ slotPts (pk c 2) 2 fullShare fd
        ∗ owes (c : Thread nD τ) O₀ W
        ∗ dutyTok ER (sendCell c 1) 0 (0 : Fin 4) ∗ reached ER (sendCell c 1) 0
        ∗ dutyTok ER (recvCell (pk c 2) 1) 0 (0 : Fin 4) ∗ reached ER (recvCell (pk c 2) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot 0) (.remote (Dev.tc n : Thread nD τ) (slot 2) (.dma (sendS 1)) hsc) (.dma (recvS 1)) hsrc hdst hsem) k) Q) := by
  subst hn
  simp only [slotPts]
  exact Rounds.wp_send_pointsTo 𝒱₀ ER (xRd m) (c : Thread nD τ) none (c' := (pk c 2 : Thread nD τ)) (src := slot 0) (dst := slot 2)
    (sS := .dma (sendS 1)) (sem := .dma (recvS 1)) (κ₁ := K (c, kS 1)) (κ₂ := K (pk c 2, kR 1))
    (r₁ := 0) (r₂ := 0) (d₁ := 0) (d₂ := 0) (fd := fd) (q := qS 1) (fs := f3 m c)
    (by rw [duties_send]; exact Finset.mem_singleton_self _) (by rw [duties_recv]; exact Finset.mem_singleton_self _)
    () () N rfl (amount_send m c 1 0) (amount_recv m (pk c 2) 1 0) O hO (W := W)
    (by rw [payload_send]; unfold sendPay; simp only [slotPts]; exact BI.Entails.refl _)
    (by rw [payload_recv]; unfold recvPay; simp only []; rw [landed_slot2, pk_back2])

set_option maxHeartbeats 800000 in
/-- The copy of the own row, read at the share lent on send semaphore 0, into slot 3 of the device 1 places on,
    landing on that device's receive semaphore 2: the addressed-transfer rule at these cells. -/
theorem wp_send_1 (K : Dev nD × Fin 7 → ℕ) (c n : Dev nD) (hn : n = pk c 1)
    {hsc : (slot 3 : Memref sig (Dev.tc n : Thread nD τ).2.kind .vmem S1x512 .f32).view.ref.isScScratch = false}
    {hsrc : (slot 0 : Memref sig .tc .vmem S1x512 .f32).view.WordExact} {hdst : (slot 3 : Memref sig .tc .vmem S1x512 .f32).view.WordExact}
    {hsem : DmaTarget.Typed .vmem (.dma (recvS 2)) (.remote (Dev.tc n : Thread nD τ) (slot 3 : Memref sig .tc .vmem S1x512 .f32) (.dma (sendS 0)) hsc)}
    {α : Type} {Q : α → sProp 𝕄} {k : PUnit → Prog (TpuEff nD τ sig (Elt F) Λ₀ .tc) α}
    (fd : CommBuf (F := F) (pk c 1)) (O₀ O : CellTallies nD τ sig Unit) (hO : O₀ = O + owedR c 1) (W : Waits sig Unit) :
    iprop(cellInv ER (xRd m) (K (c, kS 0)) (sendCell c 0) ∗ cellInv ER (xRd m) (K (pk c 1, kR 2)) (recvCell (pk c 1) 2)
        ∗ slotPts c 0 (qS 0) (f3 m c) ∗ slotPts (pk c 1) 3 fullShare fd
        ∗ owes (c : Thread nD τ) O₀ W
        ∗ dutyTok ER (sendCell c 0) 0 (0 : Fin 4) ∗ reached ER (sendCell c 0) 0
        ∗ dutyTok ER (recvCell (pk c 1) 2) 0 (0 : Fin 4) ∗ reached ER (recvCell (pk c 1) 2) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot 0) (.remote (Dev.tc n : Thread nD τ) (slot 3) (.dma (sendS 0)) hsc) (.dma (recvS 2)) hsrc hdst hsem) k) Q) := by
  subst hn
  simp only [slotPts]
  exact Rounds.wp_send_pointsTo 𝒱₀ ER (xRd m) (c : Thread nD τ) none (c' := (pk c 1 : Thread nD τ)) (src := slot 0) (dst := slot 3)
    (sS := .dma (sendS 0)) (sem := .dma (recvS 2)) (κ₁ := K (c, kS 0)) (κ₂ := K (pk c 1, kR 2))
    (r₁ := 0) (r₂ := 0) (d₁ := 0) (d₂ := 0) (fd := fd) (q := qS 0) (fs := f3 m c)
    (by rw [duties_send]; exact Finset.mem_singleton_self _) (by rw [duties_recv]; exact Finset.mem_singleton_self _)
    () () N rfl (amount_send m c 0 0) (amount_recv m (pk c 1) 2 0) O hO (W := W)
    (by rw [payload_send]; unfold sendPay; simp only [slotPts]; exact BI.Entails.refl _)
    (by rw [payload_recv]; unfold recvPay; simp only []; rw [landed_slot3, pk_back1])

set_option maxHeartbeats 800000 in
/-- The copy of the own row, read at the share lent on send semaphore 2, into slot 1 of the device 3 places on,
    landing on that device's receive semaphore 0: the addressed-transfer rule at these cells. -/
theorem wp_send_3 (K : Dev nD × Fin 7 → ℕ) (c n : Dev nD) (hn : n = pk c 3)
    {hsc : (slot 1 : Memref sig (Dev.tc n : Thread nD τ).2.kind .vmem S1x512 .f32).view.ref.isScScratch = false}
    {hsrc : (slot 0 : Memref sig .tc .vmem S1x512 .f32).view.WordExact} {hdst : (slot 1 : Memref sig .tc .vmem S1x512 .f32).view.WordExact}
    {hsem : DmaTarget.Typed .vmem (.dma (recvS 0)) (.remote (Dev.tc n : Thread nD τ) (slot 1 : Memref sig .tc .vmem S1x512 .f32) (.dma (sendS 2)) hsc)}
    {α : Type} {Q : α → sProp 𝕄} {k : PUnit → Prog (TpuEff nD τ sig (Elt F) Λ₀ .tc) α}
    (fd : CommBuf (F := F) (pk c 3)) (O₀ O : CellTallies nD τ sig Unit) (hO : O₀ = O + owedR c 3) (W : Waits sig Unit) :
    iprop(cellInv ER (xRd m) (K (c, kS 2)) (sendCell c 2) ∗ cellInv ER (xRd m) (K (pk c 3, kR 0)) (recvCell (pk c 3) 0)
        ∗ slotPts c 0 (qS 2) (f3 m c) ∗ slotPts (pk c 3) 1 fullShare fd
        ∗ owes (c : Thread nD τ) O₀ W
        ∗ dutyTok ER (sendCell c 2) 0 (0 : Fin 4) ∗ reached ER (sendCell c 2) 0
        ∗ dutyTok ER (recvCell (pk c 3) 0) 0 (0 : Fin 4) ∗ reached ER (recvCell (pk c 3) 0) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot 0) (.remote (Dev.tc n : Thread nD τ) (slot 1) (.dma (sendS 2)) hsc) (.dma (recvS 0)) hsrc hdst hsem) k) Q) := by
  subst hn
  simp only [slotPts]
  exact Rounds.wp_send_pointsTo 𝒱₀ ER (xRd m) (c : Thread nD τ) none (c' := (pk c 3 : Thread nD τ)) (src := slot 0) (dst := slot 1)
    (sS := .dma (sendS 2)) (sem := .dma (recvS 0)) (κ₁ := K (c, kS 2)) (κ₂ := K (pk c 3, kR 0))
    (r₁ := 0) (r₂ := 0) (d₁ := 0) (d₂ := 0) (fd := fd) (q := qS 2) (fs := f3 m c)
    (by rw [duties_send]; exact Finset.mem_singleton_self _) (by rw [duties_recv]; exact Finset.mem_singleton_self _)
    () () N rfl (amount_send m c 2 0) (amount_recv m (pk c 3) 0 0) O hO (W := W)
    (by rw [payload_send]; unfold sendPay; simp only [slotPts]; exact BI.Entails.refl _)
    (by rw [payload_recv]; unfold recvPay; simp only []; rw [landed_slot1, pk_back3])

/-- Statements 1–60 of the last region: the wait for the three peers' units on the own barrier cell, which brings the three
    slots the own row is to be written into; the own row cut into its four shares; the copy 2 places on. -/
theorem part2_spec (K : Dev nD × Fin 7 → ℕ) (c : Dev nD) (W : Waits sig Unit) (v2 : BitVec 32)
    (Q : (Σ' (v23 : BitVec 32) (v37 : BitVec 32) (v42 : BitVec 1), BitVec 32) → sProp 𝕄) :
    iprop(invs m K c ∗ reacheds c ∗ levAts L lv
        ∗ atPos ER (barCell c) 0 ∅ 0 ∗ cred (tallyAt (barCell c) () 3) ∗ owes (c : Thread nD τ) (O₃ c) W
        ∗ slotPts c 0 fullShare (f3 m c)
        ∗ dutyTok ER (sendCell c 1) 0 (0 : Fin 4) ∗ dutyTok ER (recvCell (pk c 2) (rj 2)) 0 (0 : Fin 4)
        ∗ (∀ r, (slotPts c 0 (qS 0) (f3 m c) ∗ slotPts c 0 (qS 2) (f3 m c) ∗ slotPts c 0 qK (f3 m c) ∗ barPay c 1 ∗ barPay c 3
              ∗ cred (tallyAt (sendCell c 1) () N) ∗ owes (c : Thread nD τ) (owedR c 3 + owedR c 1) (insert (SemLoc.reg barS, ()) W)) -∗ Q r))
      ⊢ wp frame (wpE (defs₀ (F := F)) 𝒱₀ c none) Set.univ
          (k0_part2 (grid0.coords t0_3) xM (Memref.isWhole_whole _) oM (Memref.isWhole_whole _) commM (Memref.isWhole_whole _) cc0_scratch1 cc0_scratch2 c v2 cond3_t3) Q := by
  simp only [k0_part2_eq_skeleton]; unfold k0_part2_skel
  simp only [semWaitWord, Prog.lift, Prog.bind_op, Prog.bind_ret, Prog.pure_eq_ret]
  unfold invs reacheds
  iintro ⟨⟨#HIbar, #HIs0, #HIs1, #HIs2, #HIr0, #HIr1, #HIr2, #HIb1, #HIb2, #HIb3, #HIp1, #HIp2, #HIp3⟩, ⟨#Hrb1, #Hrb2, #Hrb3, #Hrp1, #Hrp2, #Hrp3, #Hrs0, #Hrs1, #Hrs2⟩, #Hlev, HatB, HcB, HO, Hs0, HtS, HtR, Hk⟩
  -- the wait for 3 on the own barrier cell, owing the three rows' credits
  iapply (Rounds.wp_wait_rest_token 𝒱₀ ER (xRd m) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  icases Hp with ⟨Hb1, Hb2, Hb3⟩
  -- the own row, cut into the shares the three copies read and the one kept
  ihave Hs := (Entails.of_eq (slot_split4 c 0 (f3 m c))) $$ Hs0
  icases Hs with ⟨⟨Hq0, Hq1⟩, Hq2, HqK⟩
  -- the copy 2 places on
  unfold barPay
  icases Hb2 with ⟨%fd2, Hd2⟩
  rw [show (-2 : Fin 4) = 2 from by decide]
  unfold O₃
  iapply (wp_send_2 m K c _ (dev4_eq c _) fd2 _ (owedR c 3 + owedR c 1) rfl (insert (SemLoc.reg barS, ()) W)) $$ [Hq1 Hd2 HO HtS HtR]
  · isplitr; · iexact HIs1
    isplitr; · iexact HIp2
    isplitl [Hq1]; · iexact Hq1
    isplitl [Hd2]; · iexact Hd2
    isplitl [HO]; · iexact HO
    isplitl [HtS]; · iexact HtS
    isplitr; · iexact Hrs1
    isplitl [HtR]; · iexact HtR
    iexact Hrp2
  iintro ⟨HcS, HO⟩
  rw [wp_ret]; imodintro
  iapply Hk
  isplitl [Hq0]; · iexact Hq0
  isplitl [Hq2]; · iexact Hq2
  isplitl [HqK]; · iexact HqK
  isplitl [Hb1]; · iexact Hb1
  isplitl [Hb3]; · iexact Hb3
  isplitl [HcS]; · iexact HcS
  iexact HO

/-- Statements 61–120: the copy 1 place on. -/
theorem part3_spec (K : Dev nD × Fin 7 → ℕ) (c : Dev nD) (W : Waits sig Unit) (v2 v37 v43 : BitVec 32) (v42 : BitVec 1)
    (Q : (Σ' (v44 : BitVec 32), BitVec 32) → sProp 𝕄) :
    iprop(invs m K c ∗ reacheds c
        ∗ slotPts c 0 (qS 0) (f3 m c) ∗ barPay c 1 ∗ owes (c : Thread nD τ) (owedR c 3 + owedR c 1) W
        ∗ dutyTok ER (sendCell c 0) 0 (0 : Fin 4) ∗ dutyTok ER (recvCell (pk c 1) (rj 1)) 0 (0 : Fin 4)
        ∗ (∀ r, (cred (tallyAt (sendCell c 0) () N) ∗ owes (c : Thread nD τ) (owedR c 3) W) -∗ Q r))
      ⊢ wp frame (wpE (defs₀ (F := F)) 𝒱₀ c none) Set.univ
          (k0_part3 (grid0.coords t0_3) xM (Memref.isWhole_whole _) oM (Memref.isWhole_whole _) commM (Memref.isWhole_whole _) cc0_scratch1 cc0_scratch2 c v2 cond3_t3 v37 v42 v43) Q := by
  simp only [k0_part3_eq_skeleton]; unfold k0_part3_skel
  simp only [Prog.lift, Prog.bind_op, Prog.bind_ret, Prog.pure_eq_ret]
  unfold invs reacheds
  iintro ⟨⟨#HIbar, #HIs0, #HIs1, #HIs2, #HIr0, #HIr1, #HIr2, #HIb1, #HIb2, #HIb3, #HIp1, #HIp2, #HIp3⟩, ⟨#Hrb1, #Hrb2, #Hrb3, #Hrp1, #Hrp2, #Hrp3, #Hrs0, #Hrs1, #Hrs2⟩, Hq0, Hb1, HO, HtS, HtR, Hk⟩
  unfold barPay
  icases Hb1 with ⟨%fd1, Hd1⟩
  rw [show (-1 : Fin 4) = 3 from by decide]
  iapply (wp_send_1 m K c _ (dev5_eq c _) fd1 _ (owedR c 3) rfl W) $$ [Hq0 Hd1 HO HtS HtR]
  · isplitr; · iexact HIs0
    isplitr; · iexact HIp1
    isplitl [Hq0]; · iexact Hq0
    isplitl [Hd1]; · iexact Hd1
    isplitl [HO]; · iexact HO
    isplitl [HtS]; · iexact HtS
    isplitr; · iexact Hrs0
    isplitl [HtR]; · iexact HtR
    iexact Hrp1
  iintro ⟨HcS, HO⟩
  rw [wp_ret]; imodintro
  iapply Hk
  isplitl [HcS]; · iexact HcS
  iexact HO

/-- Statements 121–180: the copy 3 places on, and the three waits on the own receive cells, which bring slots 2, 3, 1
    with the rows of the devices 2, 3, 1 places on. -/
theorem part4_spec (K : Dev nD × Fin 7 → ℕ) (c : Dev nD) (W : Waits sig Unit) (v23 v44 v65 : BitVec 32)
    (Q : PUnit → sProp 𝕄) :
    iprop(invs m K c ∗ reacheds c
        ∗ slotPts c 0 (qS 2) (f3 m c) ∗ barPay c 3 ∗ owes (c : Thread nD τ) (owedR c 3) W
        ∗ dutyTok ER (sendCell c 2) 0 (0 : Fin 4) ∗ dutyTok ER (recvCell (pk c 3) (rj 3)) 0 (0 : Fin 4)
        ∗ (atPos ER (recvCell c 0) 0 ∅ 0 ∗ atPos ER (recvCell c 1) 0 ∅ 0 ∗ atPos ER (recvCell c 2) 0 ∅ 0)
        ∗ (cred (tallyAt (recvCell c 0) () N) ∗ cred (tallyAt (recvCell c 1) () N) ∗ cred (tallyAt (recvCell c 2) () N))
        ∗ (∀ W', (cred (tallyAt (sendCell c 2) () N) ∗ owes (c : Thread nD τ) 0 W'
              ∗ (atPos ER (recvCell c 0) 1 ∅ 0 ∗ atPos ER (recvCell c 1) 1 ∅ 0 ∗ atPos ER (recvCell c 2) 1 ∅ 0)
              ∗ recvPay m c 0 ∗ recvPay m c 1 ∗ recvPay m c 2) -∗ Q ⟨⟩))
      ⊢ wp frame (wpE (defs₀ (F := F)) 𝒱₀ c none) Set.univ
          (k0_part4 (grid0.coords t0_3) xM (Memref.isWhole_whole _) oM (Memref.isWhole_whole _) commM (Memref.isWhole_whole _) cc0_scratch1 cc0_scratch2 c cond3_t3 v23 v44 v65) Q := by
  simp only [k0_part4_eq_skeleton]; unfold k0_part4_skel
  simp only [Prog.lift, Prog.bind_op, Prog.bind_ret, Prog.pure_eq_ret]
  unfold invs reacheds
  iintro ⟨⟨#HIbar, #HIs0, #HIs1, #HIs2, #HIr0, #HIr1, #HIr2, #HIb1, #HIb2, #HIb3, #HIp1, #HIp2, #HIp3⟩, ⟨#Hrb1, #Hrb2, #Hrb3, #Hrp1, #Hrp2, #Hrp3, #Hrs0, #Hrs1, #Hrs2⟩, Hq2, Hb3, HO, HtS, HtR, ⟨HatR0, HatR1, HatR2⟩, ⟨HcR0, HcR1, HcR2⟩, Hk⟩
  unfold barPay
  icases Hb3 with ⟨%fd3, Hd3⟩
  rw [show (-3 : Fin 4) = 1 from by decide]
  iapply (wp_send_3 m K c _ (dev6_eq c _) fd3 _ 0 (zero_add _).symm W) $$ [Hq2 Hd3 HO HtS HtR]
  · isplitr; · iexact HIs2
    isplitr; · iexact HIp3
    isplitl [Hq2]; · iexact Hq2
    isplitl [Hd3]; · iexact Hd3
    isplitl [HO]; · iexact HO
    isplitl [HtS]; · iexact HtS
    isplitr; · iexact Hrs2
    isplitl [HtR]; · iexact HtR
    iexact Hrp3
  iintro ⟨HcS, HO⟩
  -- the wait on the own receive cell 1: slot 2 with the row of the device 2 places on
  iapply (Rounds.wp_wait_rest_token 𝒱₀ ER (xRd m) (c : Thread nD τ) none (κ := K (c, kR 1)) (sm := .dma (recvS 1))
      (wpE_waitDma2_eq 𝒱₀ (c : Thread nD τ) none Set.univ) (Set.mem_univ _) () (O := 0) (W := W) (R := 0) (m := 0) (T := ∅)
      (by rw [Nat.zero_add]; exact (show _ = N from rfl).trans (expect_recv m c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hr1 := (Entails.of_eq (rest_recv m c 1)) $$ Hpay
  -- the wait on the own receive cell 2: slot 3 with the row of the device 3 places on
  iapply (Rounds.wp_wait_rest_token 𝒱₀ ER (xRd m) (c : Thread nD τ) none (κ := K (c, kR 2)) (sm := .dma (recvS 2))
      (wpE_waitDma2_eq 𝒱₀ (c : Thread nD τ) none Set.univ) (Set.mem_univ _) () (O := 0) (W := insert (SemLoc.dma (recvS 1), ()) W) (R := 0) (m := 0) (T := ∅)
      (by rw [Nat.zero_add]; exact (show _ = N from rfl).trans (expect_recv m c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hr2 := (Entails.of_eq (rest_recv m c 2)) $$ Hpay
  -- the wait on the own receive cell 0: slot 1 with the row of the device 1 places on
  iapply (Rounds.wp_wait_rest_token 𝒱₀ ER (xRd m) (c : Thread nD τ) none (κ := K (c, kR 0)) (sm := .dma (recvS 0))
      (wpE_waitDma2_eq 𝒱₀ (c : Thread nD τ) none Set.univ) (Set.mem_univ _) () (O := 0) (W := insert (SemLoc.dma (recvS 2), ()) (insert (SemLoc.dma (recvS 1), ()) W)) (R := 0) (m := 0) (T := ∅)
      (by rw [Nat.zero_add]; exact (show _ = N from rfl).trans (expect_recv m c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hr0 := (Entails.of_eq (rest_recv m c 0)) $$ Hpay
  rw [wp_ret]; imodintro
  iapply Hk $$ %_
  isplitl [HcS]; · iexact HcS
  isplitl [HO]; · iexact HO
  isplitl [HatR0 HatR1 HatR2]
  · isplitl [HatR0]; · iexact HatR0
    isplitl [HatR1]; · iexact HatR1
    iexact HatR2
  isplitl [Hr0]; · iexact Hr0
  isplitl [Hr1]; · iexact Hr1
  iexact Hr2

theorem part2_bind (K : Dev nD × Fin 7 → ℕ) (c : Dev nD) (W : Waits sig Unit) (v2 : BitVec 32) {β : Type}
    (k : (Σ' (v23 : BitVec 32) (v37 : BitVec 32) (v42 : BitVec 1), BitVec 32) → Prog (TpuEff nD τ sig (Elt F) Λ₀ .tc) β) (Q : β → sProp 𝕄) :
    iprop(invs m K c ∗ reacheds c ∗ levAts L lv
        ∗ atPos ER (barCell c) 0 ∅ 0 ∗ cred (tallyAt (barCell c) () 3) ∗ owes (c : Thread nD τ) (O₃ c) W
        ∗ slotPts c 0 fullShare (f3 m c)
        ∗ dutyTok ER (sendCell c 1) 0 (0 : Fin 4) ∗ dutyTok ER (recvCell (pk c 2) (rj 2)) 0 (0 : Fin 4)
        ∗ (∀ r, (slotPts c 0 (qS 0) (f3 m c) ∗ slotPts c 0 (qS 2) (f3 m c) ∗ slotPts c 0 qK (f3 m c) ∗ barPay c 1 ∗ barPay c 3
              ∗ cred (tallyAt (sendCell c 1) () N) ∗ owes (c : Thread nD τ) (owedR c 3 + owedR c 1) (insert (SemLoc.reg barS, ()) W))
            -∗ wp frame (wpE (defs₀ (F := F)) 𝒱₀ c none) Set.univ (k r) Q))
      ⊢ wp frame (wpE (defs₀ (F := F)) 𝒱₀ c none) Set.univ
          (k0_part2 (grid0.coords t0_3) xM (Memref.isWhole_whole _) oM (Memref.isWhole_whole _) commM (Memref.isWhole_whole _) cc0_scratch1 cc0_scratch2 c v2 cond3_t3 >>= k) Q := by
  rw [wp_bind]; exact part2_spec m K c W v2 (fun a => wp frame (wpE (defs₀ (F := F)) 𝒱₀ c none) Set.univ (k a) Q)

theorem part3_bind (K : Dev nD × Fin 7 → ℕ) (c : Dev nD) (W : Waits sig Unit) (v2 v37 v43 : BitVec 32) (v42 : BitVec 1) {β : Type}
    (k : (Σ' (v44 : BitVec 32), BitVec 32) → Prog (TpuEff nD τ sig (Elt F) Λ₀ .tc) β) (Q : β → sProp 𝕄) :
    iprop(invs m K c ∗ reacheds c
        ∗ slotPts c 0 (qS 0) (f3 m c) ∗ barPay c 1 ∗ owes (c : Thread nD τ) (owedR c 3 + owedR c 1) W
        ∗ dutyTok ER (sendCell c 0) 0 (0 : Fin 4) ∗ dutyTok ER (recvCell (pk c 1) (rj 1)) 0 (0 : Fin 4)
        ∗ (∀ r, (cred (tallyAt (sendCell c 0) () N) ∗ owes (c : Thread nD τ) (owedR c 3) W)
            -∗ wp frame (wpE (defs₀ (F := F)) 𝒱₀ c none) Set.univ (k r) Q))
      ⊢ wp frame (wpE (defs₀ (F := F)) 𝒱₀ c none) Set.univ
          (k0_part3 (grid0.coords t0_3) xM (Memref.isWhole_whole _) oM (Memref.isWhole_whole _) commM (Memref.isWhole_whole _) cc0_scratch1 cc0_scratch2 c v2 cond3_t3 v37 v42 v43 >>= k) Q := by
  rw [wp_bind]; exact part3_spec m K c W v2 v37 v43 v42 (fun a => wp frame (wpE (defs₀ (F := F)) 𝒱₀ c none) Set.univ (k a) Q)

theorem part4_bind (K : Dev nD × Fin 7 → ℕ) (c : Dev nD) (W : Waits sig Unit) (v23 v44 v65 : BitVec 32) {β : Type}
    (k : PUnit → Prog (TpuEff nD τ sig (Elt F) Λ₀ .tc) β) (Q : β → sProp 𝕄) :
    iprop(invs m K c ∗ reacheds c
        ∗ slotPts c 0 (qS 2) (f3 m c) ∗ barPay c 3 ∗ owes (c : Thread nD τ) (owedR c 3) W
        ∗ dutyTok ER (sendCell c 2) 0 (0 : Fin 4) ∗ dutyTok ER (recvCell (pk c 3) (rj 3)) 0 (0 : Fin 4)
        ∗ (atPos ER (recvCell c 0) 0 ∅ 0 ∗ atPos ER (recvCell c 1) 0 ∅ 0 ∗ atPos ER (recvCell c 2) 0 ∅ 0)
        ∗ (cred (tallyAt (recvCell c 0) () N) ∗ cred (tallyAt (recvCell c 1) () N) ∗ cred (tallyAt (recvCell c 2) () N))
        ∗ (∀ W', (cred (tallyAt (sendCell c 2) () N) ∗ owes (c : Thread nD τ) 0 W'
              ∗ (atPos ER (recvCell c 0) 1 ∅ 0 ∗ atPos ER (recvCell c 1) 1 ∅ 0 ∗ atPos ER (recvCell c 2) 1 ∅ 0)
              ∗ recvPay m c 0 ∗ recvPay m c 1 ∗ recvPay m c 2)
            -∗ wp frame (wpE (defs₀ (F := F)) 𝒱₀ c none) Set.univ (k ⟨⟩) Q))
      ⊢ wp frame (wpE (defs₀ (F := F)) 𝒱₀ c none) Set.univ
          (k0_part4 (grid0.coords t0_3) xM (Memref.isWhole_whole _) oM (Memref.isWhole_whole _) commM (Memref.isWhole_whole _) cc0_scratch1 cc0_scratch2 c cond3_t3 v23 v44 v65 >>= k) Q := by
  rw [wp_bind]; exact part4_spec m K c W v23 v44 v65 (fun a => wp frame (wpE (defs₀ (F := F)) 𝒱₀ c none) Set.univ (k a) Q)

omit [FloatOps F] in
theorem hz2 : (![0, 0] : Fin 2 → Nat) = fun _ => 0 := funext fun a => by fin_cases a <;> rfl

omit [FloatOps F] in
theorem read_x3 (f : (cc0_stg0_1 : Ref sig .tc).ty.Contents (Elt F)) :
    (xM : Memref sig .tc .vmem S256x512 .f32).view.readAt (Elt F) (Rect.unit (s := S256x512) ![0, 0] S256x512.size Facts₀.inb_S256x512_S256x512_0_0).toLoadRect f = f :=
  Memref.readAt_unit_zero (Elt F) cc0_stg0_1 hz2 _ f

set_option maxHeartbeats 1600000 in
/-- The body at the last step, from what the device holds between steps to what it holds at the end: the running
    maxima take in the last 256 rows; then the exchange. -/
theorem sound3 (K : Dev nD × Fin 7 → ℕ) (c : Dev nD) (W : Waits sig Unit) (g1 : Buf (Elt F) ((c : Thread nD τ).loc cc0_stg1_0)) (Kt : PUnit → sProp 𝕄) :
    iprop(invs m K c ∗ poss c ∗ reacheds c ∗ xferToks c ∗ creds c ∗ levAts L lv
        ∗ slotPts c 0 fullShare (spread c (acc2 m c))
        ∗ owes (c : Thread nD τ) (O₃ c) W
        ∗ (((c : Thread nD τ).loc cc0_stg0_1) ↦{fullShare} xblk m c t0_3)
        ∗ (((c : Thread nD τ).loc cc0_stg1_0) ↦{fullShare} g1)
        ∗ (∀ W', (Φe m c ∗ owes (c : Thread nD τ) 0 W' ∗ (((c : Thread nD τ).loc cc0_stg0_1) ↦{fullShare} xblk m c t0_3)
              ∗ (((c : Thread nD τ).loc cc0_stg1_0) ↦{fullShare} outAt m c)) -∗ Kt ⟨⟩))
      ⊢ wp frame (wpE (defs₀ (F := F)) 𝒱₀ c none) Set.univ
          (cc0_body (grid0.coords t0_3) xM (Memref.isWhole_whole _) oM (Memref.isWhole_whole _) commM (Memref.isWhole_whole _) cc0_scratch1 cc0_scratch2) Kt := by
  simp only [cc0_body_eq_skeleton]; unfold cc0_body_skel
  simp only [cond1_t3, cond2_t3, cond3_t3, ↓reduceDIte]
  simp only [Prog.lift, Prog.bind_op, Prog.bind_ret, Prog.pure_eq_ret, wp_deviceId]
  unfold poss xferToks creds
  iintro ⟨#HI, ⟨HatB, HatS0, HatS1, HatS2, HatR0, HatR1, HatR2⟩, #Hr, ⟨HtR1, HtR2, HtR3, HtS0, HtS1, HtS2⟩, ⟨HcB, HcR0, HcR1, HcR2⟩, #Hlev, Hs0, HO, Hx, Hout, Hk⟩
  -- the running maxima take in the last block
  simp only [slotPts]
  iapply (wp_load 𝒱₀ (c : Thread nD τ) none Set.univ (m := commM) setOn_load0) $$ Hs0; iintro Hs0
  rw [read_slot0_spread]
  iapply (wp_load 𝒱₀ (c : Thread nD τ) none Set.univ (m := xM) (Finset.subset_univ _)) $$ Hx; iintro Hx
  rw [read_x3]
  iapply (wp_load 𝒱₀ (c : Thread nD τ) none Set.univ (m := commM) setOn_load0) $$ Hs0; iintro Hs0
  iapply (wp_store 𝒱₀ (c : Thread nD τ) none Set.univ (m := commM) (r := rect0) (Mk := Finset.univ) setOn_store0) $$ Hs0; iintro Hs0
  ihave Hs0 := (Entails.of_eq (store_slot0 c fullShare _ _)) $$ Hs0
  -- the wait on the barrier cell and the copy 2 places on
  iapply (part2_bind m K c W _ _ _)
  isplitr; · iexact HI
  isplitr; · iexact Hr
  isplitr; · iexact Hlev
  isplitl [HatB]; · iexact HatB
  isplitl [HcB]; · iexact HcB
  isplitl [HO]; · iexact HO
  isplitl [Hs0]; · iexact Hs0
  isplitl [HtS1]; · iexact HtS1
  isplitl [HtR2]; · iexact HtR2
  iintro %r2 ⟨Hq0, Hq2, HqK, Hb1, Hb3, HcS1, HO⟩
  -- the copy 1 place on
  iapply (part3_bind m K c _ _ _ _ _ _ _)
  isplitr; · iexact HI
  isplitr; · iexact Hr
  isplitl [Hq0]; · iexact Hq0
  isplitl [Hb1]; · iexact Hb1
  isplitl [HO]; · iexact HO
  isplitl [HtS0]; · iexact HtS0
  isplitl [HtR1]; · iexact HtR1
  iintro %r3 ⟨HcS0, HO⟩
  -- the copy 3 places on and the three rows landing
  iapply (part4_bind m K c _ _ _ _ _ _)
  isplitr; · iexact HI
  isplitr; · iexact Hr
  isplitl [Hq2]; · iexact Hq2
  isplitl [Hb3]; · iexact Hb3
  isplitl [HO]; · iexact HO
  isplitl [HtS2]; · iexact HtS2
  isplitl [HtR3]; · iexact HtR3
  isplitl [HatR0 HatR1 HatR2]
  · isplitl [HatR0]; · iexact HatR0
    isplitl [HatR1]; · iexact HatR1
    iexact HatR2
  isplitl [HcR0 HcR1 HcR2]
  · isplitl [HcR0]; · iexact HcR0
    isplitl [HcR1]; · iexact HcR1
    iexact HcR2
  iintro %W' ⟨HcS2, HO, HatR, Hr0, Hr1, Hr2⟩
  -- the maximum over the four rows, and the own cells closed
  iapply (tail3 m K c W' g1 Kt)
  isplitr; · iexact HI
  isplitl [HatS0 HatS1 HatS2]
  · isplitl [HatS0]; · iexact HatS0
    isplitl [HatS1]; · iexact HatS1
    iexact HatS2
  isplitl [HatR]; · iexact HatR
  isplitl [HcS0 HcS1 HcS2]
  · isplitl [HcS0]; · iexact HcS0
    isplitl [HcS1]; · iexact HcS1
    iexact HcS2
  isplitl [HqK]; · iexact HqK
  isplitl [Hr0]; · iexact Hr0
  isplitl [Hr1]; · iexact Hr1
  isplitl [Hr2]; · iexact Hr2
  isplitl [HO]; · iexact HO
  isplitl [Hout]; · iexact Hout
  iintro %W'' ⟨He, HO, Hout⟩
  iapply Hk $$ %W''
  isplitl [He]; · iexact He
  isplitl [HO]; · iexact HO
  isplitl [Hx]; · iexact Hx
  iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Body3

open Body3 in
set_option maxRecDepth 4000 in
set_option maxHeartbeats 1600000 in
/-- The body obligation at the last step. -/
theorem body3 (c : Dev nD) : BodyAt m ρ c t0_3 := by
  unfold BodyAt
  rw [bigSep_W0, bigSep_W0]
  show iprop((dats m ρ 0 c).Φ t0_3.castSucc ∗ (dats m ρ 0 c).owesAt () t0_3.castSucc
      ∗ (∃ d, owns (c : Thread nD τ) (Memref.whole cc0_stg0_1) fullShare ((dats m ρ 0 c).before (0 : Fin 2) t0_3 d))
      ∗ (∃ d, owns (c : Thread nD τ) (Memref.whole cc0_stg1_0) fullShare ((dats m ρ 0 c).before (1 : Fin 2) t0_3 d)))
    ⊢ wp frame (wpE (defs₀ (F := F)) 𝒱₀ c none) Set.univ
        (cc0_body (grid0.coords t0_3) xM (Memref.isWhole_whole _) oM (Memref.isWhole_whole _) commM (Memref.isWhole_whole _) cc0_scratch1 cc0_scratch2)
        fun _ => iprop((dats m ρ 0 c).Φ t0_3.succ ∗ (dats m ρ 0 c).owesAt () t0_3.succ
          ∗ owns (c : Thread nD τ) (Memref.whole cc0_stg0_1) fullShare ((dats m ρ 0 c).after (0 : Fin 2) t0_3)
          ∗ owns (c : Thread nD τ) (Memref.whole cc0_stg1_0) fullShare ((dats m ρ 0 c).after (1 : Fin 2) t0_3))
  simp only [owns_whole_eq]
  show iprop((dats m ρ 0 c).Φ t0_3.castSucc ∗ (dats m ρ 0 c).owesAt () t0_3.castSucc
      ∗ (∃ d, stg c cc0_stg0_1 ((dats m ρ 0 c).before (0 : Fin 2) t0_3 d))
      ∗ (∃ d, stg c cc0_stg1_0 ((dats m ρ 0 c).before (1 : Fin 2) t0_3 d)))
    ⊢ wp frame (wpE (defs₀ (F := F)) 𝒱₀ c none) Set.univ
        (cc0_body (grid0.coords t0_3) xM (Memref.isWhole_whole _) oM (Memref.isWhole_whole _) commM (Memref.isWhole_whole _) cc0_scratch1 cc0_scratch2)
        fun _ => iprop((dats m ρ 0 c).Φ t0_3.succ ∗ (dats m ρ 0 c).owesAt () t0_3.succ
          ∗ stg c cc0_stg0_1 ((dats m ρ 0 c).after (0 : Fin 2) t0_3) ∗ stg c cc0_stg1_0 ((dats m ρ 0 c).after (1 : Fin 2) t0_3))
  rw [show (dats m ρ 0 c).Φ t0_3.castSucc = Φm m c (acc2 m c) from rfl, show (dats m ρ 0 c).Φ t0_3.succ = Φe m c from rfl]
  unfold Φm mid Dat.owesAt Pipeline.owesWithin
  rw [show (dats m ρ 0 c).owed t0_3.castSucc = O₃ c from rfl, show (dats m ρ 0 c).owed t0_3.succ = 0 from rfl]
  iintro ⟨⟨⟨⟨%K, HI, Hpos, Hrch, Htok⟩, Hcr, Hlev⟩, Hs0⟩, ⟨%W, %hW, HO⟩, ⟨%d0, %g0, %hg0, Hx⟩, ⟨%d1, %g1, %hg1, Hout⟩⟩
  have hx : g0 = xblk m c t0_3 := by rw [hg0]; unfold Dat.before; rw [if_pos (fetch0_0 t0_3)]; rfl
  subst hx
  iapply (sound3 m K c W g1 _)
  isplitl [HI]; · iexact HI
  isplitl [Hpos]; · iexact Hpos
  isplitl [Hrch]; · iexact Hrch
  isplitl [Htok]; · iexact Htok
  isplitl [Hcr]; · iexact Hcr
  isplitl [Hlev]; · iexact Hlev
  isplitl [Hs0]; · iexact Hs0
  isplitl [HO]; · iexact HO
  isplitl [Hx]; · iexact Hx
  isplitl [Hout]; · iexact Hout
  iintro %W' ⟨He, HO, Hx, Hout⟩
  isplitl [He]; · iexact He
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KB.body3' depends on axioms: [propext, Classical.choice, Quot.sound] -/
#guard_msgs in #print axioms body3

end Cert.KB

end
-- ==== Proof.KBBody.lean ====
/- The body obligation of a device: its four steps, one after the other. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBBody0
import proofs.«900906_g7700000000000907_dist_max_ax0_shard0_i_m1024_n512_v7x_i4_f32_1_alg».proof.Proof.KBBodyMid
import proofs.«900906_g7700000000000907_dist_max_ax0_shard0_i_m1024_n512_v7x_i4_f32_1_alg».proof.Proof.KBBody3
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem body_obligation (c : Dev nD) : BodyObligation (dats (F := F) m ρ 0 c) (defs₀ (F := F)) 𝒱₀ () Set.univ :=
  body_of_steps m ρ c (body0 m ρ c) (body1 m ρ c) (body2 m ρ c) (body3 m ρ c)

end Cert.KB

end
-- ==== Proof.KBRun.lean ====
/- The arrays after the run, as the pipeline's proof data computes them, and the run's post: every device's two windowed
   arrays (its rows, its result row) end at those contents. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBData
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

end Cert.KB

end
-- ==== Proof.KBCredit.lean ====
/- The credit dealt at launch, and that the pipeline's own waits are allowed at every step. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBData
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

omit [FloatOps F] in
/-- Every device owes one unit to the barrier cell of the device k places on; going k places on is a permutation of the
    devices, so device c's own barrier cell is owed exactly one such unit. -/
private theorem launch_bar (k : Fin 4) (c : Dev nD) :
    (Pipeline.launchCred (fun d => owedB d k) c : sProp 𝕄) ⊢ cred (tallyAt (barCell c) () 1) :=
  Pipeline.launchCred_tallyAt (.reg barS) (fun d => pk d k) (fun d => pk d (-k)) (fun c => pk_neg_pk c k) (fun d => pk_pk_neg d k) () 1 c

omit [FloatOps F] in
/-- Every device owes one row's credit to receive cell rj k of the device k places on: device c's own receive cell
    rj k is owed exactly one row's credit. -/
private theorem launch_recv (k : Fin 4) (j : Fin 3) (hj : rj k = j) (c : Dev nD) :
    (Pipeline.launchCred (fun d => owedR d k) c : sProp 𝕄) ⊢ cred (tallyAt (recvCell c j) () N) := by
  subst hj
  exact Pipeline.launchCred_tallyAt (.dma (recvS (rj k))) (fun d => pk d k) (fun d => pk d (-k)) (fun c => pk_neg_pk c k) (fun d => pk_pk_neg d k) () N c

omit [FloatOps F] in
/-- Three units on one cell are one token of three. -/
private theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- The credit dealt to device c at launch: what the four devices owe, summed cell by cell, is three units on c's barrier
    cell (one from each of the three other devices) and a row's credit on each of its three receive cells. -/
theorem creds_of_launch (c : Dev nD) : (Pipeline.launchCred O₀ c : sProp 𝕄) ⊢ creds c := by
  have h : (O₀ : Dev nD → CellTallies nD τ sig Unit)
      = fun d => owedR d 3 + owedR d 1 + owedR d 2 + owedB d 3 + owedB d 2 + owedB d 1 := rfl
  rw [h, Pipeline.launchCred_add, Pipeline.launchCred_add, Pipeline.launchCred_add, Pipeline.launchCred_add, Pipeline.launchCred_add]
  refine (BIClass.sep_mono (BIClass.sep_mono (BIClass.sep_mono (BIClass.sep_mono (BIClass.sep_mono (launch_recv 3 0 rfl c) (launch_recv 1 2 rfl c)) (launch_recv 2 1 rfl c))
    (launch_bar 3 c)) (launch_bar 2 c)) (launch_bar 1 c)).trans ?_
  unfold creds
  iintro ⟨⟨⟨⟨⟨R0, R2⟩, R1⟩, B3⟩, B2⟩, B1⟩
  isplitl [B3 B2 B1]
  · iapply (cred_three (F := F) (barCell c))
    isplitl [B3]; · iexact B3
    isplitl [B2]; · iexact B2
    iexact B1
  isplitl [R0]; · iexact R0
  isplitl [R1]; · iexact R1
  iexact R2

/-! ## The pipeline's own waits -/

/-- The pipeline waits only on its staging semaphores, none of which is a receive semaphore; what the device owes before a
    step is what it owes at launch, the three rows' credits, or nothing. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _ | _ | _ | t, ht⟩
      · exact Or.inl rfl
      · exact Or.inr (Or.inl rfl)
      · exact Or.inr (Or.inl rfl)
      · exact Or.inr (Or.inl rfl)
      · exact Or.inr (Or.inr rfl))

end Cert.KB

end
-- ==== Proof.KBLaunch.lean ====
/- The launch: from every device's body obligation to the run of the whole program on the four devices. The exchange's
   ghost state is made once for all devices (a barrier cell's invariant is shared by the four devices that touch it),
   the barrier semaphore being the runtime's and not the kernel's own. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBRun
import proofs.«900906_g7700000000000907_dist_max_ax0_shard0_i_m1024_n512_v7x_i4_f32_1_alg».proof.Proof.KBCredit
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells, the minted tokens -/

/-- The kernel's own scoped semaphores: the three send and the three receive semaphores. -/
abbrev osem : Fin 6 → SemLoc sig := fun
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- The 28 cells of the exchange: seven a device. -/
def xCells : Finset (GSem nD τ sig) := Finset.univ.map ⟨kcell, kcell_injective⟩

/-- The nine duties of a device's own cells, as (semaphore, duty): its barrier cell's 1, 2, 3; duty 0 of its three send
    cells and of its three receive cells. -/
abbrev tokSem : Fin 9 → SemLoc sig × Fin 4 := fun
  | 0 => (.reg barS, 1) | 1 => (.reg barS, 2) | 2 => (.reg barS, 3)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokSem_injective : Function.Injective (tokSem : Fin 9 → SemLoc sig × Fin 4) := by decide

/-- A device's own cells' duty tokens as minted: (device, which of the nine). -/
abbrev tokOf (cj : Dev nD × Fin 9) : GSem nD τ sig × ℕ × Fin 4 := (((cj.1 : Thread nD τ), (tokSem cj.2).1), 0, (tokSem cj.2).2)
theorem tokOf_injective : Function.Injective (tokOf : Dev nD × Fin 9 → GSem nD τ sig × ℕ × Fin 4) := by
  rintro ⟨c, j⟩ ⟨c', j'⟩ h
  have h1 : c = c' := by have := congrArg (fun x : GSem nD τ sig × ℕ × Fin 4 => x.1.1.1) h; exact this
  subst h1
  have h2 : (tokSem j).1 = (tokSem j').1 := congrArg (fun x : GSem nD τ sig × ℕ × Fin 4 => x.1.2) h
  have h3 : (tokSem j).2 = (tokSem j').2 := congrArg (fun x : GSem nD τ sig × ℕ × Fin 4 => x.2.2) h
  rw [tokSem_injective (Prod.ext h2 h3)]
def xToks : Finset (GSem nD τ sig × ℕ × Fin 4) := Finset.univ.map ⟨tokOf, tokOf_injective⟩

/-- The launch element: the pipeline's own beside the exchange's. -/
def u₀ : UU :=
  (initOf (Pipeline.cells cfgs cellOf_inj) (Pipeline.launchToks cfgs cellOf_inj), initOf xCells xToks)

/-- The duty tokens of device c's own cells. -/
def toks (c : Dev nD) : sProp 𝕄 :=
  iprop(dutyTok ER (barCell c) 0 (1 : Fin 4) ∗ dutyTok ER (barCell c) 0 (2 : Fin 4) ∗ dutyTok ER (barCell c) 0 (3 : Fin 4)
    ∗ dutyTok ER (sendCell c 0) 0 (0 : Fin 4) ∗ dutyTok ER (sendCell c 1) 0 (0 : Fin 4) ∗ dutyTok ER (sendCell c 2) 0 (0 : Fin 4)
    ∗ dutyTok ER (recvCell c 0) 0 (0 : Fin 4) ∗ dutyTok ER (recvCell c 1) 0 (0 : Fin 4) ∗ dutyTok ER (recvCell c 2) 0 (0 : Fin 4))

/-- What the launch element deals device c: the round states of its seven cells, its positions and reached-marks,
    the tokens its own cells mint. -/
def G (c : Dev nD) : sProp 𝕄 :=
  iprop((bigSep Finset.univ fun k : Fin 7 => roundState ER (xRd m) (kcell (c, k)) 0)
    ∗ (bigSep Finset.univ fun k : Fin 7 => iprop(atPos ER (kcell (c, k)) 0 ∅ 0 ∗ reached ER (kcell (c, k)) 0)) ∗ toks c)

/-- What the global step makes of it: what the body starts from, the credit and the levels apart. -/
def G' (c : Dev nD) : sProp 𝕄 := iprop(∃ K, invs m K c ∗ poss c ∗ reacheds c ∗ barToks c ∗ xferToks c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (xRd m) xCells xToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero become the cells' invariants -/

omit [FloatOps F] in
/-- The six send and receive semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HR0, HR1, HR2⟩, HB⟩
  isplitl [HB]; · iexact HB
  isplitl [HS0]; · iexact HS0
  isplitl [HS1]; · iexact HS1
  isplitl [HS2]; · iexact HS2
  isplitl [HR0]; · iexact HR0
  isplitl [HR1]; · iexact HR1
  iexact HR2

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Every device's share of the whole -/

/-- What every device may read of the whole: all 28 invariants at their names, all reached-marks. -/
def records (K : Dev nD × Fin 7 → ℕ) : sProp 𝕄 :=
  iprop((bigSep Finset.univ fun ck : Dev nD × Fin 7 => cellInv ER (xRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (xRd m) (K ck) (kcell ck) : sProp 𝕄)) ⊢ cellInv ER (xRd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c alone: its seven positions and the tokens of the nine duties it pays. -/
def linear (c : Dev nD) : sProp 𝕄 := iprop(poss c ∗ barToks c ∗ xferToks c)

theorem ghost_intro (K : Dev nD × Fin 7 → ℕ) (c : Dev nD) : iprop(records m K ∗ linear c) ⊢ G' m c := by
  unfold records linear G' invs reacheds
  iintro ⟨⟨#HI, #HR⟩, Hpos, Hbt, Hxt⟩
  iexists K
  isplitr
  · isplitr; · iapply (inv_at m K (c, 0)); iexact HI
    isplitr; · iapply (inv_at m K (c, kS 0)); iexact HI
    isplitr; · iapply (inv_at m K (c, kS 1)); iexact HI
    isplitr; · iapply (inv_at m K (c, kS 2)); iexact HI
    isplitr; · iapply (inv_at m K (c, kR 0)); iexact HI
    isplitr; · iapply (inv_at m K (c, kR 1)); iexact HI
    isplitr; · iapply (inv_at m K (c, kR 2)); iexact HI
    isplitr; · iapply (inv_at m K (pk c 1, 0)); iexact HI
    isplitr; · iapply (inv_at m K (pk c 2, 0)); iexact HI
    isplitr; · iapply (inv_at m K (pk c 3, 0)); iexact HI
    isplitr; · iapply (inv_at m K (pk c 1, kR (rj 1))); iexact HI
    isplitr; · iapply (inv_at m K (pk c 2, kR (rj 2))); iexact HI
    iapply (inv_at m K (pk c 3, kR (rj 3))); iexact HI
  isplitl [Hpos]; · iexact Hpos
  isplitr
  · isplitr; · iapply (reached_at (F := F) (pk c 1, 0)); iexact HR
    isplitr; · iapply (reached_at (F := F) (pk c 2, 0)); iexact HR
    isplitr; · iapply (reached_at (F := F) (pk c 3, 0)); iexact HR
    isplitr; · iapply (reached_at (F := F) (pk c 1, kR (rj 1))); iexact HR
    isplitr; · iapply (reached_at (F := F) (pk c 2, kR (rj 2))); iexact HR
    isplitr; · iapply (reached_at (F := F) (pk c 3, kR (rj 3))); iexact HR
    isplitr; · iapply (reached_at (F := F) (c, kS 0)); iexact HR
    isplitr; · iapply (reached_at (F := F) (c, kS 1)); iexact HR
    iapply (reached_at (F := F) (c, kS 2)); iexact HR
  isplitl [Hbt]; · iexact Hbt
  iexact Hxt

omit [FloatOps F] in
/-- The minted tokens dealt round the mesh: duty s of a barrier cell goes s places on, to the device that pays it; duty 0
    of a receive cell goes to the device whose row lands there; a send cell's stays. -/
theorem toks_around : (bigSep Finset.univ fun c : Dev nD => (toks c : sProp 𝕄)) ⊢ bigSep Finset.univ fun c : Dev nD => iprop(barToks c ∗ xferToks c) := by
  unfold toks barToks xferToks
  simp only [bigSep_sep']
  rw [bigSep_univ_equiv (turn 3) (fun c : Dev nD => (dutyTok ER (barCell c) 0 (1 : Fin 4) : sProp 𝕄)),
    bigSep_univ_equiv (turn 2) (fun c : Dev nD => (dutyTok ER (barCell c) 0 (2 : Fin 4) : sProp 𝕄)),
    bigSep_univ_equiv (turn 1) (fun c : Dev nD => (dutyTok ER (barCell c) 0 (3 : Fin 4) : sProp 𝕄)),
    bigSep_univ_equiv (turn 3) (fun c : Dev nD => (dutyTok ER (recvCell c 0) 0 (0 : Fin 4) : sProp 𝕄)),
    bigSep_univ_equiv (turn 2) (fun c : Dev nD => (dutyTok ER (recvCell c 1) 0 (0 : Fin 4) : sProp 𝕄)),
    bigSep_univ_equiv (turn 1) (fun c : Dev nD => (dutyTok ER (recvCell c 2) 0 (0 : Fin 4) : sProp 𝕄))]
  iintro ⟨B1, B2, B3, S0, S1, S2, R0, R1, R2⟩
  isplitl [B1 B2 B3]
  · isplitl [B3]; · iexact B3
    isplitl [B2]; · iexact B2
    iexact B1
  isplitl [R2]; · iexact R2
  isplitl [R1]; · iexact R1
  isplitl [R0]; · iexact R0
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (xRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (xRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) (fun c => iprop(barToks c ∗ xferToks c))).symm).trans
      (bigSep_mono fun c _ => show _ ⊢ linear c from Entails.of_eq (by unfold linear poss; rw [bigSep_fin7])))
    isplitl [Hat]; · iexact Hat
    iexact Htk

/-- The global step: every device's own semaphores and its barrier semaphore at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ commPts
  iintro ⟨Hs, -, ⟨%f, Hr⟩⟩
  isplitl [Hs]; · iexact Hs
  iexists f; iexact Hr

theorem phie_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φe m c from rfl, scopedRest0_eq, ownSems0_eq]
  unfold Φe commPts
  iintro ⟨Hr, HS0, HS1, HS2, HR0, HR1, HR2⟩
  isplitr; · iempintro
  isplitl [HS0 HS1 HS2 HR0 HR1 HR2]
  · isplitl [HS0]; · iexact HS0
    isplitl [HS1]; · iexact HS1
    isplitl [HS2]; · iexact HS2
    isplitl [HR0]; · iexact HR0
    isplitl [HR1]; · iexact HR1
    iexact HR2
  iexists (gathered m c); iexact Hr

/-! ## The run -/

set_option maxRecDepth 8000 in
/-- At the compiled mesh of four devices, from any memory with zero counters: if every device's body meets its
    obligation, every weakly fair execution of the program terminates without a fault, each device's windowed arrays
    ending at the contents the proof data computes. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phie_exit m ρ)
    (QY := fun _ _ => True)
    (hY := fun c s' => by
      iintro ⟨-, -, HSI⟩
      imodintro
      isplitr; · ipureintro; trivial
      iexact HSI)
    (hQ := fun _ h c w => (h c).1 w)

end Cert.KB

end
-- ==== Proof.KBFinal.lean ====
/- Reading the arrays after the run: a device's rows are never written, and its result row is what the last step stored
   into the result's staging buffer, written back whole. -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.Kernel.Skeleton
import proofs.«900906_g7700000000000907_dist_max_ax0_shard0_i_m1024_n512_v7x_i4_f32_1_alg».proof.Proof.Gen.Kernel.Launch
import proofs.«900906_g7700000000000907_dist_max_ax0_shard0_i_m1024_n512_v7x_i4_f32_1_alg».proof.Proof.Gen.Kernel.Points
import proofs.«900906_g7700000000000907_dist_max_ax0_shard0_i_m1024_n512_v7x_i4_f32_1_alg».proof.Proof.Gen.Kernel.Frame
import proofs.«900906_g7700000000000907_dist_max_ax0_shard0_i_m1024_n512_v7x_i4_f32_1_alg».proof.Proof.KBRun
import Idealize.ShloMosaic.Lib.Pipeline.Value
import Idealize.ShloMosaic.Lib.Pipeline.Launch
import Idealize.ShloMosaic.Lib.Pipeline.Kit
import Idealize.ShloMosaic.Lib.Tactic

noncomputable section

namespace Cert.KB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Window 0 is an input: no step writes it back, so it ends as it started. -/
theorem finalA_x (c : Dev nD) : finalA m ρ c (0 : Fin 2) = m ((c : Thread nD τ).loc main_arg0) :=
  ((dats (F := F) m ρ 0 c).arrAt_in (0 : Fin 2) rfl _).trans rfl

/-- Window 1 is the result row. Its block is the whole 1 x 512 array at every step, at offsets (0, 0); the last step
    writes the block back, and a write of the whole array leaves exactly what was written, whatever the array held. -/
theorem finalA_out (c : Dev nD) : finalA m ρ c (1 : Fin 2) = outAt m c := by
  have hz : (fun a => win0_1.index t0_3 a * main_v1.ty.shape.size a) = fun _ => 0 := funext fun a => by fin_cases a <;> decide
  show (dats m ρ 0 c).arrAt 1 (t0_3.val + 1) = _
  rw [Dat.arrAt_succ, if_pos ((flush0_1 t0_3).mpr rfl)]
  exact Memref.write_access_unit_zero_univ (Elt F) main_v1 hz (fun a => by rw [congrFun hz a]; simp) _ (outAt m c)

/-- The run with its results named: each device's result row is outAt, its rows are unchanged. -/
theorem run_named (hrun : θ_run defs (onTc (τ := τ) (main (F := F))) (s₀ m ρ) (QC m ρ)) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun r h c => ⟨((h c) (1 : Fin 2)).trans (finalA_out m ρ c), ((h c) (0 : Fin 2)).trans (finalA_x m ρ c)⟩) hrun

end Cert.KB

end
-- ==== Proof.lean ====
/- The proof of `Cert.Claim`: a maximum over the rows of an array cut in four, one block a device, against the maximum
   over all rows on one device.
   Each device reduces its 1024 rows to one row of column maxima in four steps of 256 rows, tells the three other
   devices on the barrier semaphore that it has entered, and at the last step, once all three have told it so, copies
   its row into a slot of each of them, waits for their three rows, and takes the maximum over the four rows. The three
   frames are the runs with their values dropped; nothing was idealized, so `preserves` is trivial; `algebraic` is
   the idealized kernel's run with each device's result row named, the reference's generated run, and that the two rows
   are one function of the whole array (a maximum over a union is the maximum of the maxima: no finiteness is used). -/
import proofs.«900906_g7700000000000907_dist_max_ax0_shard0_i_m1024_n512_v7x_i4_f32_1_alg».proof.Defs
import proofs.«900906_g7700000000000907_dist_max_ax0_shard0_i_m1024_n512_v7x_i4_f32_1_alg».proof.Proof.KIBody
import proofs.«900906_g7700000000000907_dist_max_ax0_shard0_i_m1024_n512_v7x_i4_f32_1_alg».proof.Proof.KILaunch
import proofs.«900906_g7700000000000907_dist_max_ax0_shard0_i_m1024_n512_v7x_i4_f32_1_alg».proof.Proof.KIFinal
import proofs.«900906_g7700000000000907_dist_max_ax0_shard0_i_m1024_n512_v7x_i4_f32_1_alg».proof.Proof.KIValue
import proofs.«900906_g7700000000000907_dist_max_ax0_shard0_i_m1024_n512_v7x_i4_f32_1_alg».proof.Proof.KBBody
import proofs.«900906_g7700000000000907_dist_max_ax0_shard0_i_m1024_n512_v7x_i4_f32_1_alg».proof.Proof.KBLaunch
import proofs.«900906_g7700000000000907_dist_max_ax0_shard0_i_m1024_n512_v7x_i4_f32_1_alg».proof.Proof.KBFinal
import proofs.«900906_g7700000000000907_dist_max_ax0_shard0_i_m1024_n512_v7x_i4_f32_1_alg».proof.Proof.Gen.Kernel
import proofs.«900906_g7700000000000907_dist_max_ax0_shard0_i_m1024_n512_v7x_i4_f32_1_alg».proof.Proof.Gen.KernelIdeal
import proofs.«900906_g7700000000000907_dist_max_ax0_shard0_i_m1024_n512_v7x_i4_f32_1_alg».proof.Proof.Gen.ReferenceIdeal
import proofs.«900906_g7700000000000907_dist_max_ax0_shard0_i_m1024_n512_v7x_i4_f32_1_alg».proof.Proof.Gen.ReferenceIdeal.Run
import proofs.«900906_g7700000000000907_dist_max_ax0_shard0_i_m1024_n512_v7x_i4_f32_1_alg».proof.Proof.Gen.ReferenceIdeal.Read
import proofs.«900906_g7700000000000907_dist_max_ax0_shard0_i_m1024_n512_v7x_i4_f32_1_alg».proof.Proof.Gen.Pre_finite_inputs_Kernel
import proofs.«900906_g7700000000000907_dist_max_ax0_shard0_i_m1024_n512_v7x_i4_f32_1_alg».proof.Proof.Gen.Pre_finite_inputs_ReferenceIdeal
import Idealize.ShloMosaic.Adequacy
import Idealize.ShloMosaic.Init

noncomputable section

namespace Cert.Proof

open Idealize.ShloMosaic Idealize.SL.Sem Idealize.ShloMosaic.TcCoe

/-- The word-level kernel runs to the end on the four devices and leaves every device's rows as they were. -/
theorem frame_k : @Cert.frame_Kernel Cert.Kernel.Gen.facts Cert.Pre_finite_inputs_Kernel.Gen.facts :=
  fun m g _ => (θ_run (Cert.Kernel.defs (F := Bits)) _ _).mono (fun _ h c => (h c).2)
    (Cert.KB.run_named m g (Cert.KB.run_main m g (Cert.KB.body_obligation m g)))

/-- The idealized kernel's run, each device's result row named. -/
theorem run_ki (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Cert.KI.outAt m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KI.run_named m g (Cert.KI.run_main m g (Cert.KI.body_obligation m g))

theorem frame_ki : @Cert.frame_KernelIdeal Cert.KernelIdeal.Gen.facts Cert.Pre_finite_inputs_Kernel.Gen.facts :=
  fun m g _ => (θ_run (Cert.KernelIdeal.defs (F := Ideal)) _ _).mono (fun _ h c => (h c).2) (run_ki m g)

/-- The reference's frame is its generated run with the result dropped. -/
theorem frame_ri : @Cert.frame_ReferenceIdeal Cert.ReferenceIdeal.Gen.facts Cert.Pre_finite_inputs_ReferenceIdeal.Gen.facts :=
  fun m g _ => (θ_run (Cert.ReferenceIdeal.defs (F := Ideal)) _ _).mono (fun _ h c => (h c).2) (Cert.ReferenceIdeal.Value.run (F := Ideal) m g)

/-- Both programs end with the same row: the column maxima of the whole array, on every device. -/
theorem algebraic : @Cert.algebraic_KernelIdeal_ReferenceIdeal Cert.KernelIdeal.Gen.facts Cert.ReferenceIdeal.Gen.facts Cert.Pre_finite_inputs_Kernel.Gen.facts := by
  intro m g m' g' _ hblk
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono (fun _ h c => ⟨(h c).1.trans (Cert.KIValue.outAt_eq_ref m _ hblk c), (h c).2⟩) (run_ki m g)
  · exact (θ_run (Cert.ReferenceIdeal.defs (F := Ideal)) _ _).mono (fun _ h => ⟨(h 0).1.trans (Cert.ReferenceIdeal.Read.val_main_v1_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
